-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S2x800000 : Shape := ⟨2, ![2, 800000]⟩
abbrev S50000x1 : Shape := ⟨2, ![50000, 1]⟩
abbrev S2x4 : Shape := ⟨2, ![2, 4]⟩
abbrev S4x2048x32 : Shape := ⟨3, ![4, 2048, 32]⟩
abbrev S96x64 : Shape := ⟨2, ![96, 64]⟩
abbrev S64 : Shape := ⟨1, ![64]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S2x4 : S_.BroadcastsInDim S2x4 (![] : Fin 0 → Fin S2x4.rank)
  reducesTo_S2x4_S_d0_1 : S2x4.ReducesTo [0, 1] S_
  bcast_S_S4x2048x32 : S_.BroadcastsInDim S4x2048x32 (![] : Fin 0 → Fin S4x2048x32.rank)
  reducesTo_S4x2048x32_S_d0_1_2 : S4x2048x32.ReducesTo [0, 1, 2] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S50000x3 : S_.BroadcastsInDim S50000x3 (![] : Fin 0 → Fin S50000x3.rank)
  reducesTo_S50000x3_S_d0_1 : S50000x3.ReducesTo [0, 1] S_

variable [Facts]

def fn_part2 {F : FTy → Type} [FloatOps F] (main_arg0 : IVec S50000x3 32) (main_arg1 : IVec S50000x3 32) (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S50000x3 32 := broadcastInDim S50000x3 ![] bcast_S_S50000x3 main_c_14
  let main_v40 : IVec S50000x3 1 := cmpi .sge main_arg0 main_v39
  let main_c_15 : IVec S_ 1 := constantI S_ 1 1#1
  let main_v41 : IVec S_ 1 := (fun x v => Host.reduce IntOp.andi x v reducesTo_S50000x3_S_d0_1 h_S_) main_v40 main_c_15
  let main_v42 : IVec S_ 1 := andi main_v38 main_v41
  let main_c_16 : IVec S_ 32 := constantI S_ 32 0#32
  let main_v43 : IVec S50000x3 32 := broadcastInDim S50000x3 ![] bcast_S_S50000x3 main_c_16
  let main_v44 : IVec S50000x3 1 := cmpi .sge main_arg1 main_v43
  let main_c_17 : IVec S_ 1 := constantI S_ 1 1#1
  let main_v45 : IVec S_ 1 := (fun x v => Host.reduce IntOp.andi x v reducesTo_S50000x3_S_d0_1 h_S_) main_v44 main_c_17
  let main_v46 : IVec S_ 1 := andi main_v42 main_v45
  main_v46

def fn_part1 {F : FTy → Type} [FloatOps F] (main_arg0 : IVec S50000x3 32) (main_arg1 : IVec S50000x3 32) (main_arg8 : FVec F S2x4 .f32) (main_arg9 : FVec F S4x2048x32 .f32) (main_arg10 : FVec F S96x64 .f32) (main_arg11 : FVec F S64 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S2x4 .f32 := Host.absf main_arg8
  let main_cst_6 : FVec F S_ .f32 := constant S_ .f32 0x7F800000#32
  let main_v20 : FVec F S2x4 .f32 := broadcastInDim S2x4 ![] bcast_S_S2x4 main_cst_6
  let main_v21 : IVec S2x4 1 := cmpf .olt main_v19 main_v20
  let main_c_7 : IVec S_ 1 := constantI S_ 1 1#1
  let main_v22 : IVec S_ 1 := (fun x v => Host.reduce IntOp.andi x v reducesTo_S2x4_S_d0_1 h_S_) main_v21 main_c_7
  let main_v23 : IVec S_ 1 := andi main_v18 main_v22
  let main_v24 : FVec F S4x2048x32 .f32 := Host.absf main_arg9
  let main_cst_8 : FVec F S_ .f32 := constant S_ .f32 0x7F800000#32
  let main_v25 : FVec F S4x2048x32 .f32 := broadcastInDim S4x2048x32 ![] bcast_S_S4x2048x32 main_cst_8
  let main_v26 : IVec S4x2048x32 1 := cmpf .olt main_v24 main_v25
  let main_c_9 : IVec S_ 1 := constantI S_ 1 1#1
  let main_v27 : IVec S_ 1 := (fun x v => Host.reduce IntOp.andi x v reducesTo_S4x2048x32_S_d0_1_2 h_S_) main_v26 main_c_9
  let main_v28 : IVec S_ 1 := andi main_v23 main_v27
  let main_v29 : FVec F S96x64 .f32 := Host.absf main_arg10
  let main_cst_10 : FVec F S_ .f32 := constant S_ .f32 0x7F800000#32
  let main_v30 : FVec F S96x64 .f32 := broadcastInDim S96x64 ![] bcast_S_S96x64 main_cst_10
  let main_v31 : IVec S96x64 1 := cmpf .olt main_v29 main_v30
  let main_c_11 : IVec S_ 1 := constantI S_ 1 1#1
  let main_v32 : IVec S_ 1 := (fun x v => Host.reduce IntOp.andi x v reducesTo_S96x64_S_d0_1 h_S_) main_v31 main_c_11
  let main_v33 : IVec S_ 1 := andi main_v28 main_v32
  fn_part2 (F := F) main_arg0 main_arg1 main_arg11 main_v33

def fn {F : FTy → Type} [FloatOps F] (main_arg0 : IVec S50000x3 32) (main_arg1 : IVec S50000x3 32) (main_arg2 : IVec S2x800000 32) (main_arg3 : IVec S2x800000 32) (main_arg4 : FVec F S50000x1 .f32) (main_arg5 : FVec F S50000x1 .f32) (main_arg6 : FVec F S50000x1 .f32) (main_arg7 : FVec F S50000x1 .f32) (main_arg8 : FVec F S2x4 .f32) (main_arg9 : FVec F S4x2048x32 .f32) (main_arg10 : FVec F S96x64 .f32) (main_arg11 : FVec F S64 .f32) : IVec S_ 1 :=
  let main_v0 : FVec F S50000x1 .f32 := Host.absf main_arg4
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x1 .f32 := Host.absf main_arg5
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg6
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S50000x1 .f32 := Host.absf main_arg7
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg0 main_arg1 main_arg8 main_arg9 main_arg10 main_arg11 main_v13 main_v16
-- ==== Kernel.lean ====
abbrev S50000x3 : Shape := ⟨2, ![50000, 3]⟩
abbrev S2x800000 : Shape := ⟨2, ![2, 800000]⟩
abbrev S50000x1 : Shape := ⟨2, ![50000, 1]⟩
abbrev S2x4 : Shape := ⟨2, ![2, 4]⟩
abbrev S4x2048x32 : Shape := ⟨3, ![4, 2048, 32]⟩
abbrev S96x64 : Shape := ⟨2, ![96, 64]⟩
abbrev S64 : Shape := ⟨1, ![64]⟩
abbrev S4x65536 : Shape := ⟨2, ![4, 65536]⟩
abbrev S2x65536 : Shape := ⟨2, ![2, 65536]⟩
abbrev S2x2048x32 : Shape := ⟨3, ![2, 2048, 32]⟩
abbrev S1x2048x32 : Shape := ⟨3, ![1, 2048, 32]⟩
abbrev S2048x32 : Shape := ⟨2, ![2048, 32]⟩
abbrev S2048x64 : Shape := ⟨2, ![2048, 64]⟩
abbrev S_ : Shape := ⟨0, ![]⟩
abbrev S50000x192 : Shape := ⟨2, ![50000, 192]⟩
abbrev S1000x3 : Shape := ⟨2, ![1000, 3]⟩
abbrev S1000x1 : Shape := ⟨2, ![1000, 1]⟩
abbrev S1000x192 : Shape := ⟨2, ![1000, 192]⟩
abbrev S1000x2048 : Shape := ⟨2, ![1000, 2048]⟩
abbrev S1000x64 : Shape := ⟨2, ![1000, 64]⟩
abbrev S50000x3x2x32 : Shape := ⟨4, ![50000, 3, 2, 32]⟩
abbrev S50000x2x3x32 : Shape := ⟨4, ![50000, 2, 3, 32]⟩
abbrev S50000x2x96 : Shape := ⟨3, ![50000, 2, 96]⟩
abbrev S50000x1x96 : Shape := ⟨3, ![50000, 1, 96]⟩
abbrev S50000x96 : Shape := ⟨2, ![50000, 96]⟩
abbrev S1x800000 : Shape := ⟨2, ![1, 800000]⟩
abbrev S800000 : Shape := ⟨1, ![800000]⟩
abbrev S800000x1 : Shape := ⟨2, ![800000, 1]⟩
abbrev S800000x96 : Shape := ⟨2, ![800000, 96]⟩
abbrev S1600000x96 : Shape := ⟨2, ![1600000, 96]⟩
abbrev S1600000 : Shape := ⟨1, ![1600000]⟩
abbrev S1600000x1 : Shape := ⟨2, ![1600000, 1]⟩
abbrev S1x64 : Shape := ⟨2, ![1, 64]⟩
abbrev S50000x64 : Shape := ⟨2, ![50000, 64]⟩
abbrev S5000x96 : Shape := ⟨2, ![5000, 96]⟩
abbrev S5000x64 : Shape := ⟨2, ![5000, 64]⟩

abbrev nBuf : Space → Nat
  | .hbm => 124
  | .vmem => 26
  | .smem => 0
  | _ => 0

abbrev bufTy : (tb : Table) → Fin (tcTables nBuf tb) → BufTy
  | .hbm, ⟨0, _⟩ => ⟨S50000x3, .i32⟩
  | .hbm, ⟨1, _⟩ => ⟨S50000x3, .i32⟩
  | .hbm, ⟨2, _⟩ => ⟨S2x800000, .i32⟩
  | .hbm, ⟨3, _⟩ => ⟨S2x800000, .i32⟩
  | .hbm, ⟨4, _⟩ => ⟨S50000x1, .f32⟩
  | .hbm, ⟨5, _⟩ => ⟨S50000x1, .f32⟩
  | .hbm, ⟨6, _⟩ => ⟨S50000x1, .f32⟩
  | .hbm, ⟨7, _⟩ => ⟨S50000x1, .f32⟩
  | .hbm, ⟨8, _⟩ => ⟨S2x4, .f32⟩
  | .hbm, ⟨9, _⟩ => ⟨S4x2048x32, .f32⟩
  | .hbm, ⟨10, _⟩ => ⟨S96x64, .f32⟩
  | .hbm, ⟨11, _⟩ => ⟨S64, .f32⟩
  | .hbm, ⟨12, _⟩ => ⟨S4x65536, .f32⟩
  | .hbm, ⟨13, _⟩ => ⟨S2x65536, .f32⟩
  | .hbm, ⟨14, _⟩ => ⟨S2x2048x32, .f32⟩
  | .hbm, ⟨15, _⟩ => ⟨S1x2048x32, .f32⟩
  | .hbm, ⟨16, _⟩ => ⟨S2048x32, .f32⟩
  | .hbm, ⟨17, _⟩ => ⟨S1x2048x32, .f32⟩
  | .hbm, ⟨18, _⟩ => ⟨S2048x32, .f32⟩
  | .hbm, ⟨19, _⟩ => ⟨S2048x64, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S50000x3, .i32⟩
  | .hbm, ⟨24, _⟩ => ⟨S50000x3, .i32⟩
  | .hbm, ⟨25, _⟩ => ⟨S_, .i32⟩
  | .hbm, ⟨26, _⟩ => ⟨S50000x3, .i32⟩
  | .hbm, ⟨27, _⟩ => ⟨S50000x3, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S50000x3, .i32⟩
  | .hbm, ⟨32, _⟩ => ⟨S50000x3, .i32⟩
  | .hbm, ⟨33, _⟩ => ⟨S_, .i32⟩
  | .hbm, ⟨34, _⟩ => ⟨S50000x3, .i32⟩
  | .hbm, ⟨35, _⟩ => ⟨S50000x3, .i32⟩
  | .hbm, ⟨36, _⟩ => ⟨S50000x192, .f32⟩
  | .hbm, ⟨37, _⟩ => ⟨S50000x192, .f32⟩
  | .hbm, ⟨38, _⟩ => ⟨S50000x3x2x32, .f32⟩
  | .hbm, ⟨39, _⟩ => ⟨S50000x2x3x32, .f32⟩
  | .hbm, ⟨40, _⟩ => ⟨S50000x2x96, .f32⟩
  | .hbm, ⟨41, _⟩ => ⟨S50000x3x2x32, .f32⟩
  | .hbm, ⟨42, _⟩ => ⟨S50000x2x3x32, .f32⟩
  | .hbm, ⟨43, _⟩ => ⟨S50000x2x96, .f32⟩
  | .hbm, ⟨44, _⟩ => ⟨S50000x1x96, .f32⟩
  | .hbm, ⟨45, _⟩ => ⟨S50000x96, .f32⟩
  | .hbm, ⟨46, _⟩ => ⟨S1x800000, .i32⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S50000x1x96, .f32⟩
  | .hbm, ⟨58, _⟩ => ⟨S50000x96, .f32⟩
  | .hbm, ⟨59, _⟩ => ⟨S1x800000, .i32⟩
  | .hbm, ⟨60, _⟩ => ⟨S800000, .i32⟩
  | .hbm, ⟨61, _⟩ => ⟨S_, .i32⟩
  | .hbm, ⟨62, _⟩ => ⟨S800000, .i32⟩
  | .hbm, ⟨63, _⟩ => ⟨S800000, .i1⟩
  | .hbm, ⟨64, _⟩ => ⟨S_, .i32⟩
  | .hbm, ⟨65, _⟩ => ⟨S800000, .i32⟩
  | .hbm, ⟨66, _⟩ => ⟨S800000, .i32⟩
  | .hbm, ⟨67, _⟩ => ⟨S800000, .i32⟩
  | .hbm, ⟨68, _⟩ => ⟨S800000x1, .i32⟩
  | .hbm, ⟨69, _⟩ => ⟨S800000x96, .f32⟩
  | .hbm, ⟨70, _⟩ => ⟨S1600000x96, .f32⟩
  | .hbm, ⟨71, _⟩ => ⟨S1x800000, .i32⟩
  | .hbm, ⟨72, _⟩ => ⟨S800000, .i32⟩
  | .hbm, ⟨73, _⟩ => ⟨S1x800000, .i32⟩
  | .hbm, ⟨74, _⟩ => ⟨S800000, .i32⟩
  | .hbm, ⟨75, _⟩ => ⟨S1600000, .i32⟩
  | .hbm, ⟨76, _⟩ => ⟨S_, .f32⟩
  | .hbm, ⟨77, _⟩ => ⟨S50000x96, .f32⟩
  | .hbm, ⟨78, _⟩ => ⟨S1600000x1, .i32⟩
  | .hbm, ⟨79, _⟩ => ⟨S50000x96, .f32⟩
  | .hbm, ⟨80, _⟩ => ⟨S50000x96, .f32⟩
  | .hbm, ⟨81, _⟩ => ⟨S50000x96, .f32⟩
  | .hbm, ⟨82, _⟩ => ⟨S50000x1x96, .f32⟩
  | .hbm, ⟨83, _⟩ => ⟨S50000x96, .f32⟩
  | .hbm, ⟨84, _⟩ => ⟨S1x800000, .i32⟩
  | .hbm, ⟨85, _⟩ => ⟨S800000, .i32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000x96, .f32⟩
  | .hbm, ⟨95, _⟩ => ⟨S50000x1x96, .f32⟩
  | .hbm, ⟨96, _⟩ => ⟨S50000x96, .f32⟩
  | .hbm, ⟨97, _⟩ => ⟨S1x800000, .i32⟩
  | .hbm, ⟨98, _⟩ => ⟨S800000, .i32⟩
  | .hbm, ⟨99, _⟩ => ⟨S_, .i32⟩
  | .hbm, ⟨100, _⟩ => ⟨S800000, .i32⟩
  | .hbm, ⟨101, _⟩ => ⟨S800000, .i1⟩
  | .hbm, ⟨102, _⟩ => ⟨S_, .i32⟩
  | .hbm, ⟨103, _⟩ => ⟨S800000, .i32⟩
  | .hbm, ⟨104, _⟩ => ⟨S800000, .i32⟩
  | .hbm, ⟨105, _⟩ => ⟨S800000, .i32⟩
  | .hbm, ⟨106, _⟩ => ⟨S800000x1, .i32⟩
  | .hbm, ⟨107, _⟩ => ⟨S800000x96, .f32⟩
  | .hbm, ⟨108, _⟩ => ⟨S1600000x96, .f32⟩
  | .hbm, ⟨109, _⟩ => ⟨S1x800000, .i32⟩
  | .hbm, ⟨110, _⟩ => ⟨S800000, .i32⟩
  | .hbm, ⟨111, _⟩ => ⟨S1x800000, .i32⟩
  | .hbm, ⟨112, _⟩ => ⟨S800000, .i32⟩
  | .hbm, ⟨113, _⟩ => ⟨S1600000, .i32⟩
  | .hbm, ⟨114, _⟩ => ⟨S_, .f32⟩
  | .hbm, ⟨115, _⟩ => ⟨S50000x96, .f32⟩
  | .hbm, ⟨116, _⟩ => ⟨S1600000x1, .i32⟩
  | .hbm, ⟨117, _⟩ => ⟨S50000x96, .f32⟩
  | .hbm, ⟨118, _⟩ => ⟨S50000x96, .f32⟩
  | .hbm, ⟨119, _⟩ => ⟨S50000x96, .f32⟩
  | .hbm, ⟨120, _⟩ => ⟨S1x64, .f32⟩
  | .hbm, ⟨121, _⟩ => ⟨S50000x64, .f32⟩
  | .hbm, ⟨122, _⟩ => ⟨S1x64, .f32⟩
  | .hbm, ⟨123, _⟩ => ⟨S50000x64, .f32⟩
  | .local _ .vmem, ⟨0, _⟩ => ⟨S1000x3, .i32⟩
  | .local _ .vmem, ⟨1, _⟩ => ⟨S1000x3, .i32⟩
  | .local _ .vmem, ⟨2, _⟩ => ⟨S2048x64, .f32⟩
  | .local _ .vmem, ⟨3, _⟩ => ⟨S1000x1, .f32⟩
  | .local _ .vmem, ⟨4, _⟩ => ⟨S1000x1, .f32⟩
  | .local _ .vmem, ⟨5, _⟩ => ⟨S1000x192, .f32⟩
  | .local _ .vmem, ⟨6, _⟩ => ⟨S1000x192, .f32⟩
  | .local _ .vmem, ⟨7, _⟩ => ⟨S1000x3, .i32⟩
  | .local _ .vmem, ⟨8, _⟩ => ⟨S1000x3, .i32⟩
  | .local _ .vmem, ⟨9, _⟩ => ⟨S2048x64, .f32⟩
  | .local _ .vmem, ⟨10, _⟩ => ⟨S1000x1, .f32⟩
  | .local _ .vmem, ⟨11, _⟩ => ⟨S1000x1, .f32⟩
  | .local _ .vmem, ⟨12, _⟩ => ⟨S1000x192, .f32⟩
  | .local _ .vmem, ⟨13, _⟩ => ⟨S1000x192, .f32⟩
  | .local _ .vmem, ⟨14, _⟩ => ⟨S5000x96, .f32⟩
  | .local _ .vmem, ⟨15, _⟩ => ⟨S5000x96, .f32⟩
  | .local _ .vmem, ⟨16, _⟩ => ⟨S96x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x96, .f32⟩
  | .local _ .vmem, ⟨21, _⟩ => ⟨S5000x96, .f32⟩
  | .local _ .vmem, ⟨22, _⟩ => ⟨S96x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S50000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_c_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_1 : Ref sig .tc := ⟨.hbm, 28, rfl⟩
abbrev main_c_2 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_c_3 : Ref sig .tc := ⟨.hbm, 48, rfl⟩
abbrev main_v22 : Ref sig .tc := ⟨.hbm, 49, rfl⟩
abbrev main_v23 : Ref sig .tc := ⟨.hbm, 50, rfl⟩
abbrev main_c_4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_5 : Ref sig .tc := ⟨.hbm, 61, rfl⟩
abbrev main_v33 : Ref sig .tc := ⟨.hbm, 62, rfl⟩
abbrev main_v34 : Ref sig .tc := ⟨.hbm, 63, rfl⟩
abbrev main_c_6 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_7 : Ref sig .tc := ⟨.hbm, 86, rfl⟩
abbrev main_v55 : Ref sig .tc := ⟨.hbm, 87, rfl⟩
abbrev main_v56 : Ref sig .tc := ⟨.hbm, 88, rfl⟩
abbrev main_c_8 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_c_9 : Ref sig .tc := ⟨.hbm, 99, rfl⟩
abbrev main_v66 : Ref sig .tc := ⟨.hbm, 100, rfl⟩
abbrev main_v67 : Ref sig .tc := ⟨.hbm, 101, rfl⟩
abbrev main_c_10 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_cst_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x3 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S4x2048x32_S4x65536 : S4x2048x32.ShapeCasts S4x65536
  shapeCasts_S2x65536_S2x2048x32 : S2x65536.ShapeCasts S2x2048x32
  slices_S2x2048x32_S1x2048x32_0_0_0 : S2x2048x32.Slices ![0, 0, 0] S1x2048x32
  shapeCasts_S1x2048x32_S2048x32 : S1x2048x32.ShapeCasts S2048x32
  slices_S2x2048x32_S1x2048x32_1_0_0 : S2x2048x32.Slices ![1, 0, 0] S1x2048x32
  concatenates_S2048x32_S2048x32_S2048x64_d1 : Shape.Concatenates [S2048x32, S2048x32] S2048x64 1
  bcast_S_S50000x3 : S_.BroadcastsInDim S50000x3 (![] : Fin 0 → Fin S50000x3.rank)
  inb_S1000x3_S1000x3_0_0 : ∀ a, (![0, 0] : Fin 2 → Nat) a + S1000x3.size a ≤ S1000x3.size a
  h_S1000x3 : 0 < S1000x3.numel
  shapeCasts_S1000x3_S1000x3 : S1000x3.ShapeCasts S1000x3
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S1000x1_S1000x1_0_0 : ∀ a, (![0, 0] : Fin 2 → Nat) a + S1000x1.size a ≤ S1000x1.size a
  h_S1000x1 : 0 < S1000x1.numel
  iota_S1000x2048_d1_w32 : S1000x2048.Iotas .tc 32 [1]
  slices_S1000x3_o0_0_S1000x1 : S1000x3.Slices ![0, 0] S1000x1
  broadcasts_S1000x1_S1000x2048 : S1000x1.Broadcasts S1000x2048
  natLt_1_32 : 1 < 32
  slices_S1000x3_o0_1_S1000x1 : S1000x3.Slices ![0, 1] S1000x1
  slices_S1000x3_o0_2_S1000x1 : S1000x3.Slices ![0, 2] S1000x1
  concatenates_S1000x64_S1000x64_S1000x64_S1000x192_d1 : Shape.Concatenates [S1000x64, S1000x64, S1000x64] S1000x192 1
  broadcasts_S1000x1_S1000x192 : S1000x1.Broadcasts S1000x192
  inb_S1000x192_S1000x192_0_0 : ∀ a, (![0, 0] : Fin 2 → Nat) a + S1000x192.size a ≤ S1000x192.size a
  h_S1000x192 : 0 < S1000x192.numel
  shapeCasts_S50000x192_S50000x3x2x32 : S50000x192.ShapeCasts S50000x3x2x32
  transposes_S50000x3x2x32_S50000x2x3x32_0_2_1_3 : S50000x3x2x32.Transposes [0, 2, 1, 3] S50000x2x3x32
  shapeCasts_S50000x2x3x32_S50000x2x96 : S50000x2x3x32.ShapeCasts S50000x2x96
  slices_S50000x2x96_S50000x1x96_0_0_0 : S50000x2x96.Slices ![0, 0, 0] S50000x1x96
  shapeCasts_S50000x1x96_S50000x96 : S50000x1x96.ShapeCasts S50000x96
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S50000x2x96_S50000x1x96_0_1_0 : S50000x2x96.Slices ![0, 1, 0] S50000x1x96
  slices_S2x800000_S1x800000_1_0 : S2x800000.Slices ![1, 0] S1x800000
  concatenates_S800000x96_S800000x96_S1600000x96_d0 : Shape.Concatenates [S800000x96, S800000x96] S1600000x96 0
  concatenates_S800000_S800000_S1600000_d0 : Shape.Concatenates [S800000, S800000] S1600000 0
  bcast_S_S50000x96 : S_.BroadcastsInDim S50000x96 (![] : Fin 0 → Fin S50000x96.rank)
  bcast_S1600000_S1600000x1_0 : S1600000.BroadcastsInDim S1600000x1 (![0] : Fin 1 → Fin S1600000x1.rank)
  bcast_S50000x1_S50000x96_0_1 : S50000x1.BroadcastsInDim S50000x96 (![0, 1] : Fin 2 → Fin S50000x96.rank)
  shapeCasts_S64_S1x64 : S64.ShapeCasts S1x64
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  dot_S2x4_S4x65536_S2x65536_1_0_0_1_n_n_wf : DotDims.WF S2x4 S4x65536 S2x65536 [1] [0] [0] [1] [] []
  dot_S1000x2048_S2048x64_S1000x64_1_0_0_1_n_n_wf : DotDims.WF S1000x2048 S2048x64 S1000x64 [1] [0] [0] [1] [] []
  gather_S50000x96_S800000x1_S800000x96_1_0_n_n_0_1_196_wf : GatherDims.WF S50000x96 S800000x1 S800000x96 [1] [0] [] [0] [] 1 ![1, 96]
  scatter_S50000x96_S1600000x1_S1600000x96_1_0_0_1_wf : ScatterDims.WF S50000x96 S1600000x1 S1600000x96 [1] [0] [0] 1
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x3.size a ≤ S50000x3.size a
  hwx0_0 : ∀ i : grid0.Coords, EltTy.bits .i32 = 32 ∨ (Rect.block (s := S50000x3) S1000x3.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x1.size a ≤ S50000x1.size a
  hwx0_2 : ∀ i : grid0.Coords, EltTy.bits .f32 = 32 ∨ (Rect.block (s := S50000x1) S1000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x192.size a ≤ S50000x192.size a
  hwx0_3 : ∀ i : grid0.Coords, EltTy.bits .f32 = 32 ∨ (Rect.block (s := S50000x192) S1000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x3.size a ≤ S50000x3.size a
  hwx1_0 : ∀ i : grid1.Coords, EltTy.bits .i32 = 32 ∨ (Rect.block (s := S50000x3) S1000x3.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S2048x64.size a
  hwx1_1 : ∀ i : grid1.Coords, EltTy.bits .f32 = 32 ∨ (Rect.block (s := S2048x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x1.size a ≤ S50000x1.size a
  hwx1_2 : ∀ i : grid1.Coords, EltTy.bits .f32 = 32 ∨ (Rect.block (s := S50000x1) S1000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x192.size a ≤ S50000x192.size a
  hwx1_3 : ∀ i : grid1.Coords, EltTy.bits .f32 = 32 ∨ (Rect.block (s := S50000x192) S1000x192.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x64.size a ≤ S96x64.size a
  hwx2_1 : ∀ i : grid2.Coords, EltTy.bits .f32 = 32 ∨ (Rect.block (s := S96x64) S96x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x64.size a ≤ S96x64.size a
  hwx3_1 : ∀ i : grid3.Coords, EltTy.bits .f32 = 32 ∨ (Rect.block (s := S96x64) S96x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)

variable [Facts₀]

def dot_S2x4_S4x65536_S2x65536_1_0_0_1_n_n : DotDims S2x4 S4x65536 S2x65536 where
  lhsContracting := [1]
  rhsContracting := [0]
  lhsNonContracting := [0]
  rhsNonContracting := [1]
  lhsBatch := []
  rhsBatch := []
  wf := dot_S2x4_S4x65536_S2x65536_1_0_0_1_n_n_wf
def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S1600000x1_S1600000x96_1_0_0_1 : ScatterDims S50000x96 S1600000x1 S1600000x96 where
  updateWindowDims := [1]
  insertedWindowDims := [0]
  scatterDimsToOperandDims := [0]
  indexVectorDim := 1
  wf := scatter_S50000x96_S1600000x1_S1600000x96_1_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_v8) S1000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S1000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1000x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v83) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S96x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v50) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S96x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v86) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v87) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x3 : Shape := ⟨2, ![50000, 3]⟩
abbrev S2x800000 : Shape := ⟨2, ![2, 800000]⟩
abbrev S50000x1 : Shape := ⟨2, ![50000, 1]⟩
abbrev S2x4 : Shape := ⟨2, ![2, 4]⟩
abbrev S4x2048x32 : Shape := ⟨3, ![4, 2048, 32]⟩
abbrev S96x64 : Shape := ⟨2, ![96, 64]⟩
abbrev S64 : Shape := ⟨1, ![64]⟩
abbrev S4x65536 : Shape := ⟨2, ![4, 65536]⟩
abbrev S2x65536 : Shape := ⟨2, ![2, 65536]⟩
abbrev S2x2048x32 : Shape := ⟨3, ![2, 2048, 32]⟩
abbrev S_ : Shape := ⟨0, ![]⟩
abbrev S50000x96 : Shape := ⟨2, ![50000, 96]⟩
abbrev S1x2048x32 : Shape := ⟨3, ![1, 2048, 32]⟩
abbrev S2048x32 : Shape := ⟨2, ![2048, 32]⟩
abbrev S50000x3x1 : Shape := ⟨3, ![50000, 3, 1]⟩
abbrev S50000x3x32 : Shape := ⟨3, ![50000, 3, 32]⟩
abbrev S1x800000 : Shape := ⟨2, ![1, 800000]⟩
abbrev S800000 : Shape := ⟨1, ![800000]⟩
abbrev S800000x1 : Shape := ⟨2, ![800000, 1]⟩
abbrev S800000x96 : Shape := ⟨2, ![800000, 96]⟩
abbrev S50000x64 : Shape := ⟨2, ![50000, 64]⟩
abbrev S1x64 : Shape := ⟨2, ![1, 64]⟩

abbrev nBuf : Space → Nat
  | .hbm => 177
  | .vmem => 0
  | .smem => 0
  | _ => 0

abbrev hbmTy0_0 (i : Nat) : BufTy := match i % 128 with
  | 0 => ⟨S50000x3, .i32⟩
  | 1 => ⟨S50000x3, .i32⟩
  | 2 => ⟨S2x800000, .i32⟩
  | 3 => ⟨S2x800000, .i32⟩
  | 4 => ⟨S50000x1, .f32⟩
  | 5 => ⟨S50000x1, .f32⟩
  | 6 => ⟨S50000x1, .f32⟩
  | 7 => ⟨S50000x1, .f32⟩
  | 8 => ⟨S2x4, .f32⟩
  | 9 => ⟨S4x2048x32, .f32⟩
  | 10 => ⟨S96x64, .f32⟩
  | 11 => ⟨S64, .f32⟩
  | 12 => ⟨S4x65536, .f32⟩
  | 13 => ⟨S2x65536, .f32⟩
  | 14 => ⟨S2x2048x32, .f32⟩
  | 15 => ⟨S_, .f32⟩
  | 16 => ⟨S50000x96, .f32⟩
  | 17 => ⟨S_, .f32⟩
  | 18 => ⟨S50000x96, .f32⟩
  | 19 => ⟨S1x2048x32, .f32⟩
  | 20 => ⟨S2048x32, .f32⟩
  | 21 => ⟨S_, .i32⟩
  | 22 => ⟨S50000x3, .i32⟩
  | 23 => ⟨S50000x3, .i1⟩
  | 24 => ⟨S_, .i32⟩
  | 25 => ⟨S50000x3, .i32⟩
  | 26 => ⟨S50000x3, .i32⟩
  | 27 => ⟨S50000x3, .i32⟩
  | 28 => ⟨S50000x3x1, .i32⟩
  | 29 => ⟨S50000x3x32, .f32⟩
  | 30 => ⟨S50000x96, .f32⟩
  | 31 => ⟨S50000x96, .f32⟩
  | 32 => ⟨S50000x96, .f32⟩
  | 33 => ⟨S1x2048x32, .f32⟩
  | 34 => ⟨S2048x32, .f32⟩
  | 35 => ⟨S_, .i32⟩
  | 36 => ⟨S50000x3, .i32⟩
  | 37 => ⟨S50000x3, .i1⟩
  | 38 => ⟨S_, .i32⟩
  | 39 => ⟨S50000x3, .i32⟩
  | 40 => ⟨S50000x3, .i32⟩
  | 41 => ⟨S50000x3, .i32⟩
  | 42 => ⟨S50000x3x1, .i32⟩
  | 43 => ⟨S50000x3x32, .f32⟩
  | 44 => ⟨S50000x96, .f32⟩
  | 45 => ⟨S50000x96, .f32⟩
  | 46 => ⟨S50000x96, .f32⟩
  | 47 => ⟨S1x800000, .i32⟩
  | 48 => ⟨S800000, .i32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x96, .f32⟩
  | 58 => ⟨S1x800000, .i32⟩
  | 59 => ⟨S800000, .i32⟩
  | 60 => ⟨S_, .f32⟩
  | 61 => ⟨S50000x96, .f32⟩
  | 62 => ⟨S800000x1, .i32⟩
  | 63 => ⟨S50000x96, .f32⟩
  | 64 => ⟨S50000x96, .f32⟩
  | 65 => ⟨S50000x96, .f32⟩
  | 66 => ⟨S50000x96, .f32⟩
  | 67 => ⟨S1x800000, .i32⟩
  | 68 => ⟨S800000, .i32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x96, .f32⟩
  | 78 => ⟨S1x800000, .i32⟩
  | 79 => ⟨S800000, .i32⟩
  | 80 => ⟨S_, .f32⟩
  | 81 => ⟨S50000x96, .f32⟩
  | 82 => ⟨S800000x1, .i32⟩
  | 83 => ⟨S50000x96, .f32⟩
  | 84 => ⟨S50000x96, .f32⟩
  | 85 => ⟨S50000x96, .f32⟩
  | 86 => ⟨S50000x96, .f32⟩
  | 87 => ⟨S1x2048x32, .f32⟩
  | 88 => ⟨S2048x32, .f32⟩
  | 89 => ⟨S_, .i32⟩
  | 90 => ⟨S50000x3, .i32⟩
  | 91 => ⟨S50000x3, .i1⟩
  | 92 => ⟨S_, .i32⟩
  | 93 => ⟨S50000x3, .i32⟩
  | 94 => ⟨S50000x3, .i32⟩
  | 95 => ⟨S50000x3, .i32⟩
  | 96 => ⟨S50000x3x1, .i32⟩
  | 97 => ⟨S50000x3x32, .f32⟩
  | 98 => ⟨S50000x96, .f32⟩
  | 99 => ⟨S50000x96, .f32⟩
  | 100 => ⟨S50000x96, .f32⟩
  | 101 => ⟨S1x2048x32, .f32⟩
  | 102 => ⟨S2048x32, .f32⟩
  | 103 => ⟨S_, .i32⟩
  | 104 => ⟨S50000x3, .i32⟩
  | 105 => ⟨S50000x3, .i1⟩
  | 106 => ⟨S_, .i32⟩
  | 107 => ⟨S50000x3, .i32⟩
  | 108 => ⟨S50000x3, .i32⟩
  | 109 => ⟨S50000x3, .i32⟩
  | 110 => ⟨S50000x3x1, .i32⟩
  | 111 => ⟨S50000x3x32, .f32⟩
  | 112 => ⟨S50000x96, .f32⟩
  | 113 => ⟨S50000x96, .f32⟩
  | 114 => ⟨S50000x96, .f32⟩
  | 115 => ⟨S1x800000, .i32⟩
  | 116 => ⟨S800000, .i32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x96, .f32⟩
  | 126 => ⟨S1x800000, .i32⟩
  | 127 => ⟨S800000, .i32⟩
  | _ => ⟨S50000x3, .i32⟩

abbrev hbmTy0_1 (i : Nat) : BufTy := match i % 128 with
  | 0 => ⟨S_, .f32⟩
  | 1 => ⟨S50000x96, .f32⟩
  | 2 => ⟨S800000x1, .i32⟩
  | 3 => ⟨S50000x96, .f32⟩
  | 4 => ⟨S50000x96, .f32⟩
  | 5 => ⟨S50000x96, .f32⟩
  | 6 => ⟨S50000x96, .f32⟩
  | 7 => ⟨S1x800000, .i32⟩
  | 8 => ⟨S800000, .i32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x96, .f32⟩
  | 18 => ⟨S1x800000, .i32⟩
  | 19 => ⟨S800000, .i32⟩
  | 20 => ⟨S_, .f32⟩
  | 21 => ⟨S50000x96, .f32⟩
  | 22 => ⟨S800000x1, .i32⟩
  | 23 => ⟨S50000x96, .f32⟩
  | 24 => ⟨S50000x96, .f32⟩
  | 25 => ⟨S50000x96, .f32⟩
  | 26 => ⟨S50000x96, .f32⟩
  | 27 => ⟨S_, .f32⟩
  | 28 => ⟨S50000x96, .f32⟩
  | 29 => ⟨S50000x96, .i1⟩
  | 30 => ⟨S_, .f32⟩
  | 31 => ⟨S50000x96, .f32⟩
  | 32 => ⟨S50000x96, .f32⟩
  | 33 => ⟨S50000x96, .f32⟩
  | 34 => ⟨S50000x64, .f32⟩
  | 35 => ⟨S1x64, .f32⟩
  | 36 => ⟨S50000x64, .f32⟩
  | 37 => ⟨S50000x64, .f32⟩
  | 38 => ⟨S_, .f32⟩
  | 39 => ⟨S50000x96, .f32⟩
  | 40 => ⟨S50000x96, .i1⟩
  | 41 => ⟨S_, .f32⟩
  | 42 => ⟨S50000x96, .f32⟩
  | 43 => ⟨S50000x96, .f32⟩
  | 44 => ⟨S50000x96, .f32⟩
  | 45 => ⟨S50000x64, .f32⟩
  | 46 => ⟨S1x64, .f32⟩
  | 47 => ⟨S50000x64, .f32⟩
  | 48 => ⟨S50000x64, .f32⟩
  | _ => ⟨S50000x3, .i32⟩

abbrev hbmTy (i : Nat) : BufTy := match i / 128 with
  | 0 => hbmTy0_0 i
  | 1 => hbmTy0_1 i
  | _ => ⟨S50000x3, .i32⟩

abbrev bufTy : (tb : Table) → Fin (tcTables nBuf tb) → BufTy
  | .hbm, ⟨i, _⟩ => hbmTy i
  | _, _ => ⟨S50000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_7 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_10 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_12 : Ref sig .tc := ⟨.hbm, 103, rfl⟩
abbrev main_v77 : Ref sig .tc := ⟨.hbm, 104, rfl⟩
abbrev main_v78 : Ref sig .tc := ⟨.hbm, 105, rfl⟩
abbrev main_c_13 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_c_14 : Ref sig .tc := ⟨.hbm, 117, rfl⟩
abbrev main_v89 : Ref sig .tc := ⟨.hbm, 118, rfl⟩
abbrev main_v90 : Ref sig .tc := ⟨.hbm, 119, rfl⟩
abbrev main_c_15 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_16 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_c_17 : Ref sig .tc := ⟨.hbm, 137, rfl⟩
abbrev main_v106 : Ref sig .tc := ⟨.hbm, 138, rfl⟩
abbrev main_v107 : Ref sig .tc := ⟨.hbm, 139, rfl⟩
abbrev main_c_18 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_cst_19 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_cst_20 : Ref sig .tc := ⟨.hbm, 155, rfl⟩
abbrev main_v121 : Ref sig .tc := ⟨.hbm, 156, rfl⟩
abbrev main_v122 : Ref sig .tc := ⟨.hbm, 157, rfl⟩
abbrev main_cst_21 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_22 : Ref sig .tc := ⟨.hbm, 166, rfl⟩
abbrev main_v130 : Ref sig .tc := ⟨.hbm, 167, rfl⟩
abbrev main_v131 : Ref sig .tc := ⟨.hbm, 168, rfl⟩
abbrev main_cst_23 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩

abbrev nD : Nat := 1
abbrev τ : Topo := Topo.v7x

variable {F : FTy → Type} [FloatOps F]

class Facts₀ : Prop where
  shapeCasts_S4x2048x32_S4x65536 : S4x2048x32.ShapeCasts S4x65536
  shapeCasts_S2x65536_S2x2048x32 : S2x65536.ShapeCasts S2x2048x32
  bcast_S_S50000x96 : S_.BroadcastsInDim S50000x96 (![] : Fin 0 → Fin S50000x96.rank)
  slices_S2x2048x32_S1x2048x32_0_0_0 : S2x2048x32.Slices ![0, 0, 0] S1x2048x32
  shapeCasts_S1x2048x32_S2048x32 : S1x2048x32.ShapeCasts S2048x32
  bcast_S_S50000x3 : S_.BroadcastsInDim S50000x3 (![] : Fin 0 → Fin S50000x3.rank)
  bcast_S50000x3_S50000x3x1_0_1 : S50000x3.BroadcastsInDim S50000x3x1 (![0, 1] : Fin 2 → Fin S50000x3x1.rank)
  shapeCasts_S50000x3x32_S50000x96 : S50000x3x32.ShapeCasts S50000x96
  bcast_S50000x1_S50000x96_0_1 : S50000x1.BroadcastsInDim S50000x96 (![0, 1] : Fin 2 → Fin S50000x96.rank)
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x2048x32_S1x2048x32_1_0_0 : S2x2048x32.Slices ![1, 0, 0] S1x2048x32
  slices_S2x800000_S1x800000_1_0 : S2x800000.Slices ![1, 0] S1x800000
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S2x4_S4x65536_S2x65536_1_0_0_1_n_n_wf : DotDims.WF S2x4 S4x65536 S2x65536 [1] [0] [0] [1] [] []
  gather_S2048x32_S50000x3x1_S50000x3x32_2_0_n_n_0_2_132_wf : GatherDims.WF S2048x32 S50000x3x1 S50000x3x32 [2] [0] [] [0] [] 2 ![1, 32]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x64_S50000x64_1_0_0_1_n_n_wf : DotDims.WF S50000x96 S96x64 S50000x64 [1] [0] [0] [1] [] []

variable [Facts₀]

def dot_S2x4_S4x65536_S2x65536_1_0_0_1_n_n : DotDims S2x4 S4x65536 S2x65536 where
  lhsContracting := [1]
  rhsContracting := [0]
  lhsNonContracting := [0]
  rhsNonContracting := [1]
  lhsBatch := []
  rhsBatch := []
  wf := dot_S2x4_S4x65536_S2x65536_1_0_0_1_n_n_wf
def gather_S2048x32_S50000x3x1_S50000x3x32_2_0_n_n_0_2_132 : GatherDims S2048x32 S50000x3x1 S50000x3x32 where
  offsetDims := [2]
  collapsedSliceDims := [0]
  operandBatchingDims := []
  startIndicesBatchingDims := []
  startIndexMap := [0]
  indexVectorDim := 2
  sliceSizes := ![1, 32]
  wf := gather_S2048x32_S50000x3x1_S50000x3x32_2_0_n_n_0_2_132_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.Spec.lean ====
/-
  What the two programs compute, as functions on the extended reals, and the algebra that joins them.

  A bipartite graph layer. A weight table per relation r, W r k j = sum over the four basis matrices b of
  att r b * basis b k j. A node's feature row for relation r is three rows of W r, side by side, selected by the
  node's three indices, scaled by the node's source normaliser; entry q = 32 c + j of it is entry j of the row
  chosen by index c. Along each edge e of relation r the source node's feature row is added to the destination
  node's accumulator; the accumulator is scaled by the destination's normaliser, passed through the leaky
  rectifier, multiplied by a 96 x 64 matrix and shifted by a bias.

  One program accumulates relation by relation, scaling each relation's total before adding it; the other lays both
  relations' edges end to end, accumulates once and scales once. On real numbers these agree by distributivity,
  which the extended reals lack at the infinities: the join below asks that the totals and the scale are real.
-/
import Idealize.ShloMosaic.PureOps.Ideal
import Idealize.ShloMosaic.Lib.ValueIdx

noncomputable section

open scoped BigOperators

namespace Cert.Spec

open Idealize.ShloMosaic Idealize.ShloMosaic.ValueIdx

/-! ## Extended reals that are real numbers -/

/-- An extended real that is a real number. -/
def IsReal (x : EReal) : Prop := ∃ r : ℝ, x = (r : EReal)

theorem isReal_zero : IsReal 0 := ⟨0, EReal.coe_zero.symm⟩

theorem isReal_coe (r : ℝ) : IsReal (r : EReal) := ⟨r, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- Distributivity on real numbers, stated on the extended reals. -/
theorem add_mul_of_isReal {a b c : EReal} (ha : IsReal a) (hb : IsReal b) (hc : IsReal c) :
    (a + b) * c = a * c + b * c := by
  obtain ⟨x, rfl⟩ := ha
  obtain ⟨y, rfl⟩ := hb
  obtain ⟨z, rfl⟩ := hc
  rw [← EReal.coe_add, ← EReal.coe_mul, ← EReal.coe_mul, ← EReal.coe_mul, ← EReal.coe_add, add_mul]

/-- THE JOIN. Two totals accumulated onto zero together and scaled once, against each accumulated onto zero, scaled, and
    added to a running sum that starts at zero. -/
theorem scale_once_eq_scale_each {s₀ s₁ c : EReal} (h₀ : IsReal s₀) (h₁ : IsReal s₁) (hc : IsReal c) :
    (0 + (s₀ + s₁)) * c = (0 + (0 + s₀) * c) + (0 + s₁) * c := by
  rw [zero_add, zero_add, zero_add, zero_add, add_mul_of_isReal h₀ h₁ hc]

/-! ## Sums over edges laid end to end -/

/-- A sum over the positions of two lists laid end to end that satisfy a test on a key is the two lists' sums. -/
theorem sum_filter_two_lists {N M : Nat} (hM : M = N + N) {κ : Type} (P : κ → Prop) [DecidablePred P]
    (d₀ d₁ : Fin N → κ) (g₀ g₁ : Fin N → EReal) (dc : Fin M → κ) (gc : Fin M → EReal)
    (hd₀ : ∀ (e : Fin M) (h : e.val < N), dc e = d₀ ⟨e.val, h⟩)
    (hd₁ : ∀ (e : Fin M) (h : N ≤ e.val), dc e = d₁ ⟨e.val - N, by have := e.isLt; omega⟩)
    (hg₀ : ∀ (e : Fin M) (h : e.val < N), gc e = g₀ ⟨e.val, h⟩)
    (hg₁ : ∀ (e : Fin M) (h : N ≤ e.val), gc e = g₁ ⟨e.val - N, by have := e.isLt; omega⟩) :
    ∑ e ∈ Finset.univ.filter (fun e : Fin M => P (dc e)), gc e
      = ∑ e ∈ Finset.univ.filter (fun e : Fin N => P (d₀ e)), g₀ e
        + ∑ e ∈ Finset.univ.filter (fun e : Fin N => P (d₁ e)), g₁ e := by
  subst hM
  rw [Finset.sum_filter, Finset.sum_filter, Finset.sum_filter, Fin.sum_univ_add]
  congr 1
  · refine Finset.sum_congr rfl fun e _ => ?_
    rw [hd₀ (Fin.castAdd N e) e.isLt, hg₀ (Fin.castAdd N e) e.isLt]
    rfl
  · refine Finset.sum_congr rfl fun e _ => ?_
    have h : N ≤ (Fin.natAdd N e).val := by simp
    rw [hd₁ (Fin.natAdd N e) h, hg₁ (Fin.natAdd N e) h]
    have he : (⟨(Fin.natAdd N e).val - N, by have := e.isLt; simp⟩ : Fin N) = e := Fin.ext (by simp)
    rw [he]

/-! ## The quantities, as the programs spell them

Arrays are functions of an index built from coordinates (`ix2 n q`). Words are 32-bit integers read signed. -/

abbrev Arr2 (a b : Nat) : Type := (⟨2, ![a, b]⟩ : Shape).Idx → EReal
abbrev Wrd2 (a b : Nat) : Type := (⟨2, ![a, b]⟩ : Shape).Idx → BitVec 32
abbrev Arr3 (a b c : Nat) : Type := (⟨3, ![a, b, c]⟩ : Shape).Idx → EReal

/-- The leaky rectifier as both programs print it: x where x ≥ 0, else the single-precision 0.1 times x. -/
def act (x : EReal) : EReal :=
  Scalar.select (Ideal.cmp .oge x (Ideal.ofBits .f32 0x00000000#32)) x (Ideal.ofBits .f32 0x3DCCCCCD#32 * x)

/-- The last layer at (n, o): the rectified row n of h against column o of w, plus the bias at o. -/
def fcAt (h : Arr2 50000 96) (w : Arr2 96 64) (b : Fin 64 → EReal) (n : Fin 50000) (o : Fin 64) : EReal :=
  ∑ k : Fin 96, act (h (ix2 n k)) * w (ix2 k o) + b o

/-- Relation r's weight table at row k, entry j: the basis matrices combined with relation r's coefficients. -/
def wt (att : Arr2 2 4) (basis : Arr3 4 2048 32) (r : Fin 2) (k : Fin 2048) (j : Fin 32) : EReal :=
  ∑ b : Fin 4, att (ix2 r b) * basis (ix3 b k j)

/-- A word read signed and clamped to a row of a K-row table. -/
def rowOf (K : Nat) (hK : 0 < K) (w : BitVec 32) : Fin K := ⟨min w.toInt.toNat (K - 1), by omega⟩

/-- A negative word moved up by the table's height, other words kept: negative indices count from the end. -/
def wrap (height : BitVec 32) (w : BitVec 32) : BitVec 32 :=
  Scalar.select (IntOp.cmpi .slt w 0#32) (IntOp.addi w height) w

/-- A word clamped into [0, 2047], signed: first raised to 0, then lowered to 2047. -/
def clipW (w : BitVec 32) : BitVec 32 := IntOp.minsi 2047#32 (IntOp.maxsi 0#32 w)

/-- "Word w is k" as a float: the comparison's bit, widened to 32 bits and converted signed. -/
def oneHot (w : BitVec 32) (k : Nat) : EReal :=
  ((((IntOp.cmpi .eq (BitVec.ofNat 32 k) w).setWidth 32).toInt : ℝ) : EReal)

/-- Column q of a 96-wide feature row names index column q / 32 and table entry q % 32. -/
def colOf (q : Fin 96) : Fin 3 := ⟨q.val / 32, by have := q.isLt; omega⟩
def entOf (q : Fin 96) : Fin 32 := ⟨q.val % 32, Nat.mod_lt _ (by decide)⟩

/-- REFERENCE FORM of a node's feature for relation r at (n, q): the table row its index names (negative indices from
    the end, then clamped), scaled by the node's normaliser. -/
def featR (att : Arr2 2 4) (basis : Arr3 4 2048 32) (idx : Wrd2 50000 3) (cj : Arr2 50000 1) (r : Fin 2)
    (n : Fin 50000) (q : Fin 96) : EReal :=
  wt att basis r (rowOf 2048 (by decide) (wrap 2048#32 (idx (ix2 n (colOf q))))) (entOf q) * cj (ix2 n 0)

/-- The two relations' tables side by side: column p of the 64 names relation p / 32 and entry p % 32. -/
def wcatK (att : Arr2 2 4) (basis : Arr3 4 2048 32) : Arr2 2048 64 := fun i =>
  wt att basis ⟨(i 1).val / 32, by have := idx2_lt1 i; omega⟩ (i 0) ⟨(i 1).val % 32, Nat.mod_lt _ (by decide)⟩

/-- KERNEL FORM of the feature rows, both relations at once, [50000, 192]: column p = 64 c + p' is the one-hot row of
    index c against column p' of the side-by-side tables, scaled by the node's normaliser. -/
def gathK (idx : Wrd2 50000 3) (tab : Arr2 2048 64) (cj : Arr2 50000 1) : Arr2 50000 192 := fun i =>
  (∑ k : Fin 2048, oneHot (idx (ix2 (i 0) ⟨(i 1).val / 64, by have := idx2_lt1 i; omega⟩)) k.val
      * tab (ix2 k ⟨(i 1).val % 64, Nat.mod_lt _ (by decide)⟩)) * cj (ix2 (i 0) 0)

/-- Relation r's 96-wide rows cut out of the 192-wide array: (n, q) is column 64 (q / 32) + 32 r + q % 32. -/
def unshuf (fcat : Arr2 50000 192) (r : Fin 2) (n : Fin 50000) (q : Fin 96) : EReal :=
  fcat (ix2 n ⟨(q.val / 32) * 64 + r.val * 32 + q.val % 32, by have := q.isLt; have := r.isLt; omega⟩)

/-- Row r of a [2, 800000] array of words as a list. -/
def rowW (e : Wrd2 2 800000) (r : Fin 2) : Fin 800000 → BitVec 32 := fun i => e (ix2 r i)

/-- What one relation's edges deliver to node k, column q: over the edges whose destination word, read signed, is k, the
    feature at the source node (the source word: negative from the end, then clamped to a node). -/
def agg (X : Fin 50000 → Fin 96 → EReal) (src dst : Fin 800000 → BitVec 32) (k : Fin 50000) (q : Fin 96) : EReal :=
  ∑ e ∈ Finset.univ.filter (fun e : Fin 800000 => (dst e).toInt = (k.val : Int)),
    X (rowOf 50000 (by decide) (wrap 50000#32 (src e))) q

/-- KERNEL FORM of the scaled accumulator [50000, 96]: both relations' deliveries added onto zero, scaled once. -/
def hK (fcat : Arr2 50000 192) (src dst : Wrd2 2 800000) (ci : Arr2 50000 1) : Arr2 50000 96 := fun i =>
  (0 + (agg (unshuf fcat 0) (rowW src 0) (rowW dst 0) (i 0) (i 1)
        + agg (unshuf fcat 1) (rowW src 1) (rowW dst 1) (i 0) (i 1))) * ci (ix2 (i 0) 0)

/-- REFERENCE FORM of the scaled accumulator: each relation's deliveries added onto zero, scaled, and added to a running
    sum that starts at zero. -/
def hR (X₀ X₁ : Fin 50000 → Fin 96 → EReal) (src dst : Wrd2 2 800000) (ci : Arr2 50000 1) : Arr2 50000 96 := fun i =>
  (0 + (0 + agg X₀ (rowW src 0) (rowW dst 0) (i 0) (i 1)) * ci (ix2 (i 0) 0))
    + (0 + agg X₁ (rowW src 1) (rowW dst 1) (i 0) (i 1)) * ci (ix2 (i 0) 0)

/-- KERNEL FORM of the last layer's output array [50000, 64], the bias a [1, 64] row. -/
def fcK (h : Arr2 50000 96) (w : Arr2 96 64) (b2 : Arr2 1 64) : Arr2 50000 64 := fun i =>
  fcAt h w (fun o => b2 (ix2 0 o)) (i 0) (i 1)

end Cert.Spec

end
-- ==== Proof.GatherRegion.lean ====
/-
  The node-gather kernel's output array as one function of its three input arrays: for each of the two launches, the
  array the pipeline leaves is, at row n and column p = 64 c + p', the one-hot row of index (n, c) against column p' of the
  table, times the row's normaliser.
-/
import proofs.«411900_j49117245997357_2_alg».proof.Proof.Gen.KernelIdeal.Frame
import proofs.«411900_j49117245997357_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.GatherRegion

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The body's arithmetic at an index -/

/-- The one-hot operand at (p, k): the comparison of the column index k with the word at (p, o) of the index block, widened
    and converted; a change of float format keeps the value. -/
theorem hot_apply (x0 : IVec S1000x3 32) (o : Nat) (ho : o < 3) (h : S1000x3.Slices ![0, o] S1000x1)
    (p : Fin 1000) (k : Fin 2048) :
    (truncf .bf16 (sitofp .f32 (extui 32 (cmpi .eq (iota .tc S1000x2048 32 [1] iota_S1000x2048_d1_w32)
        (broadcastTo S1000x2048 (extractStridedSlice S1000x1 ![0, o] x0 h) broadcasts_S1000x1_S1000x2048)) natLt_1_32))
      bitsLt_bf16_f32 : FVec Ideal S1000x2048 .bf16) (ix2 p k) = oneHot (x0 (ix2 p ⟨o, ho⟩)) k.val := by
  rw [truncf_apply, sitofp_apply, extui_apply]
  show ((((IntOp.cmpi .eq (iota .tc S1000x2048 32 [1] iota_S1000x2048_d1_w32 (ix2 p k))
      (broadcastTo S1000x2048 (extractStridedSlice S1000x1 ![0, o] x0 h) broadcasts_S1000x1_S1000x2048 (ix2 p k))).setWidth 32).toInt : ℝ) : EReal) = _
  rw [iota_single_apply,
    broadcastTo_apply (extractStridedSlice S1000x1 ![0, o] x0 h) broadcasts_S1000x1_S1000x2048 (ix2 p k) (ix2 p 0)
      (fun a => by match a with | ⟨0, _⟩ => rfl | ⟨1, _⟩ => rfl),
    extractStridedSlice_apply ![0, o] x0 h (ix2 p 0) (ix2 p ⟨o, ho⟩)
      (fun a => by match a with | ⟨0, _⟩ => show p.val = 0 + p.val; omega | ⟨1, _⟩ => show o = o + 0; omega)]
  rfl

/-! The product's operand indices, axis by axis: at output index (p, j) and contraction index k the left operand is read at
    (p, k) and the right one at (k, j). -/

theorem lhs_dot_0 (i : S1000x64.Idx) (q : dot_S1000x2048_S2048x64_S1000x64_1_0_0_1_n_n.contr.Idx) :
    (dot_S1000x2048_S2048x64_S1000x64_1_0_0_1_n_n.lhsIdx i q 0).val = (i 0).val := by
  unfold DotDims.lhsIdx
  rw [dif_neg (show ¬(0 : Fin S1000x2048.rank) ∈ dot_S1000x2048_S2048x64_S1000x64_1_0_0_1_n_n.lhsBatch by decide), dif_pos (show (0 : Fin S1000x2048.rank) ∈ dot_S1000x2048_S2048x64_S1000x64_1_0_0_1_n_n.lhsNonContracting by decide)]
  rfl
theorem lhs_dot_1 (i : S1000x64.Idx) (q : dot_S1000x2048_S2048x64_S1000x64_1_0_0_1_n_n.contr.Idx) :
    (dot_S1000x2048_S2048x64_S1000x64_1_0_0_1_n_n.lhsIdx i q 1).val = (q ⟨0, by decide⟩).val :=
  dot_S1000x2048_S2048x64_S1000x64_1_0_0_1_n_n.lhsIdx_val_of_single rfl i q
theorem rhs_dot_0 (i : S1000x64.Idx) (q : dot_S1000x2048_S2048x64_S1000x64_1_0_0_1_n_n.contr.Idx) :
    (dot_S1000x2048_S2048x64_S1000x64_1_0_0_1_n_n.rhsIdx i q 0).val = (q ⟨0, by decide⟩).val :=
  dot_S1000x2048_S2048x64_S1000x64_1_0_0_1_n_n.rhsIdx_val_of_single rfl i q
theorem rhs_dot_1 (i : S1000x64.Idx) (q : dot_S1000x2048_S2048x64_S1000x64_1_0_0_1_n_n.contr.Idx) :
    (dot_S1000x2048_S2048x64_S1000x64_1_0_0_1_n_n.rhsIdx i q 1).val = (i 1).val := by
  unfold DotDims.rhsIdx
  rw [dif_neg (show ¬(1 : Fin S2048x64.rank) ∈ dot_S1000x2048_S2048x64_S1000x64_1_0_0_1_n_n.rhsBatch by decide), dif_pos (show (1 : Fin S2048x64.rank) ∈ dot_S1000x2048_S2048x64_S1000x64_1_0_0_1_n_n.rhsNonContracting by decide)]
  rfl

/-- A product into a zero accumulator, read at (p, j): the plain sum over the 2048 contraction positions. -/
theorem dot_apply (lhs : FVec Ideal S1000x2048 .bf16) (rhs : FVec Ideal S2048x64 .bf16) (p : Fin 1000) (j : Fin 64) :
    matmul dot_S1000x2048_S2048x64_S1000x64_1_0_0_1_n_n none lhs rhs (constant (F := Ideal) S1000x64 .f32 0x00000000#32) (ix2 p j)
      = ∑ k : Fin 2048, lhs (ix2 p k) * rhs (ix2 k j) := by
  simp only [matmul]
  rw [Ideal.matmul_constant_zero_apply, ← Equiv.sum_comp (ValueIdx.contrEquiv1 dot_S1000x2048_S2048x64_S1000x64_1_0_0_1_n_n 2048 rfl rfl).symm]
  refine Finset.sum_congr rfl fun k _ => ?_
  have hk := ValueIdx.contrEquiv1_symm_val dot_S1000x2048_S2048x64_S1000x64_1_0_0_1_n_n 2048 rfl rfl k
  have el : dot_S1000x2048_S2048x64_S1000x64_1_0_0_1_n_n.lhsIdx (ix2 p j) ((ValueIdx.contrEquiv1 dot_S1000x2048_S2048x64_S1000x64_1_0_0_1_n_n 2048 rfl rfl).symm k) = ix2 p k := funext fun a => Fin.ext (by
    match a with
    | ⟨0, _⟩ => exact lhs_dot_0 _ _
    | ⟨1, _⟩ => exact (lhs_dot_1 _ _).trans hk)
  have er : dot_S1000x2048_S2048x64_S1000x64_1_0_0_1_n_n.rhsIdx (ix2 p j) ((ValueIdx.contrEquiv1 dot_S1000x2048_S2048x64_S1000x64_1_0_0_1_n_n 2048 rfl rfl).symm k) = ix2 k j := funext fun a => Fin.ext (by
    match a with
    | ⟨0, _⟩ => exact (rhs_dot_0 _ _).trans hk
    | ⟨1, _⟩ => exact rhs_dot_1 _ _)
  rw [el, er]

/-- One of the three products at (p, j): the one-hot row of the word at (p, o) against column j of the table. -/
theorem piece_apply (x0 : IVec S1000x3 32) (x1 : FVec Ideal S2048x64 .f32) (o : Nat) (ho : o < 3)
    (h : S1000x3.Slices ![0, o] S1000x1) (p : Fin 1000) (j : Fin 64) :
    matmul dot_S1000x2048_S2048x64_S1000x64_1_0_0_1_n_n none
        (truncf .bf16 (sitofp .f32 (extui 32 (cmpi .eq (iota .tc S1000x2048 32 [1] iota_S1000x2048_d1_w32)
          (broadcastTo S1000x2048 (extractStridedSlice S1000x1 ![0, o] x0 h) broadcasts_S1000x1_S1000x2048)) natLt_1_32))
          bitsLt_bf16_f32 : FVec Ideal S1000x2048 .bf16)
        (truncf .bf16 x1 bitsLt_bf16_f32 : FVec Ideal S2048x64 .bf16)
        (constant (F := Ideal) S1000x64 .f32 0x00000000#32) (ix2 p j)
      = ∑ k : Fin 2048, oneHot (x0 (ix2 p ⟨o, ho⟩)) k.val * x1 (ix2 k j) := by
  rw [dot_apply]
  refine Finset.sum_congr rfl fun k _ => ?_
  rw [hot_apply x0 o ho h p k, truncf_apply]

/-- Three [1000, 64] pieces side by side, read at (p, q): piece q / 64 at (p, q % 64). -/
theorem cat3_apply {α : Type} (y0 y1 y2 : S1000x64.Idx → α) (p : Fin 1000) (q : Fin 192) (j : Fin 64)
    (hj : j.val = q.val % 64) :
    concatenate S1000x192 1 [⟨S1000x64, y0⟩, ⟨S1000x64, y1⟩, ⟨S1000x64, y2⟩]
        concatenates_S1000x64_S1000x64_S1000x64_S1000x192_d1 (ix2 p q)
      = if q.val / 64 = 0 then y0 (ix2 p j) else if q.val / 64 = 1 then y1 (ix2 p j) else y2 (ix2 p j) := by
  have hq := q.isLt
  have hjl := j.isLt
  by_cases h0 : q.val / 64 = 0
  · rw [if_pos h0]
    exact concatenate_apply_piece 1 _ _ (ix2 p q) 0 (by show (0 : Nat) < 3; decide) S1000x64 y0 rfl rfl 0 rfl (ix2 p j)
      (fun b hb => by match b with | ⟨0, _⟩ => rfl | ⟨1, _⟩ => exact absurd rfl hb)
      (by show 0 + j.val = q.val; omega)
  · rw [if_neg h0]
    by_cases h1 : q.val / 64 = 1
    · rw [if_pos h1]
      exact concatenate_apply_piece 1 _ _ (ix2 p q) 1 (by show (1 : Nat) < 3; decide) S1000x64 y1 rfl rfl 64 rfl (ix2 p j)
        (fun b hb => by match b with | ⟨0, _⟩ => rfl | ⟨1, _⟩ => exact absurd rfl hb)
        (by show 64 + j.val = q.val; omega)
    · rw [if_neg h1]
      exact concatenate_apply_piece 1 _ _ (ix2 p q) 2 (by show (2 : Nat) < 3; decide) S1000x64 y2 rfl rfl 128 rfl (ix2 p j)
        (fun b hb => by match b with | ⟨0, _⟩ => rfl | ⟨1, _⟩ => exact absurd rfl hb)
        (by show 128 + j.val = q.val; omega)

/-- THE BLOCK'S ENTRY (p, q): the one-hot row of the word at (p, q / 64) against column q % 64 of the table, times the
    row's normaliser. -/
theorem pay_apply (x0 : Vec Ideal S1000x3 .i32) (x1 : Vec Ideal S2048x64 .f32) (x2 : Vec Ideal S1000x1 .f32)
    (p : Fin 1000) (q : Fin 192) :
    k0_pay1 (F := Ideal) x0 x1 x2 (ix2 p q)
      = (∑ k : Fin 2048, oneHot (x0 (ix2 p ⟨q.val / 64, by have := q.isLt; omega⟩)) k.val
          * x1 (ix2 k ⟨q.val % 64, Nat.mod_lt _ (by decide)⟩)) * x2 (ix2 p 0) := by
  have hq := q.isLt
  unfold k0_pay1
  dsimp only
  rw [mulf_apply, shapeCast_self, shapeCast_self,
    broadcastTo_apply x2 broadcasts_S1000x1_S1000x192 (ix2 p q) (ix2 p 0)
      (fun a => by match a with | ⟨0, _⟩ => rfl | ⟨1, _⟩ => rfl),
    cat3_apply _ _ _ p q ⟨q.val % 64, Nat.mod_lt _ (by decide)⟩ rfl,
    piece_apply x0 x1 0 (by decide), piece_apply x0 x1 1 (by decide), piece_apply x0 x1 2 (by decide)]
  congr 1
  by_cases h0 : q.val / 64 = 0
  · rw [if_pos h0]
    have e : (⟨q.val / 64, by omega⟩ : Fin 3) = ⟨0, by decide⟩ := Fin.ext h0
    rw [e]
  · rw [if_neg h0]
    by_cases h1 : q.val / 64 = 1
    · rw [if_pos h1]
      have e : (⟨q.val / 64, by omega⟩ : Fin 3) = ⟨1, by decide⟩ := Fin.ext h1
      rw [e]
    · rw [if_neg h1]
      have e : (⟨q.val / 64, by omega⟩ : Fin 3) = ⟨2, by decide⟩ := Fin.ext (show q.val / 64 = 2 by omega)
      rw [e]

/-- The first launch's block entry. -/
theorem pay0_apply (x0 : Vec Ideal S1000x3 .i32) (x1 : Vec Ideal S2048x64 .f32) (x2 : Vec Ideal S1000x1 .f32)
    (p : Fin 1000) (q : Fin 192) :
    k0_pay1 (F := Ideal) x0 x1 x2 (ix2 p q)
      = (∑ k : Fin 2048, oneHot (x0 (ix2 p ⟨q.val / 64, by have := q.isLt; omega⟩)) k.val
          * x1 (ix2 k ⟨q.val % 64, Nat.mod_lt _ (by decide)⟩)) * x2 (ix2 p 0) := pay_apply x0 x1 x2 p q

/-- The second launch's body is the same arithmetic, so its block entry is the same. -/
theorem pay1_apply (x0 : Vec Ideal S1000x3 .i32) (x1 : Vec Ideal S2048x64 .f32) (x2 : Vec Ideal S1000x1 .f32)
    (p : Fin 1000) (q : Fin 192) :
    k1_pay1 (F := Ideal) x0 x1 x2 (ix2 p q)
      = (∑ k : Fin 2048, oneHot (x0 (ix2 p ⟨q.val / 64, by have := q.isLt; omega⟩)) k.val
          * x1 (ix2 k ⟨q.val % 64, Nat.mod_lt _ (by decide)⟩)) * x2 (ix2 p 0) :=
  (show k1_pay1 (F := Ideal) x0 x1 x2 = k0_pay1 (F := Ideal) x0 x1 x2 from rfl) ▸ pay_apply x0 x1 x2 p q

/-! ## Launch 0: from the blocks to the array -/

theorem hz0 : (![0, 0] : Fin 2 → Nat) = fun _ => 0 := funext fun a => by fin_cases a <;> rfl

/-- The windows' block indices over the grid: at point t the index, normaliser and output windows sit at block row t, the
    table's window at its one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the gathered array of the three input arrays as the region finds them. -/
theorem flushed0_eq (c : Dev nD) (t : Fin cfg0.N) :
    (dat0 (F := Ideal) V c).flushed 3 t = ((cfg0.win 3).blk t).view.read (Elt Ideal)
      (gathK (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero hz0]
  simp only [View.ld_unit_zero (S := S1000x3) hz0, View.ld_unit_zero (S := S2048x64) hz0, View.ld_unit_zero (S := S1000x1) hz0]
  obtain ⟨e00, e01, e10, e11, e20, e21, e30, e31⟩ := idx_facts0 t
  have ht : t.val < 50 := t.isLt
  refine funext fun (j : S1000x192.Idx) => ?_
  obtain ⟨p, q, rfl⟩ : ∃ (p : Fin 1000) (q : Fin 192), j = ix2 p q := ⟨j 0, j 1, eq_ix2 j⟩
  have hp := p.isLt
  have hq := q.isLt
  show k0_pay1 (F := Ideal) (iblk0 V c 0 t) (iblk0 V c 1 t) (iblk0 V c 2 t) (ix2 p q)
    = gathK (V c (Pipeline.arrRef spec0 0)) (V c (Pipeline.arrRef spec0 1)) (V c (Pipeline.arrRef spec0 2))
        (((cfg0.win 3).blk t).view.emb (ix2 p q))
  refine (pay0_apply (iblk0 V c 0 t) (iblk0 V c 1 t) (iblk0 V c 2 t) p q).trans ?_
  -- the array index under (p, q) of block t
  have hemb : ((cfg0.win 3).blk t).view.emb (ix2 p q)
      = (ix2 ⟨1000 * t.val + p.val, by omega⟩ q : S50000x192.Idx) := by
    funext a; apply Fin.ext
    match a with
    | ⟨0, _⟩ => show win0_3.index t (0 : Fin 2) * 1000 + 1 * p.val = 1000 * t.val + p.val; omega
    | ⟨1, _⟩ => show win0_3.index t (1 : Fin 2) * 192 + 1 * q.val = q.val; omega
  rw [hemb]
  -- the three blocks read where the output's rectangle says
  have h0 : iblk0 (F := Ideal) V c 0 t (ix2 p ⟨q.val / 64, by omega⟩)
      = V c (Pipeline.arrRef spec0 0) (ix2 (⟨1000 * t.val + p.val, by omega⟩ : Fin 50000) (⟨q.val / 64, by omega⟩ : Fin 3)) := by
    show V c (Pipeline.arrRef spec0 0) (((cfg0.win 0).blk t).view.emb (ix2 p ⟨q.val / 64, by omega⟩)) = _
    refine congrArg _ (funext fun a => Fin.ext ?_)
    match a with
    | ⟨0, _⟩ => show win0_0.index t (0 : Fin 2) * 1000 + 1 * p.val = 1000 * t.val + p.val; omega
    | ⟨1, _⟩ => show win0_0.index t (1 : Fin 2) * 3 + 1 * (q.val / 64) = q.val / 64; omega
  have h1 : ∀ k : Fin 2048, iblk0 (F := Ideal) V c 1 t (ix2 k ⟨q.val % 64, Nat.mod_lt _ (by decide)⟩)
      = V c (Pipeline.arrRef spec0 1) (ix2 k (⟨q.val % 64, Nat.mod_lt _ (by decide)⟩ : Fin 64)) := by
    intro k
    show V c (Pipeline.arrRef spec0 1) (((cfg0.win 1).blk t).view.emb (ix2 k ⟨q.val % 64, Nat.mod_lt _ (by decide)⟩)) = _
    refine congrArg _ (funext fun a => Fin.ext ?_)
    match a with
    | ⟨0, _⟩ => show win0_1.index t (0 : Fin 2) * 2048 + 1 * k.val = k.val; omega
    | ⟨1, _⟩ => show win0_1.index t (1 : Fin 2) * 64 + 1 * (q.val % 64) = q.val % 64; omega
  have h2 : iblk0 (F := Ideal) V c 2 t (ix2 p 0)
      = V c (Pipeline.arrRef spec0 2) (ix2 (⟨1000 * t.val + p.val, by omega⟩ : Fin 50000) (0 : Fin 1)) := by
    show V c (Pipeline.arrRef spec0 2) (((cfg0.win 2).blk t).view.emb (ix2 p 0)) = _
    refine congrArg _ (funext fun a => Fin.ext ?_)
    match a with
    | ⟨0, _⟩ => show win0_2.index t (0 : Fin 2) * 1000 + 1 * p.val = 1000 * t.val + p.val; omega
    | ⟨1, _⟩ => show win0_2.index t (1 : Fin 2) * 1 + 1 * 0 = 0; omega
  rw [h0, h2]
  simp only [h1]
  rfl

/-- An index of the array is in point t's block iff each coordinate is in the block's range on its axis. -/
theorem mem_blk0 (t : Fin cfg0.N) (i : S50000x192.Idx) :
    i ∈ ((cfg0.win 3).blk t).view.set ↔ ∀ a : Fin 2, win0_3.index t a * S1000x192.size a ≤ (i a).val ∧ (i a).val < win0_3.index t a * S1000x192.size a + S1000x192.size a := by
  show i ∈ ((View.whole main_v10).slice (win0_3.rect t)).set ↔ _
  rw [View.set_slice_whole, Rect.mem_set_unit]
  exact Iff.rfl

/-- Every row of the array is in the block of the point its thousand names. -/
theorem cover0 (i : S50000x192.Idx) :
    ∃ t : Fin cfg0.N, (cfg0.win 3).flush t = true ∧ i ∈ ((cfg0.win 3).blk t).view.set := by
  have hi0 : (i 0).val < 50000 := (i 0).isLt
  have hi1 : (i 1).val < 192 := (i 1).isLt
  let t : Fin cfg0.N := ⟨(i 0).val / 1000, by show (i 0).val / 1000 < 50; omega⟩
  obtain ⟨e00, e01, e10, e11, e20, e21, e30, e31⟩ := idx_facts0 t
  have htv : t.val = (i 0).val / 1000 := rfl
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 192 ≤ (i 1).val ∧ (i 1).val < win0_3.index t (1 : Fin 2) * 192 + 192; omega

/-! ## Launch 1: from the blocks to the array -/

theorem hz1 : (![0, 0] : Fin 2 → Nat) = fun _ => 0 := funext fun a => by fin_cases a <;> rfl

/-- The windows' block indices over the grid: at point t the index, normaliser and output windows sit at block row t, the
    table's window at its one block. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- WHAT POINT t WRITES BACK is block t of the gathered array of the three input arrays as the region finds them. -/
theorem flushed1_eq (c : Dev nD) (t : Fin cfg1.N) :
    (dat1 (F := Ideal) V c).flushed 3 t = ((cfg1.win 3).blk t).view.read (Elt Ideal)
      (gathK (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero hz1]
  simp only [View.ld_unit_zero (S := S1000x3) hz1, View.ld_unit_zero (S := S2048x64) hz1, View.ld_unit_zero (S := S1000x1) hz1]
  obtain ⟨e00, e01, e10, e11, e20, e21, e30, e31⟩ := idx_facts1 t
  have ht : t.val < 50 := t.isLt
  refine funext fun (j : S1000x192.Idx) => ?_
  obtain ⟨p, q, rfl⟩ : ∃ (p : Fin 1000) (q : Fin 192), j = ix2 p q := ⟨j 0, j 1, eq_ix2 j⟩
  have hp := p.isLt
  have hq := q.isLt
  show k1_pay1 (F := Ideal) (iblk1 V c 0 t) (iblk1 V c 1 t) (iblk1 V c 2 t) (ix2 p q)
    = gathK (V c (Pipeline.arrRef spec1 0)) (V c (Pipeline.arrRef spec1 1)) (V c (Pipeline.arrRef spec1 2))
        (((cfg1.win 3).blk t).view.emb (ix2 p q))
  refine (pay1_apply (iblk1 V c 0 t) (iblk1 V c 1 t) (iblk1 V c 2 t) p q).trans ?_
  -- the array index under (p, q) of block t
  have hemb : ((cfg1.win 3).blk t).view.emb (ix2 p q)
      = (ix2 ⟨1000 * t.val + p.val, by omega⟩ q : S50000x192.Idx) := by
    funext a; apply Fin.ext
    match a with
    | ⟨0, _⟩ => show win1_3.index t (0 : Fin 2) * 1000 + 1 * p.val = 1000 * t.val + p.val; omega
    | ⟨1, _⟩ => show win1_3.index t (1 : Fin 2) * 192 + 1 * q.val = q.val; omega
  rw [hemb]
  -- the three blocks read where the output's rectangle says
  have h0 : iblk1 (F := Ideal) V c 0 t (ix2 p ⟨q.val / 64, by omega⟩)
      = V c (Pipeline.arrRef spec1 0) (ix2 (⟨1000 * t.val + p.val, by omega⟩ : Fin 50000) (⟨q.val / 64, by omega⟩ : Fin 3)) := by
    show V c (Pipeline.arrRef spec1 0) (((cfg1.win 0).blk t).view.emb (ix2 p ⟨q.val / 64, by omega⟩)) = _
    refine congrArg _ (funext fun a => Fin.ext ?_)
    match a with
    | ⟨0, _⟩ => show win1_0.index t (0 : Fin 2) * 1000 + 1 * p.val = 1000 * t.val + p.val; omega
    | ⟨1, _⟩ => show win1_0.index t (1 : Fin 2) * 3 + 1 * (q.val / 64) = q.val / 64; omega
  have h1 : ∀ k : Fin 2048, iblk1 (F := Ideal) V c 1 t (ix2 k ⟨q.val % 64, Nat.mod_lt _ (by decide)⟩)
      = V c (Pipeline.arrRef spec1 1) (ix2 k (⟨q.val % 64, Nat.mod_lt _ (by decide)⟩ : Fin 64)) := by
    intro k
    show V c (Pipeline.arrRef spec1 1) (((cfg1.win 1).blk t).view.emb (ix2 k ⟨q.val % 64, Nat.mod_lt _ (by decide)⟩)) = _
    refine congrArg _ (funext fun a => Fin.ext ?_)
    match a with
    | ⟨0, _⟩ => show win1_1.index t (0 : Fin 2) * 2048 + 1 * k.val = k.val; omega
    | ⟨1, _⟩ => show win1_1.index t (1 : Fin 2) * 64 + 1 * (q.val % 64) = q.val % 64; omega
  have h2 : iblk1 (F := Ideal) V c 2 t (ix2 p 0)
      = V c (Pipeline.arrRef spec1 2) (ix2 (⟨1000 * t.val + p.val, by omega⟩ : Fin 50000) (0 : Fin 1)) := by
    show V c (Pipeline.arrRef spec1 2) (((cfg1.win 2).blk t).view.emb (ix2 p 0)) = _
    refine congrArg _ (funext fun a => Fin.ext ?_)
    match a with
    | ⟨0, _⟩ => show win1_2.index t (0 : Fin 2) * 1000 + 1 * p.val = 1000 * t.val + p.val; omega
    | ⟨1, _⟩ => show win1_2.index t (1 : Fin 2) * 1 + 1 * 0 = 0; omega
  rw [h0, h2]
  simp only [h1]
  rfl

/-- An index of the array is in point t's block iff each coordinate is in the block's range on its axis. -/
theorem mem_blk1 (t : Fin cfg1.N) (i : S50000x192.Idx) :
    i ∈ ((cfg1.win 3).blk t).view.set ↔ ∀ a : Fin 2, win1_3.index t a * S1000x192.size a ≤ (i a).val ∧ (i a).val < win1_3.index t a * S1000x192.size a + S1000x192.size a := by
  show i ∈ ((View.whole main_v11).slice (win1_3.rect t)).set ↔ _
  rw [View.set_slice_whole, Rect.mem_set_unit]
  exact Iff.rfl

/-- Every row of the array is in the block of the point its thousand names. -/
theorem cover1 (i : S50000x192.Idx) :
    ∃ t : Fin cfg1.N, (cfg1.win 3).flush t = true ∧ i ∈ ((cfg1.win 3).blk t).view.set := by
  have hi0 : (i 0).val < 50000 := (i 0).isLt
  have hi1 : (i 1).val < 192 := (i 1).isLt
  let t : Fin cfg1.N := ⟨(i 0).val / 1000, by show (i 0).val / 1000 < 50; omega⟩
  obtain ⟨e00, e01, e10, e11, e20, e21, e30, e31⟩ := idx_facts1 t
  have htv : t.val = (i 0).val / 1000 := rfl
  refine ⟨t, flush1_3 t, ?_⟩
  rw [mem_blk1]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 192 ≤ (i 1).val ∧ (i 1).val < win1_3.index t (1 : Fin 2) * 192 + 192; omega

/-- The first launch (the drug side). -/
theorem arr0 (c : Dev nD) :
    ((dat0 (F := Ideal) V c).arrAt 3 cfg0.N : (⟨2, ![50000, 192]⟩ : Shape).Idx → EReal)
      = gathK (V c (Pipeline.arrRef spec0 0)) (V c (Pipeline.arrRef spec0 1)) (V c (Pipeline.arrRef spec0 2)) :=
  (dat0 (F := Ideal) V c).arrAt_eq_of_cover 3
    (gathK (V c (Pipeline.arrRef spec0 0)) (V c (Pipeline.arrRef spec0 1)) (V c (Pipeline.arrRef spec0 2)))
    (fun t _ => flushed0_eq V c t) cover0

/-- The second launch (the disease side). -/
theorem arr1 (c : Dev nD) :
    ((dat1 (F := Ideal) V c).arrAt 3 cfg1.N : (⟨2, ![50000, 192]⟩ : Shape).Idx → EReal)
      = gathK (V c (Pipeline.arrRef spec1 0)) (V c (Pipeline.arrRef spec1 1)) (V c (Pipeline.arrRef spec1 2)) :=
  (dat1 (F := Ideal) V c).arrAt_eq_of_cover 3
    (gathK (V c (Pipeline.arrRef spec1 0)) (V c (Pipeline.arrRef spec1 1)) (V c (Pipeline.arrRef spec1 2)))
    (fun t _ => flushed1_eq V c t) cover1

end Cert.KernelIdeal.GatherRegion

end
-- ==== Proof.FcRegion.lean ====
/-
  The last layer's kernel: for each of its two launches, the array the pipeline leaves is, at (n, o), the rectified row n
  of its first input against column o of the weight matrix, plus the bias row at o.
-/
import proofs.«411900_j49117245997357_2_alg».proof.Proof.Gen.KernelIdeal.Frame
import proofs.«411900_j49117245997357_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.FcRegion

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The contraction's operand indices -/

/-- The left operand is read at the output's row … -/
theorem lhs_row (i : S5000x64.Idx) (q : dot_S5000x96_S96x64_S5000x64_1_0_0_1_n_n.contr.Idx) :
    (dot_S5000x96_S96x64_S5000x64_1_0_0_1_n_n.lhsIdx i q 0).val = (i 0).val := by
  unfold DotDims.lhsIdx
  rw [dif_neg (show ¬(0 : Fin S5000x96.rank) ∈ dot_S5000x96_S96x64_S5000x64_1_0_0_1_n_n.lhsBatch by decide), dif_pos (show (0 : Fin S5000x96.rank) ∈ dot_S5000x96_S96x64_S5000x64_1_0_0_1_n_n.lhsNonContracting by decide)]
  rfl
/-- … and the contraction's index; -/
theorem lhs_col (i : S5000x64.Idx) (q : dot_S5000x96_S96x64_S5000x64_1_0_0_1_n_n.contr.Idx) :
    (dot_S5000x96_S96x64_S5000x64_1_0_0_1_n_n.lhsIdx i q 1).val = (q ⟨0, by decide⟩).val :=
  dot_S5000x96_S96x64_S5000x64_1_0_0_1_n_n.lhsIdx_val_of_single rfl i q
/-- the right operand at the contraction's index … -/
theorem rhs_row (i : S5000x64.Idx) (q : dot_S5000x96_S96x64_S5000x64_1_0_0_1_n_n.contr.Idx) :
    (dot_S5000x96_S96x64_S5000x64_1_0_0_1_n_n.rhsIdx i q 0).val = (q ⟨0, by decide⟩).val :=
  dot_S5000x96_S96x64_S5000x64_1_0_0_1_n_n.rhsIdx_val_of_single rfl i q
/-- … and the output's column. -/
theorem rhs_col (i : S5000x64.Idx) (q : dot_S5000x96_S96x64_S5000x64_1_0_0_1_n_n.contr.Idx) :
    (dot_S5000x96_S96x64_S5000x64_1_0_0_1_n_n.rhsIdx i q 1).val = (i 1).val := by
  unfold DotDims.rhsIdx
  rw [dif_neg (show ¬(1 : Fin S96x64.rank) ∈ dot_S5000x96_S96x64_S5000x64_1_0_0_1_n_n.rhsBatch by decide), dif_pos (show (1 : Fin S96x64.rank) ∈ dot_S5000x96_S96x64_S5000x64_1_0_0_1_n_n.rhsNonContracting by decide)]
  rfl

/-- The product into a zero accumulator, at (p, o): the sum over k of the left operand's (p, k) times the right's (k, o). -/
theorem matmul_at (l : FVec Ideal S5000x96 .bf16) (r : FVec Ideal S96x64 .bf16) (p : Fin 5000) (o : Fin 64) :
    FloatOps.matmul dot_S5000x96_S96x64_S5000x64_1_0_0_1_n_n none l r (constant (F := Ideal) S5000x64 .f32 0x00000000#32) (ix2 p o)
      = ∑ k : Fin 96, l (ix2 p k) * r (ix2 k o) := by
  rw [Ideal.matmul_constant_zero_apply, ← Equiv.sum_comp (contrEquiv1 dot_S5000x96_S96x64_S5000x64_1_0_0_1_n_n 96 rfl rfl).symm]
  refine Finset.sum_congr rfl fun k _ => ?_
  have hk := contrEquiv1_symm_val dot_S5000x96_S96x64_S5000x64_1_0_0_1_n_n 96 rfl rfl k
  have el : dot_S5000x96_S96x64_S5000x64_1_0_0_1_n_n.lhsIdx (ix2 p o) ((contrEquiv1 dot_S5000x96_S96x64_S5000x64_1_0_0_1_n_n 96 rfl rfl).symm k) = ix2 p k := funext fun a => Fin.ext (by
    match a with
    | ⟨0, _⟩ => exact lhs_row _ _
    | ⟨1, _⟩ => exact (lhs_col _ _).trans hk)
  have er : dot_S5000x96_S96x64_S5000x64_1_0_0_1_n_n.rhsIdx (ix2 p o) ((contrEquiv1 dot_S5000x96_S96x64_S5000x64_1_0_0_1_n_n 96 rfl rfl).symm k) = ix2 k o := funext fun a => Fin.ext (by
    match a with
    | ⟨0, _⟩ => exact (rhs_row _ _).trans hk
    | ⟨1, _⟩ => exact rhs_col _ _)
  rw [el, er]

/-! ## The body's arithmetic at an entry -/

/-- Entry (p, o) of what the body stores: the rectified row p of the first block against column o of the weights,
    plus the bias row at o. A change of float format is the identity on the extended reals, and the printed select is
    the rectifier. -/
theorem pay2_at (x0 : Vec Ideal S5000x96 .f32) (x1 : Vec Ideal S96x64 .f32) (x2 : Vec Ideal S1x64 .f32) (p : Fin 5000) (o : Fin 64) :
    k2_pay1 (F := Ideal) x0 x1 x2 (ix2 p o) = ∑ k : Fin 96, act (x0 (ix2 p k)) * x1 (ix2 k o) + x2 (ix2 0 o) := by
  unfold k2_pay1
  rw [addf_apply]
  simp only [matmul]
  rw [matmul_at, broadcastTo_1b_ab_apply, shapeCast_self, shapeCast_self]
  rfl

/-- The second launch's body is the same arithmetic. -/
theorem pay3_at (x0 : Vec Ideal S5000x96 .f32) (x1 : Vec Ideal S96x64 .f32) (x2 : Vec Ideal S1x64 .f32) (p : Fin 5000) (o : Fin 64) :
    k3_pay1 (F := Ideal) x0 x1 x2 (ix2 p o) = ∑ k : Fin 96, act (x0 (ix2 p k)) * x1 (ix2 k o) + x2 (ix2 0 o) := by
  unfold k3_pay1
  rw [addf_apply]
  simp only [matmul]
  rw [matmul_at, broadcastTo_1b_ab_apply, shapeCast_self, shapeCast_self]
  rfl

/-- The body's access rectangles start at the origin. -/
theorem zeroOff : (![0, 0] : Fin 2 → Nat) = fun _ => 0 := funext fun a => by fin_cases a <;> rfl

/-- A block of the body's result is a block of the last layer's output: when the first operand's block is rows
    5000 r … 5000 r + 4999 of h, and the other two are the weight matrix and the bias row whole, the body's entry at
    (p, o) is the layer's entry at (5000 r + p, o). Stated for any body whose entries are the rectified row against the
    column plus the bias (both launches' bodies are). -/
theorem block_at (pay : Vec Ideal S5000x96 .f32 → Vec Ideal S96x64 .f32 → Vec Ideal S1x64 .f32 → FVec Ideal S5000x64 .f32)
    (hpay : ∀ (x0 : Vec Ideal S5000x96 .f32) (x1 : Vec Ideal S96x64 .f32) (x2 : Vec Ideal S1x64 .f32) (p : Fin 5000) (o : Fin 64),
      pay x0 x1 x2 (ix2 p o) = ∑ k : Fin 96, act (x0 (ix2 p k)) * x1 (ix2 k o) + x2 (ix2 0 o))
    (h : Arr2 50000 96) (w : Arr2 96 64) (b2 : Arr2 1 64)
    (x0 : Vec Ideal S5000x96 .f32) (x1 : Vec Ideal S96x64 .f32) (x2 : Vec Ideal S1x64 .f32)
    (j : S5000x64.Idx) (i : S50000x64.Idx) (r : Nat)
    (hi0 : (i 0).val = r * 5000 + (j 0).val) (hi1 : (i 1).val = (j 1).val)
    (h0 : ∀ (p : Fin 5000) (k : Fin 96) (n : Fin 50000), n.val = r * 5000 + p.val → x0 (ix2 p k) = h (ix2 n k))
    (h1 : ∀ (k : Fin 96) (o : Fin 64), x1 (ix2 k o) = w (ix2 k o)) (h2 : ∀ o : Fin 64, x2 (ix2 0 o) = b2 (ix2 0 o)) :
    pay x0 x1 x2 j = fcK h w b2 i := by
  obtain ⟨p, o, rfl⟩ : ∃ (p : Fin 5000) (o : Fin 64), j = ix2 p o := ⟨j 0, j 1, eq_ix2 j⟩
  obtain ⟨n, o', rfl⟩ : ∃ (n : Fin 50000) (o' : Fin 64), i = ix2 n o' := ⟨i 0, i 1, eq_ix2 i⟩
  obtain rfl : o' = o := Fin.ext hi1
  rw [hpay]
  show _ = ∑ k : Fin 96, act (h (ix2 n k)) * w (ix2 k o') + b2 (ix2 0 o')
  rw [h2 o']
  refine congrArg (· + _) (Finset.sum_congr rfl fun k _ => ?_)
  rw [h0 p k n hi0, h1 k o']

variable (V : (c : Dev nD) → (b : Ref sig .tc) → Buf (Elt Ideal) ((c : Thread nD τ).loc b))

/-! ## Launch 2: from the blocks to the array -/

/-- The printed index maps over the grid's ten points: the first and the output windows sit at block row t, the weight
    matrix and the bias row at block (0, 0). -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first window's block at point t is rows 5000 t … 5000 t + 4999 of its array. -/
theorem rows2_at (c : Dev nD) (t : Fin cfg2.N) (p : Fin 5000) (k : Fin 96) (n : Fin 50000) (hn : n.val = t.val * 5000 + p.val) :
    (iblk2 V c 0 t : Vec Ideal S5000x96 .f32) (ix2 p k) = (V c (Pipeline.arrRef spec2 0) : Arr2 50000 96) (ix2 n k) := by
  obtain ⟨e00, e01, -⟩ := blockIdx2 t
  show V c (Pipeline.arrRef spec2 0) (((cfg2.win 0).blk t).view.emb (ix2 p k)) = V c (Pipeline.arrRef spec2 0) (ix2 n k)
  refine congrArg _ (funext fun a => Fin.ext ?_)
  match a with
  | ⟨0, _⟩ => show win2_0.index t (0 : Fin 2) * 5000 + 1 * p.val = n.val; rw [e00, hn]; omega
  | ⟨1, _⟩ => show win2_0.index t (1 : Fin 2) * 96 + 1 * k.val = k.val; rw [e01]; omega

/-- The second window's block is the weight matrix whole, at every point. -/
theorem weights2_at (c : Dev nD) (t : Fin cfg2.N) (k : Fin 96) (o : Fin 64) :
    (iblk2 V c 1 t : Vec Ideal S96x64 .f32) (ix2 k o) = (V c (Pipeline.arrRef spec2 1) : Arr2 96 64) (ix2 k o) := by
  obtain ⟨-, -, e10, e11, -⟩ := blockIdx2 t
  show V c (Pipeline.arrRef spec2 1) (((cfg2.win 1).blk t).view.emb (ix2 k o)) = V c (Pipeline.arrRef spec2 1) (ix2 k o)
  refine congrArg _ (funext fun a => Fin.ext ?_)
  match a with
  | ⟨0, _⟩ => show win2_1.index t (0 : Fin 2) * 96 + 1 * k.val = k.val; rw [e10]; omega
  | ⟨1, _⟩ => show win2_1.index t (1 : Fin 2) * 64 + 1 * o.val = o.val; rw [e11]; omega

/-- The third window's block is the bias row whole, at every point. -/
theorem bias2_at (c : Dev nD) (t : Fin cfg2.N) (o : Fin 64) :
    (iblk2 V c 2 t : Vec Ideal S1x64 .f32) (ix2 0 o) = (V c (Pipeline.arrRef spec2 2) : Arr2 1 64) (ix2 0 o) := by
  obtain ⟨-, -, -, -, e20, e21, -⟩ := blockIdx2 t
  show V c (Pipeline.arrRef spec2 2) (((cfg2.win 2).blk t).view.emb (ix2 (0 : Fin 1) o)) = V c (Pipeline.arrRef spec2 2) (ix2 (0 : Fin 1) o)
  refine congrArg _ (funext fun a => Fin.ext ?_)
  match a with
  | ⟨0, _⟩ => show win2_2.index t (0 : Fin 2) * 1 + 1 * (0 : Fin 1).val = (0 : Fin 1).val; rw [e20]; rfl
  | ⟨1, _⟩ => show win2_2.index t (1 : Fin 2) * 64 + 1 * o.val = o.val; rw [e21]; omega

/-- Entry (p, o) of the output's block at point t is entry (5000 t + p, o) of the output. -/
theorem out2_at (t : Fin cfg2.N) (j : S5000x64.Idx) :
    ((((cfg2.win 3).blk t).view.emb j : S50000x64.Idx) 0).val = t.val * 5000 + (j 0).val
      ∧ ((((cfg2.win 3).blk t).view.emb j : S50000x64.Idx) 1).val = (j 1).val := by
  obtain ⟨-, -, -, -, -, -, e30, e31⟩ := blockIdx2 t
  constructor
  · show win2_3.index t (0 : Fin 2) * 5000 + 1 * (j 0).val = t.val * 5000 + (j 0).val
    rw [e30]; omega
  · show win2_3.index t (1 : Fin 2) * 64 + 1 * (j 1).val = (j 1).val
    rw [e31]; omega

/-- Point t writes back rows 5000 t … 5000 t + 4999 of the last layer's output. -/
theorem flushed2_eq (c : Dev nD) (t : Fin cfg2.N) :
    (dat2 (F := Ideal) V c).flushed 3 t = ((cfg2.win 3).blk t).view.read (Elt Ideal)
      (fcK (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold out2_3
  rw [View.canon_unit_zero zeroOff]
  simp only [View.ld_unit_zero (S := S5000x96) zeroOff, View.ld_unit_zero (S := S96x64) zeroOff, View.ld_unit_zero (S := S1x64) zeroOff]
  funext j
  show k2_pay1 (F := Ideal) (iblk2 V c 0 t) (iblk2 V c 1 t) (iblk2 V c 2 t) j
    = fcK (V c (Pipeline.arrRef spec2 0)) (V c (Pipeline.arrRef spec2 1)) (V c (Pipeline.arrRef spec2 2)) (((cfg2.win 3).blk t).view.emb j)
  exact block_at k2_pay1 pay2_at _ _ _ _ _ _ j _ t.val (out2_at t j).1 (out2_at t j).2
    (rows2_at V c t) (weights2_at V c t) (bias2_at V c t)

/-- An index of the output is in point t's block iff each coordinate is in the block's range on its axis. -/
theorem mem_blk2 (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v85).slice (win2_3.rect t)).set ↔ _
  rw [View.set_slice_whole, Rect.mem_set_unit]
  exact Iff.rfl

/-- Row r of the output lies in the block of point r / 5000. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := rfl
  let t : Fin cfg2.N := ⟨(i 0).val / 5000, by rw [hN]; omega⟩
  obtain ⟨-, -, -, -, -, -, e30, e31⟩ := blockIdx2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; rw [e30, ht]; omega
  | ⟨1, _⟩ => show win2_3.index t (1 : Fin 2) * 64 ≤ (i 1).val ∧ (i 1).val < win2_3.index t (1 : Fin 2) * 64 + 64; rw [e31]; omega

/-- The first launch (the drug side's output). -/
theorem arr2 (c : Dev nD) :
    ((dat2 (F := Ideal) V c).arrAt 3 cfg2.N : (⟨2, ![50000, 64]⟩ : Shape).Idx → EReal)
      = fcK (V c (Pipeline.arrRef spec2 0)) (V c (Pipeline.arrRef spec2 1)) (V c (Pipeline.arrRef spec2 2)) :=
  (dat2 (F := Ideal) V c).arrAt_eq_of_cover 3
    (fcK (V c (Pipeline.arrRef spec2 0)) (V c (Pipeline.arrRef spec2 1)) (V c (Pipeline.arrRef spec2 2)))
    (fun t _ => flushed2_eq V c t) cover2

/-! ## Launch 3: from the blocks to the array -/

/-- The printed index maps over the grid's ten points: the first and the output windows sit at block row t, the weight
    matrix and the bias row at block (0, 0). -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The first window's block at point t is rows 5000 t … 5000 t + 4999 of its array. -/
theorem rows3_at (c : Dev nD) (t : Fin cfg3.N) (p : Fin 5000) (k : Fin 96) (n : Fin 50000) (hn : n.val = t.val * 5000 + p.val) :
    (iblk3 V c 0 t : Vec Ideal S5000x96 .f32) (ix2 p k) = (V c (Pipeline.arrRef spec3 0) : Arr2 50000 96) (ix2 n k) := by
  obtain ⟨e00, e01, -⟩ := blockIdx3 t
  show V c (Pipeline.arrRef spec3 0) (((cfg3.win 0).blk t).view.emb (ix2 p k)) = V c (Pipeline.arrRef spec3 0) (ix2 n k)
  refine congrArg _ (funext fun a => Fin.ext ?_)
  match a with
  | ⟨0, _⟩ => show win3_0.index t (0 : Fin 2) * 5000 + 1 * p.val = n.val; rw [e00, hn]; omega
  | ⟨1, _⟩ => show win3_0.index t (1 : Fin 2) * 96 + 1 * k.val = k.val; rw [e01]; omega

/-- The second window's block is the weight matrix whole, at every point. -/
theorem weights3_at (c : Dev nD) (t : Fin cfg3.N) (k : Fin 96) (o : Fin 64) :
    (iblk3 V c 1 t : Vec Ideal S96x64 .f32) (ix2 k o) = (V c (Pipeline.arrRef spec3 1) : Arr2 96 64) (ix2 k o) := by
  obtain ⟨-, -, e10, e11, -⟩ := blockIdx3 t
  show V c (Pipeline.arrRef spec3 1) (((cfg3.win 1).blk t).view.emb (ix2 k o)) = V c (Pipeline.arrRef spec3 1) (ix2 k o)
  refine congrArg _ (funext fun a => Fin.ext ?_)
  match a with
  | ⟨0, _⟩ => show win3_1.index t (0 : Fin 2) * 96 + 1 * k.val = k.val; rw [e10]; omega
  | ⟨1, _⟩ => show win3_1.index t (1 : Fin 2) * 64 + 1 * o.val = o.val; rw [e11]; omega

/-- The third window's block is the bias row whole, at every point. -/
theorem bias3_at (c : Dev nD) (t : Fin cfg3.N) (o : Fin 64) :
    (iblk3 V c 2 t : Vec Ideal S1x64 .f32) (ix2 0 o) = (V c (Pipeline.arrRef spec3 2) : Arr2 1 64) (ix2 0 o) := by
  obtain ⟨-, -, -, -, e20, e21, -⟩ := blockIdx3 t
  show V c (Pipeline.arrRef spec3 2) (((cfg3.win 2).blk t).view.emb (ix2 (0 : Fin 1) o)) = V c (Pipeline.arrRef spec3 2) (ix2 (0 : Fin 1) o)
  refine congrArg _ (funext fun a => Fin.ext ?_)
  match a with
  | ⟨0, _⟩ => show win3_2.index t (0 : Fin 2) * 1 + 1 * (0 : Fin 1).val = (0 : Fin 1).val; rw [e20]; rfl
  | ⟨1, _⟩ => show win3_2.index t (1 : Fin 2) * 64 + 1 * o.val = o.val; rw [e21]; omega

/-- Entry (p, o) of the output's block at point t is entry (5000 t + p, o) of the output. -/
theorem out3_at (t : Fin cfg3.N) (j : S5000x64.Idx) :
    ((((cfg3.win 3).blk t).view.emb j : S50000x64.Idx) 0).val = t.val * 5000 + (j 0).val
      ∧ ((((cfg3.win 3).blk t).view.emb j : S50000x64.Idx) 1).val = (j 1).val := by
  obtain ⟨-, -, -, -, -, -, e30, e31⟩ := blockIdx3 t
  constructor
  · show win3_3.index t (0 : Fin 2) * 5000 + 1 * (j 0).val = t.val * 5000 + (j 0).val
    rw [e30]; omega
  · show win3_3.index t (1 : Fin 2) * 64 + 1 * (j 1).val = (j 1).val
    rw [e31]; omega

/-- Point t writes back rows 5000 t … 5000 t + 4999 of the last layer's output. -/
theorem flushed3_eq (c : Dev nD) (t : Fin cfg3.N) :
    (dat3 (F := Ideal) V c).flushed 3 t = ((cfg3.win 3).blk t).view.read (Elt Ideal)
      (fcK (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero zeroOff]
  simp only [View.ld_unit_zero (S := S5000x96) zeroOff, View.ld_unit_zero (S := S96x64) zeroOff, View.ld_unit_zero (S := S1x64) zeroOff]
  funext j
  show k3_pay1 (F := Ideal) (iblk3 V c 0 t) (iblk3 V c 1 t) (iblk3 V c 2 t) j
    = fcK (V c (Pipeline.arrRef spec3 0)) (V c (Pipeline.arrRef spec3 1)) (V c (Pipeline.arrRef spec3 2)) (((cfg3.win 3).blk t).view.emb j)
  exact block_at k3_pay1 pay3_at _ _ _ _ _ _ j _ t.val (out3_at t j).1 (out3_at t j).2
    (rows3_at V c t) (weights3_at V c t) (bias3_at V c t)

/-- An index of the output is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v87).slice (win3_3.rect t)).set ↔ _
  rw [View.set_slice_whole, Rect.mem_set_unit]
  exact Iff.rfl

/-- Row r of the output lies in the block of point r / 5000. -/
theorem cover3 (i : S50000x64.Idx) :
    ∃ t : Fin cfg3.N, (cfg3.win 3).flush t = true ∧ i ∈ ((cfg3.win 3).blk t).view.set := by
  have hi0 : (i 0).val < 50000 := (i 0).isLt
  have hi1 : (i 1).val < 64 := (i 1).isLt
  have hN : cfg3.N = 10 := rfl
  let t : Fin cfg3.N := ⟨(i 0).val / 5000, by rw [hN]; omega⟩
  obtain ⟨-, -, -, -, -, -, e30, e31⟩ := blockIdx3 t
  have ht : t.val = (i 0).val / 5000 := rfl
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; rw [e30, ht]; omega
  | ⟨1, _⟩ => show win3_3.index t (1 : Fin 2) * 64 ≤ (i 1).val ∧ (i 1).val < win3_3.index t (1 : Fin 2) * 64 + 64; rw [e31]; omega

/-- The second launch (the disease side's output). -/
theorem arr3 (c : Dev nD) :
    ((dat3 (F := Ideal) V c).arrAt 3 cfg3.N : (⟨2, ![50000, 64]⟩ : Shape).Idx → EReal)
      = fcK (V c (Pipeline.arrRef spec3 0)) (V c (Pipeline.arrRef spec3 1)) (V c (Pipeline.arrRef spec3 2)) :=
  (dat3 (F := Ideal) V c).arrAt_eq_of_cover 3
    (fcK (V c (Pipeline.arrRef spec3 0)) (V c (Pipeline.arrRef spec3 1)) (V c (Pipeline.arrRef spec3 2)))
    (fun t _ => flushed3_eq V c t) cover3

end Cert.KernelIdeal.FcRegion

end
-- ==== Proof.LibRowTake.lean ====
/-
  A table's row selected by an index column, read two ways.

  (1) THE ROW GATHER. jnp's `T[idx]` for a matrix `T : [K, C]` and a column of start indices `[n, 1]` is a
      `stablehlo.gather` whose axis 0 is collapsed and start-indexed, whose axis 1 is the one offset axis, with no
      batching axes and the index vector on axis 1. Its entry `(r, c)` is `T (k, c)`, where `k` is row `r`'s start
      index read signed and clamped into `[0, K - 1]` (`gather_rows`); when the word is the word of some `k₀ < K`
      that row is `k₀` itself (`gather_rows_of_word`).
  (2) THE ONE-HOT PRODUCT. Over the extended reals `∑ k, e k * T k = T k₀` when `e k₀ = 1` and `e k = 0` for
      `k ≠ k₀` (`sum_onehot_mul`): `0 * a = 0` and `a + 0 = a` hold for every extended real, the infinities included,
      so no finiteness is asked of `T`. The row `e` a kernel builds from a 32-bit word `w` — compare `w` with the word
      of each `k`, widen the bit to 32 bits, convert to a float — is that `e` when `w` is the word of `k₀`
      (`onehotWord`, `sum_onehotWord_mul`).
  So a matrix product with that one-hot row and the row gather read the same entry of the table.
-/
import Idealize.ShloMosaic.PureOps.Ideal
import Idealize.ShloMosaic.Lib.ValueIdx

noncomputable section

open scoped BigOperators

namespace Cert.RowTake

open Idealize.ShloMosaic Idealize.ShloMosaic.ValueIdx

/-! ## The row gather -/

/-- Entry `(r, c)` of the row gather is the table at `(k, c)`, `k` the start index of row `r` read signed and clamped
    into `[0, K - 1]`. The hypotheses are the printed dimension numbers, each by `rfl`. -/
theorem gather_rows {α : Type} {K C n w : Nat} (hK : 0 < K)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ w) (r : Fin n) (c : Fin C) :
    Host.gather d x idx (ix2 r c)
      = x (ix2 (⟨min (idx (ix2 r (0 : Fin 1))).toInt.toNat (K - 1), by omega⟩ : Fin K) c) := by
  unfold Host.gather
  congr 1
  funext a
  apply Fin.ext
  have hb : ∀ a : Fin 2, a ∉ d.operandBatchingDims := fun a => by rw [hob]; exact List.not_mem_nil
  -- every offset axis of the result is axis 1, every batch axis is axis 0
  have hall1 : ∀ a ∈ d.offsetDims, a = (1 : Fin 2) := by
    rw [hoff]; intro a ha; exact List.mem_singleton.mp ha
  have hall0 : ∀ a ∈ d.batchDims, a = (0 : Fin 2) := by
    intro a ha
    have hne : a ∉ d.offsetDims := by
      have := (List.mem_filter.mp ha).2
      simpa using this
    rw [hoff, List.mem_singleton] at hne
    match a, hne with
    | ⟨0, _⟩, _ => rfl
    | ⟨1, _⟩, hne => exact absurd rfl hne
  match a with
  | ⟨0, _⟩ =>
    -- the collapsed, start-indexed axis: the clamped start index, nothing added
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 r c) idx 0 + d.batchCoord (ix2 r c) 0 + d.offCoord (ix2 r c) 0 = _
    rw [GatherDims.batchCoord_eq_zero _ _ _ (hb 0), GatherDims.offCoord_eq_zero _ _ _ hk]
    simp only [Nat.add_zero]
    unfold GatherDims.start
    rw [dif_pos hm]
    show min (idx _).toInt.toNat (K - d.sliceSizes 0) = min (idx (ix2 r (0 : Fin 1))).toInt.toNat (K - 1)
    rw [hsl]
    congr 3
    congr 1
    funext b
    match b with
    | ⟨0, _⟩ =>
      -- the start indices' row is the result's batch coordinate, its row
      unfold GatherDims.siIdx
      rw [dif_neg (by rw [hivd]; simp)]
      unfold GatherDims.siCoord
      apply Fin.ext
      simp only [Fin.val_cast]
      have e : ∀ X : Fin 2, X = 0 → ((ix2 r c : (⟨2, ![n, C]⟩ : Shape).Idx) X).val = r.val := fun X hX => by
        subst hX; rfl
      exact e _ (hall0 _ (List.getElem_mem _))
    | ⟨1, _⟩ =>
      unfold GatherDims.siIdx
      rw [dif_pos (by rw [hivd])]
      apply Fin.ext
      show List.idxOf (0 : Fin 2) d.startIndexMap = 0
      rw [hsim]; simp
  | ⟨1, _⟩ =>
    -- the offset axis: no start, the result's column
    have hm : (1 : Fin 2) ∉ d.startIndexMap := by rw [hsim]; simp
    have hk : (1 : Fin 2) ∈ d.sKept := by rw [GatherDims.mem_sKept, hcoll]; exact ⟨by simp, hb 1⟩
    show d.start (ix2 r c) idx 1 + d.batchCoord (ix2 r c) 1 + d.offCoord (ix2 r c) 1 = c.val
    rw [GatherDims.batchCoord_eq_zero _ _ _ (hb 1)]
    unfold GatherDims.start GatherDims.offCoord
    rw [dif_neg hm, dif_pos hk]
    simp only [Nat.add_zero, Nat.zero_add]
    have e : ∀ X : Fin 2, X = 1 → ((ix2 r c : (⟨2, ![n, C]⟩ : Shape).Idx) X).val = c.val := fun X hX => by
      subst hX; rfl
    exact e _ (hall1 _ (List.getElem_mem _))

/-- A 32-bit word that is the word of `k < 2 ^ 31`, read signed, is `k`. -/
theorem toInt_toNat_ofNat (k : Nat) (hk : k < 2147483648) : (BitVec.ofNat 32 k).toInt.toNat = k := by
  have h1 : (BitVec.ofNat 32 k).toNat = k := by
    rw [BitVec.toNat_ofNat]; exact Nat.mod_eq_of_lt (by omega)
  rw [BitVec.toInt_eq_toNat_cond, h1]
  have : 2 * k < 2 ^ 32 := by omega
  rw [if_pos this]
  simp

/-- The row gather at a start index that is the word of `k₀ < K`: row `k₀`, no clamp. -/
theorem gather_rows_of_word {α : Type} {K C n : Nat} (hK32 : K ≤ 2147483648)
    (d : GatherDims ⟨2, ![K, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![K, C]⟩ : Shape).Idx → α) (idx : IVec ⟨2, ![n, 1]⟩ 32) (r : Fin n) (c : Fin C) (k₀ : Fin K)
    (hw : idx (ix2 r (0 : Fin 1)) = BitVec.ofNat 32 k₀.val) :
    Host.gather d x idx (ix2 r c) = x (ix2 k₀ c) := by
  have hk0 := k₀.isLt
  rw [gather_rows (by omega) d hoff hcoll hob hsim hivd]
  congr 2
  apply Fin.ext
  show min (idx (ix2 r (0 : Fin 1))).toInt.toNat (K - 1) = k₀.val
  rw [hw, toInt_toNat_ofNat _ (by omega)]
  omega

/-! ## The one-hot product -/

/-- A sum of products with a one-hot row is the entry it selects, on the extended reals. -/
theorem sum_onehot_mul {K : Nat} (e T : Fin K → EReal) (k₀ : Fin K) (h1 : e k₀ = 1) (h0 : ∀ k, k ≠ k₀ → e k = 0) :
    ∑ k : Fin K, e k * T k = T k₀ := by
  rw [Finset.sum_eq_single k₀ (fun k _ hk => by rw [h0 k hk, zero_mul])
    (fun h => absurd (Finset.mem_univ _) h), h1, one_mul]

/-- The float a kernel makes of "word `w` is `k`": the comparison's bit, widened to 32 bits, converted signed. -/
def onehotWord (w : BitVec 32) (k : Nat) : EReal :=
  ((((IntOp.cmpi .eq w (BitVec.ofNat 32 k)).setWidth 32).toInt : ℝ) : EReal)

theorem onehotWord_self (k : Nat) : onehotWord (BitVec.ofNat 32 k) k = 1 := by
  unfold onehotWord IntOp.cmpi
  simp

theorem onehotWord_ne (k₀ k : Nat) (h0 : k₀ < 4294967296) (hk : k < 4294967296) (hne : k ≠ k₀) :
    onehotWord (BitVec.ofNat 32 k₀) k = 0 := by
  unfold onehotWord IntOp.cmpi
  have hneq : (BitVec.ofNat 32 k₀ == BitVec.ofNat 32 k) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this.symm
  simp [hneq]

/-- The product of the one-hot row of word `w` with a table's column is the table at the row `w` names. -/
theorem sum_onehotWord_mul {K : Nat} (hK : K ≤ 4294967296) (w : BitVec 32) (T : Fin K → EReal) (k₀ : Fin K)
    (hw : w = BitVec.ofNat 32 k₀.val) :
    ∑ k : Fin K, onehotWord w k.val * T k = T k₀ := by
  subst hw
  have h0 := k₀.isLt
  exact sum_onehot_mul _ T k₀ (onehotWord_self _)
    (fun k hk => onehotWord_ne _ _ (by omega) (by have := k.isLt; omega) (fun h => hk (Fin.ext h)))

end Cert.RowTake

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.HostMid.lean ====
/-
  The host operations between the two gather launches and the two last-layer launches, run from ANY buffer contents X:
  they cut each relation's rows out of a 192-wide feature array, gather them along the edges, lay the two relations' edges
  end to end, accumulate onto zero at the destinations and scale by the destination's normaliser. What they leave in the
  two accumulators, and in the bias row, as functions of what X holds.
-/
import proofs.«411900_j49117245997357_2_alg».proof.Proof.Gen.KernelIdeal.Frame
import proofs.«411900_j49117245997357_2_alg».proof.Proof.Spec
import proofs.«411900_j49117245997357_2_alg».proof.Proof.LibRowTake
import proofs.«411900_j49117245997357_2_alg».proof.Proof.LibScatterRead
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.HostMid

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (X : Valuation τ sig (Elt Ideal))

/-! ## The chain's stages, named

Each accumulator is one chain of operations applied to four arrays: a 192-wide feature array, the array of words the
gather starts at, the array of words the scatter starts at, and a normaliser column. The stages are the program's own
operations; the two accumulators are the same chain at different arrays. -/

/-- One row of a [2, 800000] array of words, cut out and flattened to a list. -/
def wordsOf (g : IVec S2x800000 32) (off : Fin 2 → Nat) (hs : S2x800000.Slices off S1x800000) : IVec S800000 32 :=
  shapeCast S800000 (extractStridedSlice S1x800000 off g hs) shapeCasts_S1x800000_S800000

/-- A list of words with the negative ones moved up by 50000, as a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- One relation's 96-wide rows cut out of the 192-wide array: split the columns as [3, 2, 32], exchange the two middle
    axes, merge the last two, keep one relation. -/
def featRows (x : FVec Ideal S50000x192 .f32) (off : Fin 3 → Nat) (hs : S50000x2x96.Slices off S50000x1x96) :
    FVec Ideal S50000x96 .f32 :=
  shapeCast S50000x96 (extractStridedSlice S50000x1x96 off
    (shapeCast S50000x2x96 (transpose S50000x2x3x32 [0, 2, 1, 3]
      (shapeCast S50000x3x2x32 x shapeCasts_S50000x192_S50000x3x2x32)
      transposes_S50000x3x2x32_S50000x2x3x32_0_2_1_3) shapeCasts_S50000x2x3x32_S50000x2x96) hs)
    shapeCasts_S50000x1x96_S50000x96

/-- Two [800000, 96] arrays laid end to end along the rows. -/
def catRows (a b : FVec Ideal S800000x96 .f32) : FVec Ideal S1600000x96 .f32 :=
  concatenate S1600000x96 0 [⟨S800000x96, a⟩, ⟨S800000x96, b⟩] concatenates_S800000x96_S800000x96_S1600000x96_d0

/-- Two lists of 800000 words laid end to end. -/
def catWords (a b : IVec S800000 32) : IVec S1600000 32 :=
  concatenate S1600000 0 [⟨S800000, a⟩, ⟨S800000, b⟩] concatenates_S800000_S800000_S1600000_d0

/-- The whole chain: each relation's rows of `fcat` gathered at the wrapped words of `g`, the two laid end to end,
    accumulated onto zero at the words of `s` laid end to end, scaled by `ci` along the rows. -/
def accTerm (fcat : FVec Ideal S50000x192 .f32) (g s : IVec S2x800000 32) (ci : FVec Ideal S50000x1 .f32) :
    FVec Ideal S50000x96 .f32 :=
  mulf
    (Host.scatterAdd scatter_S50000x96_S1600000x1_S1600000x96_1_0_0_1
      (broadcastInDim S50000x96 ![] bcast_S_S50000x96 (constant (F := Ideal) S_ .f32 0x00000000#32))
      (broadcastInDim S1600000x1 ![0] bcast_S1600000_S1600000x1_0
        (catWords (wordsOf s ![0, 0] slices_S2x800000_S1x800000_0_0) (wordsOf s ![1, 0] slices_S2x800000_S1x800000_1_0)))
      (catRows
        (Host.gather gather_S50000x96_S800000x1_S800000x96_1_0_n_n_0_1_196
          (featRows fcat ![0, 0, 0] slices_S50000x2x96_S50000x1x96_0_0_0)
          (wrapCol (wordsOf g ![0, 0] slices_S2x800000_S1x800000_0_0)))
        (Host.gather gather_S50000x96_S800000x1_S800000x96_1_0_n_n_0_1_196
          (featRows fcat ![0, 1, 0] slices_S50000x2x96_S50000x1x96_0_1_0)
          (wrapCol (wordsOf g ![1, 0] slices_S2x800000_S1x800000_1_0)))))
    (broadcastInDim S50000x96 ![0, 1] bcast_S50000x1_S50000x96_0_1 ci)

/-! ## Each stage read at an index -/

/-- Relation r's feature rows: entry (n, q) of the cut is column 64 (q / 32) + 32 r + q % 32 of the 192-wide array. -/
theorem featRows_apply (x : FVec Ideal S50000x192 .f32) (r : Fin 2) (off : Fin 3 → Nat)
    (hs : S50000x2x96.Slices off S50000x1x96) (h0 : off 0 = 0) (h1 : off 1 = r.val) (h2 : off 2 = 0)
    (n : Fin 50000) (q : Fin 96) :
    featRows x off hs (ix2 n q) = unshuf x r n q := by
  have hn := n.isLt
  have hq := q.isLt
  have hr := r.isLt
  have hq3 : q.val / 32 < 3 := by omega
  have hq32 : q.val % 32 < 32 := Nat.mod_lt _ (by decide)
  unfold featRows
  -- dropping the unit axis: [50000, 96] at (n, q) reads [50000, 1, 96] at (n, 0, q)
  refine (shapeCast_apply _ _ _ (ix3 n (0 : Fin 1) q)
    (by rw [Shape.rowMajor_val_three, Shape.rowMajor_val_two]
        show (n.val * 1 + 0) * 96 + q.val = n.val * 96 + q.val
        omega)).trans ?_
  -- the slice at (0, r, 0): [50000, 1, 96] at (n, 0, q) reads [50000, 2, 96] at (n, r, q)
  refine (extractStridedSlice_apply _ _ _ _ (ix3 n r q)
    (fun a => match a with
      | ⟨0, _⟩ => by show n.val = off 0 + n.val; omega
      | ⟨1, _⟩ => by show r.val = off 1 + 0; omega
      | ⟨2, _⟩ => by show q.val = off 2 + q.val; omega)).trans ?_
  -- merging the last two axes: [50000, 2, 96] at (n, r, q) reads [50000, 2, 3, 32] at (n, r, q / 32, q % 32)
  refine (shapeCast_apply _ _ _ (ix4 n r (⟨q.val / 32, hq3⟩ : Fin 3) (⟨q.val % 32, hq32⟩ : Fin 32))
    (by rw [Shape.rowMajor_val_four, Shape.rowMajor_val_three]
        show ((n.val * 2 + r.val) * 3 + q.val / 32) * 32 + q.val % 32 = (n.val * 2 + r.val) * 96 + q.val
        omega)).trans ?_
  -- the transpose (0, 2, 1, 3): [50000, 2, 3, 32] at (n, r, c, j) reads [50000, 3, 2, 32] at (n, c, r, j)
  refine (transpose_apply _ _ _ _ (ix4 n (⟨q.val / 32, hq3⟩ : Fin 3) r (⟨q.val % 32, hq32⟩ : Fin 32))
    (fun b => match b with | ⟨0, _⟩ => rfl | ⟨1, _⟩ => rfl | ⟨2, _⟩ => rfl | ⟨3, _⟩ => rfl)).trans ?_
  -- splitting the columns: [50000, 3, 2, 32] at (n, c, r, j) reads [50000, 192] at (n, 64 c + 32 r + j)
  unfold unshuf
  exact shapeCast_apply _ _ _ _
    (by rw [Shape.rowMajor_val_two, Shape.rowMajor_val_four]
        show n.val * 192 + (q.val / 32 * 64 + r.val * 32 + q.val % 32)
          = ((n.val * 3 + q.val / 32) * 2 + r.val) * 32 + q.val % 32
        omega)

/-- Row r of a [2, 800000] array of words, cut out and flattened: entry e is the array at (r, e). -/
theorem wordsOf_apply (g : IVec S2x800000 32) (r : Fin 2) (off : Fin 2 → Nat)
    (hs : S2x800000.Slices off S1x800000) (h0 : off 0 = r.val) (h1 : off 1 = 0) (e : Fin 800000) :
    wordsOf g off hs (ix1 e) = rowW g r e := by
  have he := e.isLt
  unfold wordsOf
  refine (shapeCast_apply _ _ _ (ix2 (0 : Fin 1) e)
    (by rw [Shape.rowMajor_val_two, Shape.rowMajor_val_one]
        show 0 * 800000 + e.val = e.val
        omega)).trans ?_
  unfold rowW
  exact extractStridedSlice_apply _ _ _ _ (ix2 r e)
    (fun a => match a with
      | ⟨0, _⟩ => by show r.val = off 0 + 0; omega
      | ⟨1, _⟩ => by show e.val = off 1 + e.val; omega)

/-- The wrapped column: entry (e, 0) is word e, moved up by 50000 when negative. -/
theorem wrapCol_apply (v : IVec S800000 32) (e : Fin 800000) :
    wrapCol v (ix2 e (0 : Fin 1)) = wrap 50000#32 (v (ix1 e)) := by
  unfold wrapCol
  refine (broadcastInDim_apply _ _ _ _ (ix1 e) (fun a => match a with
    | ⟨0, _⟩ => by
      show e.val = if (800000 : Nat) = 1 then 0 else e.val
      rw [if_neg (by decide)])).trans ?_
  rfl

/-- A list of 1,600,000 words as a column: entry (e, 0) is word e. -/
theorem col_apply (v : IVec S1600000 32) (e : Fin 1600000) :
    broadcastInDim S1600000x1 ![0] bcast_S1600000_S1600000x1_0 v (ix2 e (0 : Fin 1)) = v (ix1 e) :=
  broadcastInDim_apply _ _ _ _ (ix1 e) (fun a => match a with
    | ⟨0, _⟩ => by
      show e.val = if (1600000 : Nat) = 1 then 0 else e.val
      rw [if_neg (by decide)])

/-- The normaliser column spread along the rows: entry (n, q) is the column at (n, 0). -/
theorem normCol_apply (ci : FVec Ideal S50000x1 .f32) (n : Fin 50000) (q : Fin 96) :
    broadcastInDim S50000x96 ![0, 1] bcast_S50000x1_S50000x96_0_1 ci (ix2 n q) = ci (ix2 n (0 : Fin 1)) :=
  broadcastInDim_apply _ _ _ _ (ix2 n (0 : Fin 1)) (fun a => match a with
    | ⟨0, _⟩ => by
      show n.val = if (50000 : Nat) = 1 then 0 else n.val
      rw [if_neg (by decide)]
    | ⟨1, _⟩ => by
      show 0 = if (1 : Nat) = 1 then 0 else q.val
      rw [if_pos rfl])

/-- The zero array: every entry is the extended real 0. -/
theorem zeros_apply (j : S50000x96.Idx) :
    broadcastInDim S50000x96 ![] bcast_S_S50000x96 (constant (F := Ideal) S_ .f32 0x00000000#32) j = 0 := by
  show Ideal.ofBits .f32 0x00000000#32 = 0
  exact Ideal.ofBits_zero_f32

/-- Two [800000, 96] arrays laid end to end along the rows, read in the first. -/
theorem catRows_left (a b : FVec Ideal S800000x96 .f32) (e : Fin 1600000) (q : Fin 96) (h : e.val < 800000) :
    catRows a b (ix2 e q) = a (ix2 (⟨e.val, h⟩ : Fin 800000) q) :=
  concatenate_pair_apply_left (t := S1600000x96) 0 a b _ (ix2 e q) rfl (ix2 (⟨e.val, h⟩ : Fin 800000) q)
    (fun c => match c with | ⟨0, _⟩ => rfl | ⟨1, _⟩ => rfl)

/-- Two [800000, 96] arrays laid end to end along the rows, read in the second. -/
theorem catRows_right (a b : FVec Ideal S800000x96 .f32) (e : Fin 1600000) (q : Fin 96) (h : 800000 ≤ e.val) :
    catRows a b (ix2 e q) = b (ix2 (⟨e.val - 800000, by have := e.isLt; omega⟩ : Fin 800000) q) :=
  concatenate_pair_apply_right (t := S1600000x96) 0 a b _ (ix2 e q) rfl rfl
    (ix2 (⟨e.val - 800000, by have := e.isLt; omega⟩ : Fin 800000) q)
    (fun c hc => match c, hc with | ⟨0, _⟩, hc => absurd rfl hc | ⟨1, _⟩, _ => rfl)
    (by show e.val - 800000 + 800000 = e.val; omega)

/-- Two lists of 800000 words laid end to end, read in the first. -/
theorem catWords_left (a b : IVec S800000 32) (e : Fin 1600000) (h : e.val < 800000) :
    catWords a b (ix1 e) = a (ix1 (⟨e.val, h⟩ : Fin 800000)) :=
  concatenate_pair_apply_left (t := S1600000) 0 a b _ (ix1 e) rfl (ix1 (⟨e.val, h⟩ : Fin 800000))
    (fun c => match c with | ⟨0, _⟩ => rfl)

/-- Two lists of 800000 words laid end to end, read in the second. -/
theorem catWords_right (a b : IVec S800000 32) (e : Fin 1600000) (h : 800000 ≤ e.val) :
    catWords a b (ix1 e) = b (ix1 (⟨e.val - 800000, by have := e.isLt; omega⟩ : Fin 800000)) :=
  concatenate_pair_apply_right (t := S1600000) 0 a b _ (ix1 e) rfl rfl
    (ix1 (⟨e.val - 800000, by have := e.isLt; omega⟩ : Fin 800000))
    (fun c hc => match c, hc with | ⟨0, _⟩, hc => absurd rfl hc)
    (by show e.val - 800000 + 800000 = e.val; omega)

/-- The row gather: row e is the operand's row at the start word, read signed and clamped to a node. -/
theorem gatherRows_apply (x : FVec Ideal S50000x96 .f32) (idx : IVec S800000x1 32) (e : Fin 800000) (q : Fin 96) :
    Host.gather gather_S50000x96_S800000x1_S800000x96_1_0_n_n_0_1_196 x idx (ix2 e q)
      = x (ix2 (rowOf 50000 (by decide) (idx (ix2 e (0 : Fin 1)))) q) :=
  Cert.RowTake.gather_rows (K := 50000) (C := 96) (n := 800000) (by decide)
    gather_S50000x96_S800000x1_S800000x96_1_0_n_n_0_1_196 rfl rfl rfl rfl rfl x idx e q

/-- The accumulating scatter: entry (n, q) is the operand's plus the updates of the rows whose start word is n. -/
theorem scatterRows_apply (x : FVec Ideal S50000x96 .f32) (idx : IVec S1600000x1 32)
    (upd : FVec Ideal S1600000x96 .f32) (n : Fin 50000) (q : Fin 96) :
    Host.scatterAdd scatter_S50000x96_S1600000x1_S1600000x96_1_0_0_1 x idx upd (ix2 n q)
      = x (ix2 n q) + ∑ k ∈ Finset.univ.filter (fun k : Fin 1600000 =>
          (idx (ix2 k (0 : Fin 1))).toInt = (n.val : Int)), upd (ix2 k q) :=
  Cert.SparseMM.scatterAdd_rows_apply (R := 50000) (B := 96) (N := 1600000)
    scatter_S50000x96_S1600000x1_S1600000x96_1_0_0_1_wf x idx upd n q

/-! ## The chain is the scaled accumulator -/

/-- The chain read at (n, q): zero plus the two relations' deliveries, scaled by the normaliser at n. -/
theorem accTerm_eq (fcat : FVec Ideal S50000x192 .f32) (g s : IVec S2x800000 32) (ci : FVec Ideal S50000x1 .f32) :
    accTerm fcat g s ci = hK fcat g s ci := by
  funext i
  obtain ⟨n, q, rfl⟩ : ∃ (n : Fin 50000) (q : Fin 96), i = ix2 n q := ⟨i 0, i 1, eq_ix2 i⟩
  unfold accTerm
  refine (mulf_apply _ _ _).trans ?_
  refine (congrArg₂ (· * ·) (scatterRows_apply _ _ _ n q) (normCol_apply ci n q)).trans ?_
  rw [zeros_apply]
  show (0 + _) * ci (ix2 n (0 : Fin 1))
    = (0 + (agg (unshuf fcat 0) (rowW g 0) (rowW s 0) n q + agg (unshuf fcat 1) (rowW g 1) (rowW s 1) n q))
        * ci (ix2 n (0 : Fin 1))
  refine congrArg (fun t => (0 + t) * ci (ix2 n (0 : Fin 1))) ?_
  -- the sum over the edges laid end to end splits into the two relations' sums
  exact sum_filter_two_lists (N := 800000) (M := 1600000) rfl (fun w : BitVec 32 => w.toInt = (n.val : Int))
    (rowW s 0) (rowW s 1)
    (fun e => unshuf fcat 0 (rowOf 50000 (by decide) (wrap 50000#32 (rowW g 0 e))) q)
    (fun e => unshuf fcat 1 (rowOf 50000 (by decide) (wrap 50000#32 (rowW g 1 e))) q)
    _ _
    (fun e h => by
      rw [col_apply, catWords_left _ _ e h]
      exact wordsOf_apply s 0 ![0, 0] _ rfl rfl _)
    (fun e h => by
      rw [col_apply, catWords_right _ _ e h]
      exact wordsOf_apply s 1 ![1, 0] _ rfl rfl _)
    (fun e h => by
      refine (catRows_left _ _ e q h).trans ((gatherRows_apply _ _ _ q).trans ?_)
      rw [wrapCol_apply, wordsOf_apply g 0 ![0, 0] _ rfl rfl]
      exact featRows_apply fcat 0 ![0, 0, 0] _ rfl rfl rfl _ q)
    (fun e h => by
      refine (catRows_right _ _ e q h).trans ((gatherRows_apply _ _ _ q).trans ?_)
      rw [wrapCol_apply, wordsOf_apply g 1 ![1, 0] _ rfl rfl]
      exact featRows_apply fcat 1 ![0, 1, 0] _ rfl rfl rfl _ q)

/-! ## What the operations leave in the three buffers

The line of operations is folded at one buffer: each operation's result at its own buffer is its function of what the
earlier operations left at its operands, and every other buffer keeps what it held. The two end-to-end layings are read
under their names. -/

section Layings
variable (V : Valuation τ sig (Elt Ideal))

theorem cat_v40 :
    (StableHlo.binary main_v28 main_v39 main_v40 ((fun a b => concatenate S1600000x96 0 [⟨S800000x96, a⟩, ⟨S800000x96, b⟩] concatenates_S800000x96_S800000x96_S1600000x96_d0) : (⟨S800000x96, .f32⟩ : BufTy).Contents (Elt Ideal) → (⟨S800000x96, .f32⟩ : BufTy).Contents (Elt Ideal) → (⟨S1600000x96, .f32⟩ : BufTy).Contents (Elt Ideal))).result V (no_index (Proc.devRef .tc main_v40))
      = catRows (V (Proc.devRef .tc main_v28)) (V (Proc.devRef .tc main_v39)) :=
  StableHlo.binary_result ..

theorem cat_v73 :
    (StableHlo.binary main_v61 main_v72 main_v73 ((fun a b => concatenate S1600000x96 0 [⟨S800000x96, a⟩, ⟨S800000x96, b⟩] concatenates_S800000x96_S800000x96_S1600000x96_d0) : (⟨S800000x96, .f32⟩ : BufTy).Contents (Elt Ideal) → (⟨S800000x96, .f32⟩ : BufTy).Contents (Elt Ideal) → (⟨S1600000x96, .f32⟩ : BufTy).Contents (Elt Ideal))).result V (no_index (Proc.devRef .tc main_v73))
      = catRows (V (Proc.devRef .tc main_v61)) (V (Proc.devRef .tc main_v72)) :=
  StableHlo.binary_result ..

theorem cat_v45 :
    (StableHlo.binary main_v42 main_v44 main_v45 ((fun a b => concatenate S1600000 0 [⟨S800000, a⟩, ⟨S800000, b⟩] concatenates_S800000_S800000_S1600000_d0) : (⟨S800000, .i32⟩ : BufTy).Contents (Elt Ideal) → (⟨S800000, .i32⟩ : BufTy).Contents (Elt Ideal) → (⟨S1600000, .i32⟩ : BufTy).Contents (Elt Ideal))).result V (no_index (Proc.devRef .tc main_v45))
      = catWords (V (Proc.devRef .tc main_v42)) (V (Proc.devRef .tc main_v44)) :=
  StableHlo.binary_result ..

theorem cat_v78 :
    (StableHlo.binary main_v75 main_v77 main_v78 ((fun a b => concatenate S1600000 0 [⟨S800000, a⟩, ⟨S800000, b⟩] concatenates_S800000_S800000_S1600000_d0) : (⟨S800000, .i32⟩ : BufTy).Contents (Elt Ideal) → (⟨S800000, .i32⟩ : BufTy).Contents (Elt Ideal) → (⟨S1600000, .i32⟩ : BufTy).Contents (Elt Ideal))).result V (no_index (Proc.devRef .tc main_v78))
      = catWords (V (Proc.devRef .tc main_v75)) (V (Proc.devRef .tc main_v77)) :=
  StableHlo.binary_result ..

end Layings

open StableHlo in
/-- The fold of a line of operations read at one buffer, the end-to-end layings kept under their names. -/
macro "after_layings" : tactic =>
  `(tactic| (simp (disch := decide) only [after_cons, after_nil, ↓cat_v40, ↓cat_v73, ↓cat_v45, ↓cat_v78,
      nullary_result', unary_result', binary_result', ternary_result', reshape_result',
      nullary_result_ne', unary_result_ne', binary_result_ne', ternary_result_ne', reshape_result_ne']))

/-- A 64-vector as a one-row matrix: entry (0, o) is entry o. -/
theorem biasRow_apply (b : FVec Ideal S64 .f32) (i : S1x64.Idx) :
    shapeCast S1x64 b shapeCasts_S64_S1x64 i = b (ix1 (i 1)) := by
  have hi0 : (i 0).val < 1 := idx2_lt0 i
  refine shapeCast_apply _ _ i (ix1 (i 1)) ?_
  rw [Shape.rowMajor_val_one, Shape.rowMajor_val_two]
  show (i 1).val = (i 0).val * 64 + (i 1).val
  omega

set_option maxHeartbeats 4000000 in
/-- The drug side's accumulator: the disease features gathered at the edges' destination words, accumulated at their
    source words, scaled by the drug normaliser. -/
theorem hdrug_after :
    (StableHlo.after hostOps2 X (Proc.devRef .tc main_v83) : (⟨2, ![50000, 96]⟩ : Shape).Idx → EReal)
      = hK (X (Proc.devRef .tc main_v11)) (X (Proc.devRef .tc main_arg3)) (X (Proc.devRef .tc main_arg2))
          (X (Proc.devRef .tc main_arg5)) := by
  show StableHlo.after hostOps2 X (Proc.devRef .tc main_v83) = _
  after_layings
  exact accTerm_eq _ _ _ _

set_option maxHeartbeats 4000000 in
/-- The disease side's accumulator: the drug features gathered at the edges' source words, accumulated at their
    destination words, scaled by the disease normaliser. -/
theorem hdis_after :
    (StableHlo.after hostOps2 X (Proc.devRef .tc main_v50) : (⟨2, ![50000, 96]⟩ : Shape).Idx → EReal)
      = hK (X (Proc.devRef .tc main_v10)) (X (Proc.devRef .tc main_arg2)) (X (Proc.devRef .tc main_arg3))
          (X (Proc.devRef .tc main_arg7)) := by
  show StableHlo.after hostOps2 X (Proc.devRef .tc main_v50) = _
  after_layings
  exact accTerm_eq _ _ _ _

/-- The bias as a one-row matrix. -/
theorem bias_after :
    (StableHlo.after hostOps2 X (Proc.devRef .tc main_v84) : (⟨2, ![1, 64]⟩ : Shape).Idx → EReal)
      = fun i => (X (Proc.devRef .tc main_arg11) : (⟨1, ![64]⟩ : Shape).Idx → EReal) (ix1 (i 1)) := by
  show StableHlo.after hostOps2 X (Proc.devRef .tc main_v84) = _
  after_layings
  exact funext fun i => biasRow_apply _ i

end Cert.KernelIdeal.HostMid

end
-- ==== Proof.HostPre.lean ====
/-
  The host operations before the first launch, run from the launch memory: the two relations' weight tables side by side,
  and each index array clamped into [0, 2047].
-/
import proofs.«411900_j49117245997357_2_alg».proof.Proof.Gen.KernelIdeal.Frame
import proofs.«411900_j49117245997357_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.StackMember

set_option maxRecDepth 16384

noncomputable section

open scoped BigOperators

namespace Cert.KernelIdeal.HostPre

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The tables' pieces read at an index

The flattened basis at (b, 32 k + j) is the basis at (b, k, j); the product of the coefficients by the flattened basis at
(r, q) is the sum over b of coefficient (r, b) times the flattened basis (b, q); the product recast to [2, 2048, 32] at
(r, k, j) is the product at (r, 32 k + j): both casts keep the row-major position 65536 r + 32 k + j. -/

/-- The basis flattened to [4, 65536], at (b, 32 k + j): the basis at (b, k, j). -/
theorem flat_basis_apply (basis : (S4x2048x32 : Shape).Idx → EReal) (h : S4x2048x32.ShapeCasts S4x65536)
    (b : Fin 4) (k : Fin 2048) (j : Fin 32) (q : Fin 65536) (hq : q.val = 32 * k.val + j.val) :
    shapeCast S4x65536 basis h (ix2 b q) = basis (ix3 b k j) :=
  shapeCast_apply basis h _ _ (by
    rw [Shape.rowMajor_val_three, Shape.rowMajor_val_two]
    show (b.val * 2048 + k.val) * 32 + j.val = b.val * 65536 + q.val
    omega)

/-- The [2, 65536] product recast to [2, 2048, 32], at (r, k, j): the product at (r, 32 k + j). -/
theorem unflat_apply (X : (S2x65536 : Shape).Idx → EReal) (h : S2x65536.ShapeCasts S2x2048x32)
    (r : Fin 2) (k : Fin 2048) (j : Fin 32) (q : Fin 65536) (hq : q.val = 32 * k.val + j.val) :
    shapeCast S2x2048x32 X h (ix3 r k j) = X (ix2 r q) :=
  shapeCast_apply X h _ _ (by
    rw [Shape.rowMajor_val_two, Shape.rowMajor_val_three]
    show r.val * 65536 + q.val = (r.val * 2048 + k.val) * 32 + j.val
    omega)

/-- The coefficients times the flattened basis, at (r, q): the sum over the four basis matrices. -/
theorem dot_apply (att : (S2x4 : Shape).Idx → EReal) (B : (S4x65536 : Shape).Idx → EReal) (r : Fin 2) (q : Fin 65536) :
    Host.dotGeneral (F := Ideal) (φ₁ := .f32) (φ₂ := .f32) dot_S2x4_S4x65536_S2x65536_1_0_0_1_n_n none att B (ix2 r q)
      = ∑ b : Fin 4, att (ix2 r b) * B (ix2 b q) :=
  StackMember.dotGeneral_plain_apply (m := 2) (n := 65536) (k := 4) none att B r q

/-- Relation r's table cut out of the combined [2, 2048, 32] array and recast to [2048, 32], at (k, j): the combined
    array at (r, k, j). -/
theorem table_apply (V : (S2x2048x32 : Shape).Idx → EReal) (o : Nat) (r : Fin 2) (ho : o = r.val)
    (hs : S2x2048x32.Slices ![o, 0, 0] S1x2048x32) (hc : S1x2048x32.ShapeCasts S2048x32) (k : Fin 2048) (j : Fin 32) :
    shapeCast S2048x32 (extractStridedSlice S1x2048x32 ![o, 0, 0] V hs) hc (ix2 k j) = V (ix3 r k j) := by
  rw [shapeCast_1ab_ab_apply]
  exact extractStridedSlice_apply _ V hs _ _ fun a => match a with
    | ⟨0, _⟩ => by show r.val = o + 0; omega
    | ⟨1, _⟩ => by show k.val = 0 + k.val; omega
    | ⟨2, _⟩ => by show j.val = 0 + j.val; omega

/-- The combined tables as the host operations spell them: the coefficients times the flattened basis, recast. -/
def comb (att : (S2x4 : Shape).Idx → EReal) (basis : (S4x2048x32 : Shape).Idx → EReal) : (S2x2048x32 : Shape).Idx → EReal :=
  shapeCast S2x2048x32
    (Host.dotGeneral (F := Ideal) (φ₁ := .f32) (φ₂ := .f32) dot_S2x4_S4x65536_S2x65536_1_0_0_1_n_n none att
      (shapeCast S4x65536 basis Facts₀.shapeCasts_S4x2048x32_S4x65536))
    Facts₀.shapeCasts_S2x65536_S2x2048x32

/-- The combined tables at (r, k, j): relation r's weight table at row k, entry j. -/
theorem comb_apply (att : (S2x4 : Shape).Idx → EReal) (basis : (S4x2048x32 : Shape).Idx → EReal)
    (r : Fin 2) (k : Fin 2048) (j : Fin 32) : comb att basis (ix3 r k j) = wt att basis r k j := by
  have hq : 32 * k.val + j.val < 65536 := by omega
  unfold comb wt
  rw [unflat_apply _ _ r k j ⟨32 * k.val + j.val, hq⟩ rfl, dot_apply]
  exact Finset.sum_congr rfl fun b _ => by rw [flat_basis_apply _ _ b k j ⟨32 * k.val + j.val, hq⟩ rfl]

/-- The side-by-side tables. -/
theorem tables (c : Dev nD) :
    (W4 m ρ c (Proc.devRef .tc main_v7) : (⟨2, ![2048, 64]⟩ : Shape).Idx → EReal)
      = wcatK (m ((c.tc : Thread nD τ).loc main_arg8)) (m ((c.tc : Thread nD τ).loc main_arg9)) := by
  -- the later stretches do not write the tables' buffer
  have e3 : W4 m ρ c (Proc.devRef .tc main_v7) = W3 m ρ c (Proc.devRef .tc main_v7) :=
    StableHlo.after_of_forall_not_mem (b := Proc.devRef .tc main_v7) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have e2 : W3 m ρ c (Proc.devRef .tc main_v7) = W2 m ρ c (Proc.devRef .tc main_v7) :=
    StableHlo.after_of_forall_not_mem (b := Proc.devRef .tc main_v7) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have e1 : W2 m ρ c (Proc.devRef .tc main_v7) = W1 m ρ c (Proc.devRef .tc main_v7) :=
    StableHlo.after_of_forall_not_mem (b := Proc.devRef .tc main_v7) _ _ (List.forall_iff_forall_mem.mp (by
          simp only [hostOps0_1, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  -- the first stretch leaves there the two relations' tables, cut out of the combined array, laid side by side
  have e0 : (W1 m ρ c (Proc.devRef .tc main_v7) : (S2048x64 : Shape).Idx → EReal)
      = concatenate S2048x64 1
          [⟨S2048x32, shapeCast S2048x32 (extractStridedSlice S1x2048x32 ![0, 0, 0]
              (comb (m ((c.tc : Thread nD τ).loc main_arg8)) (m ((c.tc : Thread nD τ).loc main_arg9)))
              Facts₀.slices_S2x2048x32_S1x2048x32_0_0_0) Facts₀.shapeCasts_S1x2048x32_S2048x32⟩,
           ⟨S2048x32, shapeCast S2048x32 (extractStridedSlice S1x2048x32 ![1, 0, 0]
              (comb (m ((c.tc : Thread nD τ).loc main_arg8)) (m ((c.tc : Thread nD τ).loc main_arg9)))
              Facts₀.slices_S2x2048x32_S1x2048x32_1_0_0) Facts₀.shapeCasts_S1x2048x32_S2048x32⟩]
          Facts₀.concatenates_S2048x32_S2048x32_S2048x64_d1 := by
    show StableHlo.after hostOps0 (W0 m ρ c) (Proc.devRef .tc main_v7) = _
    after_results
    rfl
  rw [e3, e2, e1, e0]
  funext i
  obtain ⟨k, p, rfl⟩ : ∃ (k : Fin 2048) (p : Fin 64), i = ix2 k p := ⟨i 0, i 1, eq_ix2 i⟩
  have hp := p.isLt
  show _ = wt _ _ ⟨p.val / 32, _⟩ k ⟨p.val % 32, _⟩
  by_cases h32 : p.val < 32
  · -- a column below 32 falls in relation 0's table, at the same entry
    rw [concatenate_pair_apply_left (s₁ := S2048x32) (s₂ := S2048x32) (1 : Fin (S2048x64 : Shape).rank) _ _ _ (ix2 k p) rfl (ix2 k (⟨p.val, h32⟩ : Fin 32))
        (fun b => match b with | ⟨0, _⟩ => rfl | ⟨1, _⟩ => rfl),
      table_apply _ 0 0 rfl, comb_apply]
    congr 1
    · exact Fin.ext (by show 0 = p.val / 32; omega)
    · exact Fin.ext (by show p.val = p.val % 32; omega)
  · -- a column from 32 on falls in relation 1's table, 32 entries back
    have h32' : p.val - 32 < 32 := by omega
    rw [concatenate_pair_apply_right (s₁ := S2048x32) (s₂ := S2048x32) (1 : Fin (S2048x64 : Shape).rank) _ _ _ (ix2 k p) rfl rfl (ix2 k (⟨p.val - 32, h32'⟩ : Fin 32))
        (fun b hb => match b, hb with | ⟨0, _⟩, _ => rfl | ⟨1, _⟩, hb => absurd rfl hb)
        (by show p.val - 32 + 32 = p.val; omega),
      table_apply _ 1 1 rfl, comb_apply]
    congr 1
    · exact Fin.ext (by show 1 = p.val / 32; omega)
    · exact Fin.ext (by show p.val - 32 = p.val % 32; omega)

/-- The drug indices, clamped. -/
theorem clip0 (c : Dev nD) :
    (W4 m ρ c (Proc.devRef .tc main_v8) : (⟨2, ![50000, 3]⟩ : Shape).Idx → BitVec 32)
      = fun i => clipW (m ((c.tc : Thread nD τ).loc main_arg0) i) := by
  have e3 : W4 m ρ c (Proc.devRef .tc main_v8) = W3 m ρ c (Proc.devRef .tc main_v8) :=
    StableHlo.after_of_forall_not_mem (b := Proc.devRef .tc main_v8) _ _ (List.forall_iff_forall_mem.mp (by
          simp only [hostOps0_3, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  have e2 : W3 m ρ c (Proc.devRef .tc main_v8) = W2 m ρ c (Proc.devRef .tc main_v8) :=
    StableHlo.after_of_forall_not_mem (b := Proc.devRef .tc main_v8) _ _ (List.forall_iff_forall_mem.mp (by
          simp only [hostOps0_2, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
  rw [e3, e2]
  show StableHlo.after hostOps0_1 (W1 m ρ c) (Proc.devRef .tc main_v8) = _
  after_results
  rfl

/-- The disease indices, clamped. -/
theorem clip1 (c : Dev nD) :
    (W4 m ρ c (Proc.devRef .tc main_v9) : (⟨2, ![50000, 3]⟩ : Shape).Idx → BitVec 32)
      = fun i => clipW (m ((c.tc : Thread nD τ).loc main_arg1) i) := by
  show StableHlo.after hostOps0_3 (W3 m ρ c) (Proc.devRef .tc main_v9) = _
  after_results
  rfl

end Cert.KernelIdeal.HostPre

end
-- ==== Proof.Results.lean ====
/-
  The two results of the kernel's program as functions of its arguments. The program is four launches among stretches of
  host operations; the buffer contents at each boundary are a fold from the launch memory, a launch replacing its output
  array by what its pipeline leaves and a stretch applying its operations. A result buffer at the last boundary is read
  back boundary by boundary: past a launch that does not stage it and past a stretch that does not write it nothing
  changes; at the launch that writes it, it is that launch's closed form of the launch's inputs at ITS entry; at the stretch
  that writes it, the stretch's function of what it reads. So: the last layer of the scaled accumulator of the edges'
  deliveries of the one-hot features of the clamped indices against the side-by-side tables.
-/
import proofs.«411900_j49117245997357_2_alg».proof.Proof.Gen.KernelIdeal.Frame
import proofs.«411900_j49117245997357_2_alg».proof.Proof.Spec
import proofs.«411900_j49117245997357_2_alg».proof.Proof.GatherRegion
import proofs.«411900_j49117245997357_2_alg».proof.Proof.FcRegion
import proofs.«411900_j49117245997357_2_alg».proof.Proof.HostMid
import proofs.«411900_j49117245997357_2_alg».proof.Proof.HostPre
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.KernelIdeal.Results

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- A stretch of host operations leaves a buffer none of them writes as it found it. -/
local macro "not_written " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments at the first launch's entry, and past the two gather launches -/

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := by not_written hostOps0_3
    _ = W2 m ρ c (Proc.devRef .tc main_arg2) := by not_written hostOps0_2
    _ = W1 m ρ c (Proc.devRef .tc main_arg2) := by not_written hostOps0_1
    _ = W0 m ρ c (Proc.devRef .tc main_arg2) := by not_written hostOps0
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := by not_written hostOps0_3
    _ = W2 m ρ c (Proc.devRef .tc main_arg3) := by not_written hostOps0_2
    _ = W1 m ρ c (Proc.devRef .tc main_arg3) := by not_written hostOps0_1
    _ = W0 m ρ c (Proc.devRef .tc main_arg3) := by not_written hostOps0
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := by not_written hostOps0_3
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := by not_written hostOps0_3
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := by not_written hostOps0_3
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := by not_written hostOps0_3
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = m ((c : Thread nD τ).loc main_arg7) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := by not_written hostOps0_3
    _ = W2 m ρ c (Proc.devRef .tc main_arg10) := by not_written hostOps0_2
    _ = W1 m ρ c (Proc.devRef .tc main_arg10) := by not_written hostOps0_1
    _ = W0 m ρ c (Proc.devRef .tc main_arg10) := by not_written hostOps0
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := by not_written hostOps0_3
    _ = W2 m ρ c (Proc.devRef .tc main_arg11) := by not_written hostOps0_2
    _ = W1 m ρ c (Proc.devRef .tc main_arg11) := by not_written hostOps0_1
    _ = W0 m ρ c (Proc.devRef .tc main_arg11) := by not_written hostOps0
    _ = m ((c : Thread nD τ).loc main_arg11) := rfl

theorem W6_main_arg2 (c : Dev nD) : W6 m ρ c (Proc.devRef .tc main_arg2) = m ((c : Thread nD τ).loc main_arg2) :=
  ((W6_of_ne m ρ c main_arg2 (by decide)).trans (W5_of_ne m ρ c main_arg2 (by decide))).trans (W4_main_arg2 m ρ c)
theorem W6_main_arg3 (c : Dev nD) : W6 m ρ c (Proc.devRef .tc main_arg3) = m ((c : Thread nD τ).loc main_arg3) :=
  ((W6_of_ne m ρ c main_arg3 (by decide)).trans (W5_of_ne m ρ c main_arg3 (by decide))).trans (W4_main_arg3 m ρ c)
theorem W6_main_arg5 (c : Dev nD) : W6 m ρ c (Proc.devRef .tc main_arg5) = m ((c : Thread nD τ).loc main_arg5) :=
  ((W6_of_ne m ρ c main_arg5 (by decide)).trans (W5_of_ne m ρ c main_arg5 (by decide))).trans (W4_main_arg5 m ρ c)
theorem W6_main_arg7 (c : Dev nD) : W6 m ρ c (Proc.devRef .tc main_arg7) = m ((c : Thread nD τ).loc main_arg7) :=
  ((W6_of_ne m ρ c main_arg7 (by decide)).trans (W5_of_ne m ρ c main_arg7 (by decide))).trans (W4_main_arg7 m ρ c)
theorem W6_main_arg10 (c : Dev nD) : W6 m ρ c (Proc.devRef .tc main_arg10) = m ((c : Thread nD τ).loc main_arg10) :=
  ((W6_of_ne m ρ c main_arg10 (by decide)).trans (W5_of_ne m ρ c main_arg10 (by decide))).trans (W4_main_arg10 m ρ c)
theorem W6_main_arg11 (c : Dev nD) : W6 m ρ c (Proc.devRef .tc main_arg11) = m ((c : Thread nD τ).loc main_arg11) :=
  ((W6_of_ne m ρ c main_arg11 (by decide)).trans (W5_of_ne m ρ c main_arg11 (by decide))).trans (W4_main_arg11 m ρ c)

/-! ## The feature arrays the gather launches leave -/

/-- The side-by-side tables are the first launch's second input and come out of it unchanged. -/
theorem W5_tables (c : Dev nD) :
    (W5 m ρ c (Proc.devRef .tc main_v7) : Arr2 2048 64)
      = wcatK (m ((c.tc : Thread nD τ).loc main_arg8)) (m ((c.tc : Thread nD τ).loc main_arg9)) :=
  ((W5_arr m ρ c 1).trans (((dat0 (V4 m ρ) c).arrAt_in 1 rfl _).trans (A_eq0 (V4 m ρ) c 1))).trans
    (HostPre.tables m ρ c)

/-- The drug side's 192-wide features: what the first launch leaves, still there after the second. -/
theorem W6_fd (c : Dev nD) :
    (W6 m ρ c (Proc.devRef .tc main_v10) : Arr2 50000 192)
      = gathK (fun i => clipW (m ((c.tc : Thread nD τ).loc main_arg0) i))
          (wcatK (m ((c.tc : Thread nD τ).loc main_arg8)) (m ((c.tc : Thread nD τ).loc main_arg9)))
          (m ((c.tc : Thread nD τ).loc main_arg4)) := by
  refine ((W6_of_ne m ρ c main_v10 (by decide)).trans ((W5_arr m ρ c 3).trans (GatherRegion.arr0 (V4 m ρ) c))).trans ?_
  show gathK (W4 m ρ c (Proc.devRef .tc main_v8)) (W4 m ρ c (Proc.devRef .tc main_v7))
      (W4 m ρ c (Proc.devRef .tc main_arg4)) = _
  rw [HostPre.clip0 m ρ c, HostPre.tables m ρ c, W4_main_arg4 m ρ c]
  rfl

/-- The disease side's 192-wide features: what the second launch leaves. -/
theorem W6_fi (c : Dev nD) :
    (W6 m ρ c (Proc.devRef .tc main_v11) : Arr2 50000 192)
      = gathK (fun i => clipW (m ((c.tc : Thread nD τ).loc main_arg1) i))
          (wcatK (m ((c.tc : Thread nD τ).loc main_arg8)) (m ((c.tc : Thread nD τ).loc main_arg9)))
          (m ((c.tc : Thread nD τ).loc main_arg6)) := by
  refine ((W6_arr m ρ c 3).trans (GatherRegion.arr1 (V5 m ρ) c)).trans ?_
  show gathK (W5 m ρ c (Proc.devRef .tc main_v9)) (W5 m ρ c (Proc.devRef .tc main_v7))
      (W5 m ρ c (Proc.devRef .tc main_arg6)) = _
  rw [W5_tables m ρ c, (W5_of_ne m ρ c main_v9 (by decide)).trans (HostPre.clip1 m ρ c),
    (W5_of_ne m ρ c main_arg6 (by decide)).trans (W4_main_arg6 m ρ c)]
  rfl

/-! ## The scaled accumulators, at the last-layer launches' entries -/

theorem W7_hdrug (c : Dev nD) :
    (W7 m ρ c (Proc.devRef .tc main_v83) : Arr2 50000 96)
      = hK (gathK (fun i => clipW (m ((c.tc : Thread nD τ).loc main_arg1) i))
            (wcatK (m ((c.tc : Thread nD τ).loc main_arg8)) (m ((c.tc : Thread nD τ).loc main_arg9)))
            (m ((c.tc : Thread nD τ).loc main_arg6)))
          (m ((c.tc : Thread nD τ).loc main_arg3)) (m ((c.tc : Thread nD τ).loc main_arg2))
          (m ((c.tc : Thread nD τ).loc main_arg5)) := by
  refine (HostMid.hdrug_after (W6 m ρ c)).trans ?_
  rw [W6_fi m ρ c, W6_main_arg3 m ρ c, W6_main_arg2 m ρ c, W6_main_arg5 m ρ c]

theorem W7_hdis (c : Dev nD) :
    (W7 m ρ c (Proc.devRef .tc main_v50) : Arr2 50000 96)
      = hK (gathK (fun i => clipW (m ((c.tc : Thread nD τ).loc main_arg0) i))
            (wcatK (m ((c.tc : Thread nD τ).loc main_arg8)) (m ((c.tc : Thread nD τ).loc main_arg9)))
            (m ((c.tc : Thread nD τ).loc main_arg4)))
          (m ((c.tc : Thread nD τ).loc main_arg2)) (m ((c.tc : Thread nD τ).loc main_arg3))
          (m ((c.tc : Thread nD τ).loc main_arg7)) := by
  refine (HostMid.hdis_after (W6 m ρ c)).trans ?_
  rw [W6_fd m ρ c, W6_main_arg2 m ρ c, W6_main_arg3 m ρ c, W6_main_arg7 m ρ c]

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := by not_written hostOps2
    _ = m ((c : Thread nD τ).loc main_arg10) := W6_main_arg10 m ρ c

theorem W7_main_arg11 (c : Dev nD) : W7 m ρ c (Proc.devRef .tc main_arg11) = m ((c : Thread nD τ).loc main_arg11) :=
  calc W7 m ρ c (Proc.devRef .tc main_arg11)
    _ = W6 m ρ c (Proc.devRef .tc main_arg11) := by not_written hostOps2
    _ = m ((c : Thread nD τ).loc main_arg11) := W6_main_arg11 m ρ c

theorem W7_bias (c : Dev nD) :
    (W7 m ρ c (Proc.devRef .tc main_v84) : Arr2 1 64)
      = fun i => (m ((c.tc : Thread nD τ).loc main_arg11) : (⟨1, ![64]⟩ : Shape).Idx → EReal) (ix1 (i 1)) := by
  refine (HostMid.bias_after (W6 m ρ c)).trans ?_
  rw [W6_main_arg11 m ρ c]

/-! ## The results -/

/-- The first result: the last layer of the drug side's accumulator. -/
theorem res0 (c : Dev nD) :
    (W10 m ρ c (Proc.devRef .tc main_v85) : Arr2 50000 64)
      = fcK (hK (gathK (fun i => clipW (m ((c.tc : Thread nD τ).loc main_arg1) i))
                  (wcatK (m ((c.tc : Thread nD τ).loc main_arg8)) (m ((c.tc : Thread nD τ).loc main_arg9)))
                  (m ((c.tc : Thread nD τ).loc main_arg6)))
                (m ((c.tc : Thread nD τ).loc main_arg3)) (m ((c.tc : Thread nD τ).loc main_arg2))
                (m ((c.tc : Thread nD τ).loc main_arg5)))
          (m ((c.tc : Thread nD τ).loc main_arg10))
          (fun i => (m ((c.tc : Thread nD τ).loc main_arg11) : (⟨1, ![64]⟩ : Shape).Idx → EReal) (ix1 (i 1))) := by
  have e : W10 m ρ c (Proc.devRef .tc main_v85) = W8 m ρ c (Proc.devRef .tc main_v85) :=
    calc W10 m ρ c (Proc.devRef .tc main_v85)
      _ = W9 m ρ c (Proc.devRef .tc main_v85) := W10_of_ne m ρ c main_v85 (by decide)
      _ = W8 m ρ c (Proc.devRef .tc main_v85) := by not_written hostOps3
  refine (e.trans ((W8_arr m ρ c 3).trans (FcRegion.arr2 (V7 m ρ) c))).trans ?_
  show fcK (W7 m ρ c (Proc.devRef .tc main_v83)) (W7 m ρ c (Proc.devRef .tc main_arg10))
      (W7 m ρ c (Proc.devRef .tc main_v84)) = _
  rw [W7_hdrug m ρ c, W7_main_arg10 m ρ c, W7_bias m ρ c]
  rfl

/-- The bias row the last launch reads: the bias vector as one row. -/
theorem W9_bias (c : Dev nD) :
    (W9 m ρ c (Proc.devRef .tc main_v86) : Arr2 1 64)
      = fun i => (m ((c.tc : Thread nD τ).loc main_arg11) : (⟨1, ![64]⟩ : Shape).Idx → EReal) (ix1 (i 1)) := by
  have e8 : W8 m ρ c (Proc.devRef .tc main_arg11) = m ((c : Thread nD τ).loc main_arg11) :=
    (W8_of_ne m ρ c main_arg11 (by decide)).trans (W7_main_arg11 m ρ c)
  have e : (W9 m ρ c (Proc.devRef .tc main_v86) : Arr2 1 64)
      = shapeCast S1x64 (W8 m ρ c (Proc.devRef .tc main_arg11)) shapeCasts_S64_S1x64 := by
    show StableHlo.after hostOps3 (W8 m ρ c) (Proc.devRef .tc main_v86) = _
    after_results
    rfl
  rw [e, e8]
  funext i
  exact shapeCast_apply _ _ i (ix1 (i 1)) (by
    rw [Shape.rowMajor_val_one, Shape.rowMajor_val_two]
    have h0 : (i 0).val = 0 := by have := idx2_lt0 i; omega
    show ((ix1 (i 1) : (⟨1, ![64]⟩ : Shape).Idx) 0).val = (i 0).val * 64 + (i 1).val
    rw [h0]; show (i 1).val = 0 * 64 + (i 1).val; omega)

/-- The second result: the last layer of the disease side's accumulator. -/
theorem res1 (c : Dev nD) :
    (W10 m ρ c (Proc.devRef .tc main_v87) : Arr2 50000 64)
      = fcK (hK (gathK (fun i => clipW (m ((c.tc : Thread nD τ).loc main_arg0) i))
                  (wcatK (m ((c.tc : Thread nD τ).loc main_arg8)) (m ((c.tc : Thread nD τ).loc main_arg9)))
                  (m ((c.tc : Thread nD τ).loc main_arg4)))
                (m ((c.tc : Thread nD τ).loc main_arg2)) (m ((c.tc : Thread nD τ).loc main_arg3))
                (m ((c.tc : Thread nD τ).loc main_arg7)))
          (m ((c.tc : Thread nD τ).loc main_arg10))
          (fun i => (m ((c.tc : Thread nD τ).loc main_arg11) : (⟨1, ![64]⟩ : Shape).Idx → EReal) (ix1 (i 1))) := by
  have e50 : W9 m ρ c (Proc.devRef .tc main_v50) = W7 m ρ c (Proc.devRef .tc main_v50) :=
    calc W9 m ρ c (Proc.devRef .tc main_v50)
      _ = W8 m ρ c (Proc.devRef .tc main_v50) := by not_written hostOps3
      _ = W7 m ρ c (Proc.devRef .tc main_v50) := W8_of_ne m ρ c main_v50 (by decide)
  have e10 : W9 m ρ c (Proc.devRef .tc main_arg10) = m ((c : Thread nD τ).loc main_arg10) :=
    calc W9 m ρ c (Proc.devRef .tc main_arg10)
      _ = W8 m ρ c (Proc.devRef .tc main_arg10) := by not_written hostOps3
      _ = W7 m ρ c (Proc.devRef .tc main_arg10) :=
          (W8_arr m ρ c 1).trans (((dat2 (V7 m ρ) c).arrAt_in 1 rfl _).trans (A_eq2 (V7 m ρ) c 1))
      _ = m ((c : Thread nD τ).loc main_arg10) := W7_main_arg10 m ρ c
  refine ((W10_arr m ρ c 3).trans (FcRegion.arr3 (V9 m ρ) c)).trans ?_
  show fcK (W9 m ρ c (Proc.devRef .tc main_v50)) (W9 m ρ c (Proc.devRef .tc main_arg10))
      (W9 m ρ c (Proc.devRef .tc main_v86)) = _
  rw [e50, W7_hdis m ρ c, e10, W9_bias m ρ c]
  rfl

end Cert.KernelIdeal.Results

end
-- ==== Proof.RefValue.lean ====
/-
  The reference's two results read at an index: each is the last layer applied to the accumulator that adds, relation by
  relation, the scaled deliveries of the edges, the features being table rows selected by the node's indices.
-/
import proofs.«411900_j49117245997357_2_alg».proof.Proof.Gen.ReferenceIdeal.Run
import proofs.«411900_j49117245997357_2_alg».proof.Proof.Gen.ReferenceIdeal.Read
import proofs.«411900_j49117245997357_2_alg».proof.Proof.Spec
import proofs.«411900_j49117245997357_2_alg».proof.Proof.LibRowTake
import proofs.«411900_j49117245997357_2_alg».proof.Proof.LibScatterRead
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.ReferenceIdeal.RefValue

open Cert.ReferenceIdeal Cert.ReferenceIdeal.Gen Cert.Spec
open Idealize.ShloMosaic Idealize.ShloMosaic.TcCoe Idealize.ShloMosaic.ValueIdx Idealize.SL.Sem

/-- The dimension numbers of the table gather: an operand [K, C], start indices [n, p, 1] and a result [n, p, C]; the
    result's axis 2 is the offset axis, the operand's axis 0 is collapsed and named by the one entry of a start index,
    the index vector along axis 2, slices of shape [1, C]. -/
abbrev tableGatherDims (K C n p : Nat)
    (wf : GatherDims.WF ⟨2, ![K, C]⟩ ⟨3, ![n, p, 1]⟩ ⟨3, ![n, p, C]⟩ [2] [0] [] [0] [] 2 ![1, C]) :
    GatherDims ⟨2, ![K, C]⟩ ⟨3, ![n, p, 1]⟩ ⟨3, ![n, p, C]⟩ where
  offsetDims := [2]
  collapsedSliceDims := [0]
  operandBatchingDims := []
  startIndicesBatchingDims := []
  startIndexMap := [0]
  indexVectorDim := 2
  sliceSizes := ![1, C]
  wf := wf

/-- THE TABLE GATHER READ AT (r, c, j): the table at the row the start index at (r, c, 0) names, read signed and clamped
    into [0, K - 1], and at column j. -/
theorem gather_table_apply {α : Type} {K C n p w : Nat} (hK : 0 < K)
    (wf : GatherDims.WF ⟨2, ![K, C]⟩ ⟨3, ![n, p, 1]⟩ ⟨3, ![n, p, C]⟩ [2] [0] [] [0] [] 2 ![1, C])
    (x : (⟨2, ![K, C]⟩ : Shape).Idx → α) (idx : IVec ⟨3, ![n, p, 1]⟩ w) (r : Fin n) (c : Fin p) (j : Fin C) :
    Host.gather (tableGatherDims K C n p wf) x idx (ix3 r c j)
      = x (ix2 ⟨min (idx (ix3 r c (0 : Fin 1))).toInt.toNat (K - 1), by omega⟩ j) := by
  unfold Host.gather
  congr 1
  funext a
  refine Fin.ext ?_
  match a with
  | ⟨0, _⟩ =>
    show (tableGatherDims K C n p wf).start (ix3 r c j) idx 0 + (tableGatherDims K C n p wf).batchCoord (ix3 r c j) 0
      + (tableGatherDims K C n p wf).offCoord (ix3 r c j) 0 = min (idx (ix3 r c (0 : Fin 1))).toInt.toNat (K - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (tableGatherDims K C n p wf).siIdx (ix3 r c j) ⟨List.idxOf (0 : Fin 2) (tableGatherDims K C n p wf).startIndexMap,
        List.idxOf_lt_length_iff.2 (show (0 : Fin 2) ∈ ([0] : List (Fin 2)) by decide)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (tableGatherDims K C n p wf).start (ix3 r c j) idx 1 + (tableGatherDims K C n p wf).batchCoord (ix3 r c j) 1
      + (tableGatherDims K C n p wf).offCoord (ix3 r c j) 1 = j.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

/-- The program's table gather has exactly these dimension numbers. -/
theorem tableGather_rec :
    gather_S2048x32_S50000x3x1_S50000x3x32_2_0_n_n_0_2_132
      = tableGatherDims 2048 32 50000 3 Gen.gather_S2048x32_S50000x3x1_S50000x3x32_2_0_n_n_0_2_132_wf := rfl

/-- The program's accumulating scatter is the scatter onto rows. -/
theorem scatter_rec :
    scatter_S50000x96_S800000x1_S800000x96_1_0_0_1
      = Cert.SparseMM.rowDims 50000 96 800000 Gen.scatter_S50000x96_S800000x1_S800000x96_1_0_0_1_wf := rfl

/-- The program's edge gather is the row gather. -/
theorem rowGather_rec :
    gather_S50000x96_S800000x1_S800000x96_1_0_n_n_0_1_196
      = Cert.SparseMM.rowGatherDims 50000 96 800000 Gen.gather_S50000x96_S800000x1_S800000x96_1_0_n_n_0_1_196_wf := rfl

/-! ## The weight tables -/

/-- The combined tables at (r, k, j): position 2048 * 32 * r + 32 * k + j of the row-major product of the coefficients
    [2, 4] with the basis matrices laid out [4, 65536], which is the sum over the four basis matrices. -/
theorem v2_at (x8 : (⟨S2x4, .f32⟩ : BufTy).Contents (Elt Ideal)) (x9 : (⟨S4x2048x32, .f32⟩ : BufTy).Contents (Elt Ideal))
    (r : Fin 2) (k : Fin 2048) (j : Fin 32) :
    Read.val_main_v2 (F := Ideal) x8 x9 (ix3 r k j) = wt x8 x9 r k j := by
  have hr := r.isLt
  have hk := k.isLt
  have hj := j.isLt
  rw [Read.val_main_v2_apply, Read.val_main_v1_apply]
  unfold wt
  refine Finset.sum_congr rfl fun b _ => ?_
  have hb := b.isLt
  rw [Read.val_main_v0_apply]
  have e1 : Read.lidx_main_v1 (Read.idx_main_v2 (ix3 r k j)) b = ix2 r b := by
    funext a; refine Fin.ext ?_
    match a with
    | ⟨0, _⟩ => show ((r.val * 2048 + k.val) * 32 + j.val) / 65536 = r.val; omega
    | ⟨1, _⟩ => rfl
  have e2 : Read.idx_main_v0 (Read.ridx_main_v1 (Read.idx_main_v2 (ix3 r k j)) b) = ix3 b k j := by
    funext a; refine Fin.ext ?_
    match a with
    | ⟨0, _⟩ =>
      show (b.val * 65536 + ((r.val * 2048 + k.val) * 32 + j.val) % 65536) / 65536 = b.val; omega
    | ⟨1, _⟩ =>
      show (b.val * 65536 + ((r.val * 2048 + k.val) * 32 + j.val) % 65536) / 32 % 2048 = k.val; omega
    | ⟨2, _⟩ =>
      show (b.val * 65536 + ((r.val * 2048 + k.val) * 32 + j.val) % 65536) % 32 = j.val; omega
  rw [e1, e2]

/-- Relation 0's table is the first slab of the combined tables, relation 1's the second; each is cut out twice. -/
theorem v6_at (x8 : (⟨S2x4, .f32⟩ : BufTy).Contents (Elt Ideal)) (x9 : (⟨S4x2048x32, .f32⟩ : BufTy).Contents (Elt Ideal))
    (k : Fin 2048) (j : Fin 32) :
    Read.val_main_v6 (F := Ideal) x8 x9 (ix2 k j) = wt x8 x9 0 k j := by
  have hk := k.isLt
  have hj := j.isLt
  rw [Read.val_main_v6_apply, Read.val_main_v5_apply]
  refine (congrArg (Read.val_main_v2 (F := Ideal) x8 x9) ?_).trans (v2_at x8 x9 0 k j)
  funext a; refine Fin.ext ?_
  match a with
  | ⟨0, _⟩ => rfl
  | ⟨1, _⟩ => show (k.val * 32 + j.val) / 32 % 2048 = k.val; omega
  | ⟨2, _⟩ => show (k.val * 32 + j.val) % 32 = j.val; omega

theorem v18_at (x8 : (⟨S2x4, .f32⟩ : BufTy).Contents (Elt Ideal)) (x9 : (⟨S4x2048x32, .f32⟩ : BufTy).Contents (Elt Ideal))
    (k : Fin 2048) (j : Fin 32) :
    Read.val_main_v18 (F := Ideal) x8 x9 (ix2 k j) = wt x8 x9 0 k j := by
  have hk := k.isLt
  have hj := j.isLt
  rw [Read.val_main_v18_apply, Read.val_main_v17_apply]
  refine (congrArg (Read.val_main_v2 (F := Ideal) x8 x9) ?_).trans (v2_at x8 x9 0 k j)
  funext a; refine Fin.ext ?_
  match a with
  | ⟨0, _⟩ => rfl
  | ⟨1, _⟩ => show (k.val * 32 + j.val) / 32 % 2048 = k.val; omega
  | ⟨2, _⟩ => show (k.val * 32 + j.val) % 32 = j.val; omega

theorem v64_at (x8 : (⟨S2x4, .f32⟩ : BufTy).Contents (Elt Ideal)) (x9 : (⟨S4x2048x32, .f32⟩ : BufTy).Contents (Elt Ideal))
    (k : Fin 2048) (j : Fin 32) :
    Read.val_main_v64 (F := Ideal) x8 x9 (ix2 k j) = wt x8 x9 1 k j := by
  have hk := k.isLt
  have hj := j.isLt
  rw [Read.val_main_v64_apply, Read.val_main_v63_apply]
  refine (congrArg (Read.val_main_v2 (F := Ideal) x8 x9) ?_).trans (v2_at x8 x9 1 k j)
  funext a; refine Fin.ext ?_
  match a with
  | ⟨0, _⟩ => rfl
  | ⟨1, _⟩ => show (k.val * 32 + j.val) / 32 % 2048 = k.val; omega
  | ⟨2, _⟩ => show (k.val * 32 + j.val) % 32 = j.val; omega

theorem v76_at (x8 : (⟨S2x4, .f32⟩ : BufTy).Contents (Elt Ideal)) (x9 : (⟨S4x2048x32, .f32⟩ : BufTy).Contents (Elt Ideal))
    (k : Fin 2048) (j : Fin 32) :
    Read.val_main_v76 (F := Ideal) x8 x9 (ix2 k j) = wt x8 x9 1 k j := by
  have hk := k.isLt
  have hj := j.isLt
  rw [Read.val_main_v76_apply, Read.val_main_v75_apply]
  refine (congrArg (Read.val_main_v2 (F := Ideal) x8 x9) ?_).trans (v2_at x8 x9 1 k j)
  funext a; refine Fin.ext ?_
  match a with
  | ⟨0, _⟩ => rfl
  | ⟨1, _⟩ => show (k.val * 32 + j.val) / 32 % 2048 = k.val; omega
  | ⟨2, _⟩ => show (k.val * 32 + j.val) % 32 = j.val; omega

/-! ## The index words -/

/-- A node's index word as the table gather receives it: moved up by 2048 when negative. -/
theorem v12_at (x : (⟨S50000x3, .i32⟩ : BufTy).Contents (Elt Ideal)) (n : Fin 50000) (c : Fin 3) :
    Read.val_main_v12 (F := Ideal) x (ix3 n c (0 : Fin 1)) = wrap 2048#32 (x (ix2 n c)) := by
  rw [Read.val_main_v12_apply, Read.val_main_v11_apply, Read.val_main_v8_apply, Read.val_main_v10_apply,
    Read.val_main_v7_apply, Read.val_main_v9_apply, Read.val_main_c_apply, Read.val_main_c_1_apply]
  have e : Read.idx_main_v12 (ix3 n c (0 : Fin 1)) = ix2 n c := by
    funext a; refine Fin.ext ?_
    match a with
    | ⟨0, _⟩ => rfl
    | ⟨1, _⟩ => rfl
  rw [e]
  rfl

theorem v24_at (x : (⟨S50000x3, .i32⟩ : BufTy).Contents (Elt Ideal)) (n : Fin 50000) (c : Fin 3) :
    Read.val_main_v24 (F := Ideal) x (ix3 n c (0 : Fin 1)) = wrap 2048#32 (x (ix2 n c)) := by
  rw [Read.val_main_v24_apply, Read.val_main_v23_apply, Read.val_main_v20_apply, Read.val_main_v22_apply,
    Read.val_main_v19_apply, Read.val_main_v21_apply, Read.val_main_c_2_apply, Read.val_main_c_3_apply]
  have e : Read.idx_main_v24 (ix3 n c (0 : Fin 1)) = ix2 n c := by
    funext a; refine Fin.ext ?_
    match a with
    | ⟨0, _⟩ => rfl
    | ⟨1, _⟩ => rfl
  rw [e]
  rfl

theorem v70_at (x : (⟨S50000x3, .i32⟩ : BufTy).Contents (Elt Ideal)) (n : Fin 50000) (c : Fin 3) :
    Read.val_main_v70 (F := Ideal) x (ix3 n c (0 : Fin 1)) = wrap 2048#32 (x (ix2 n c)) := by
  rw [Read.val_main_v70_apply, Read.val_main_v69_apply, Read.val_main_v66_apply, Read.val_main_v68_apply,
    Read.val_main_v65_apply, Read.val_main_v67_apply, Read.val_main_c_10_apply, Read.val_main_c_11_apply]
  have e : Read.idx_main_v70 (ix3 n c (0 : Fin 1)) = ix2 n c := by
    funext a; refine Fin.ext ?_
    match a with
    | ⟨0, _⟩ => rfl
    | ⟨1, _⟩ => rfl
  rw [e]
  rfl

theorem v82_at (x : (⟨S50000x3, .i32⟩ : BufTy).Contents (Elt Ideal)) (n : Fin 50000) (c : Fin 3) :
    Read.val_main_v82 (F := Ideal) x (ix3 n c (0 : Fin 1)) = wrap 2048#32 (x (ix2 n c)) := by
  rw [Read.val_main_v82_apply, Read.val_main_v81_apply, Read.val_main_v78_apply, Read.val_main_v80_apply,
    Read.val_main_v77_apply, Read.val_main_v79_apply, Read.val_main_c_12_apply, Read.val_main_c_13_apply]
  have e : Read.idx_main_v82 (ix3 n c (0 : Fin 1)) = ix2 n c := by
    funext a; refine Fin.ext ?_
    match a with
    | ⟨0, _⟩ => rfl
    | ⟨1, _⟩ => rfl
  rw [e]
  rfl

/-- An edge's word as the row gather receives it: row r of the edge array, moved up by 50000 when negative. -/
theorem v36_at (x : (⟨S2x800000, .i32⟩ : BufTy).Contents (Elt Ideal)) (e : Fin 800000) :
    Read.val_main_v36 (F := Ideal) x (ix2 e (0 : Fin 1)) = wrap 50000#32 (rowW x 0 e) := by
  have he := e.isLt
  rw [Read.val_main_v36_apply, Read.val_main_v35_apply, Read.val_main_v32_apply, Read.val_main_v34_apply,
    Read.val_main_v31_apply, Read.val_main_v33_apply, Read.val_main_c_4_apply, Read.val_main_c_5_apply,
    Read.val_main_v30_apply, Read.val_main_v29_apply]
  have e' : Read.idx_main_v29 (Read.idx_main_v30 (Read.idx_main_v36 (ix2 e (0 : Fin 1)))) = ix2 (0 : Fin 2) e := by
    funext a; refine Fin.ext ?_
    match a with
    | ⟨0, _⟩ => rfl
    | ⟨1, _⟩ => show e.val % 800000 = e.val; omega
  rw [e']
  rfl

theorem v53_at (x : (⟨S2x800000, .i32⟩ : BufTy).Contents (Elt Ideal)) (e : Fin 800000) :
    Read.val_main_v53 (F := Ideal) x (ix2 e (0 : Fin 1)) = wrap 50000#32 (rowW x 0 e) := by
  have he := e.isLt
  rw [Read.val_main_v53_apply, Read.val_main_v52_apply, Read.val_main_v49_apply, Read.val_main_v51_apply,
    Read.val_main_v48_apply, Read.val_main_v50_apply, Read.val_main_c_7_apply, Read.val_main_c_8_apply,
    Read.val_main_v47_apply, Read.val_main_v46_apply]
  have e' : Read.idx_main_v46 (Read.idx_main_v47 (Read.idx_main_v53 (ix2 e (0 : Fin 1)))) = ix2 (0 : Fin 2) e := by
    funext a; refine Fin.ext ?_
    match a with
    | ⟨0, _⟩ => rfl
    | ⟨1, _⟩ => show e.val % 800000 = e.val; omega
  rw [e']
  rfl

theorem v94_at (x : (⟨S2x800000, .i32⟩ : BufTy).Contents (Elt Ideal)) (e : Fin 800000) :
    Read.val_main_v94 (F := Ideal) x (ix2 e (0 : Fin 1)) = wrap 50000#32 (rowW x 1 e) := by
  have he := e.isLt
  rw [Read.val_main_v94_apply, Read.val_main_v93_apply, Read.val_main_v90_apply, Read.val_main_v92_apply,
    Read.val_main_v89_apply, Read.val_main_v91_apply, Read.val_main_c_14_apply, Read.val_main_c_15_apply,
    Read.val_main_v88_apply, Read.val_main_v87_apply]
  have e' : Read.idx_main_v87 (Read.idx_main_v88 (Read.idx_main_v94 (ix2 e (0 : Fin 1)))) = ix2 (1 : Fin 2) e := by
    funext a; refine Fin.ext ?_
    match a with
    | ⟨0, _⟩ => rfl
    | ⟨1, _⟩ => show e.val % 800000 = e.val; omega
  rw [e']
  rfl

theorem v111_at (x : (⟨S2x800000, .i32⟩ : BufTy).Contents (Elt Ideal)) (e : Fin 800000) :
    Read.val_main_v111 (F := Ideal) x (ix2 e (0 : Fin 1)) = wrap 50000#32 (rowW x 1 e) := by
  have he := e.isLt
  rw [Read.val_main_v111_apply, Read.val_main_v110_apply, Read.val_main_v107_apply, Read.val_main_v109_apply,
    Read.val_main_v106_apply, Read.val_main_v108_apply, Read.val_main_c_17_apply, Read.val_main_c_18_apply,
    Read.val_main_v105_apply, Read.val_main_v104_apply]
  have e' : Read.idx_main_v104 (Read.idx_main_v105 (Read.idx_main_v111 (ix2 e (0 : Fin 1)))) = ix2 (1 : Fin 2) e := by
    funext a; refine Fin.ext ?_
    match a with
    | ⟨0, _⟩ => rfl
    | ⟨1, _⟩ => show e.val % 800000 = e.val; omega
  rw [e']
  rfl

/-- An edge's word as the scatter receives it: row r of the edge array, as it is. -/
theorem v41_at (x : (⟨S2x800000, .i32⟩ : BufTy).Contents (Elt Ideal)) (e : Fin 800000) :
    Read.val_main_v41 (F := Ideal) x (ix2 e (0 : Fin 1)) = rowW x 0 e := by
  have he := e.isLt
  rw [Read.val_main_v41_apply, Read.val_main_v39_apply, Read.val_main_v38_apply]
  have e' : Read.idx_main_v38 (Read.idx_main_v39 (Read.idx_main_v41 (ix2 e (0 : Fin 1)))) = ix2 (0 : Fin 2) e := by
    funext a; refine Fin.ext ?_
    match a with
    | ⟨0, _⟩ => rfl
    | ⟨1, _⟩ => show e.val % 800000 = e.val; omega
  rw [e']
  rfl

theorem v58_at (x : (⟨S2x800000, .i32⟩ : BufTy).Contents (Elt Ideal)) (e : Fin 800000) :
    Read.val_main_v58 (F := Ideal) x (ix2 e (0 : Fin 1)) = rowW x 0 e := by
  have he := e.isLt
  rw [Read.val_main_v58_apply, Read.val_main_v56_apply, Read.val_main_v55_apply]
  have e' : Read.idx_main_v55 (Read.idx_main_v56 (Read.idx_main_v58 (ix2 e (0 : Fin 1)))) = ix2 (0 : Fin 2) e := by
    funext a; refine Fin.ext ?_
    match a with
    | ⟨0, _⟩ => rfl
    | ⟨1, _⟩ => show e.val % 800000 = e.val; omega
  rw [e']
  rfl

theorem v99_at (x : (⟨S2x800000, .i32⟩ : BufTy).Contents (Elt Ideal)) (e : Fin 800000) :
    Read.val_main_v99 (F := Ideal) x (ix2 e (0 : Fin 1)) = rowW x 1 e := by
  have he := e.isLt
  rw [Read.val_main_v99_apply, Read.val_main_v97_apply, Read.val_main_v96_apply]
  have e' : Read.idx_main_v96 (Read.idx_main_v97 (Read.idx_main_v99 (ix2 e (0 : Fin 1)))) = ix2 (1 : Fin 2) e := by
    funext a; refine Fin.ext ?_
    match a with
    | ⟨0, _⟩ => rfl
    | ⟨1, _⟩ => show e.val % 800000 = e.val; omega
  rw [e']
  rfl

theorem v116_at (x : (⟨S2x800000, .i32⟩ : BufTy).Contents (Elt Ideal)) (e : Fin 800000) :
    Read.val_main_v116 (F := Ideal) x (ix2 e (0 : Fin 1)) = rowW x 1 e := by
  have he := e.isLt
  rw [Read.val_main_v116_apply, Read.val_main_v114_apply, Read.val_main_v113_apply]
  have e' : Read.idx_main_v113 (Read.idx_main_v114 (Read.idx_main_v116 (ix2 e (0 : Fin 1)))) = ix2 (1 : Fin 2) e := by
    funext a; refine Fin.ext ?_
    match a with
    | ⟨0, _⟩ => rfl
    | ⟨1, _⟩ => show e.val % 800000 = e.val; omega
  rw [e']
  rfl

/-- The arrays the sums start from are zero everywhere. -/
theorem v3_at (i : S50000x96.Idx) : Read.val_main_v3 (F := Ideal) i = 0 := by
  rw [Read.val_main_v3_apply, Read.val_main_cst_apply]
  exact Ideal.ofBits_zero_f32

theorem v4_at (i : S50000x96.Idx) : Read.val_main_v4 (F := Ideal) i = 0 := by
  rw [Read.val_main_v4_apply, Read.val_main_cst_0_apply]
  exact Ideal.ofBits_zero_f32

theorem v40_at (i : S50000x96.Idx) : Read.val_main_v40 (F := Ideal) i = 0 := by
  rw [Read.val_main_v40_apply, Read.val_main_cst_6_apply]
  exact Ideal.ofBits_zero_f32

theorem v57_at (i : S50000x96.Idx) : Read.val_main_v57 (F := Ideal) i = 0 := by
  rw [Read.val_main_v57_apply, Read.val_main_cst_9_apply]
  exact Ideal.ofBits_zero_f32

theorem v98_at (i : S50000x96.Idx) : Read.val_main_v98 (F := Ideal) i = 0 := by
  rw [Read.val_main_v98_apply, Read.val_main_cst_16_apply]
  exact Ideal.ofBits_zero_f32

theorem v115_at (i : S50000x96.Idx) : Read.val_main_v115 (F := Ideal) i = 0 := by
  rw [Read.val_main_v115_apply, Read.val_main_cst_19_apply]
  exact Ideal.ofBits_zero_f32

/-! ## The features -/

/-- The feature rows at (n, q): the table row node n's index word q / 32 names, at entry q % 32, times the node's
    normaliser. -/
theorem v16_at (x : (⟨S50000x3, .i32⟩ : BufTy).Contents (Elt Ideal)) (cj : (⟨S50000x1, .f32⟩ : BufTy).Contents (Elt Ideal)) (x8 : (⟨S2x4, .f32⟩ : BufTy).Contents (Elt Ideal)) (x9 : (⟨S4x2048x32, .f32⟩ : BufTy).Contents (Elt Ideal)) (n : Fin 50000) (q : Fin 96) :
    Read.val_main_v16 (F := Ideal) x cj x8 x9 (ix2 n q) = featR x8 x9 x cj 0 n q := by
  have hn := n.isLt
  have hq := q.isLt
  rw [Read.val_main_v16_apply, Read.val_main_v14_apply, Read.val_main_v15_apply]
  have e1 : Read.idx_main_v14 (ix2 n q) = ix3 n (colOf q) (entOf q) := by
    funext a; refine Fin.ext ?_
    match a with
    | ⟨0, _⟩ => show (n.val * 96 + q.val) / 96 = n.val; omega
    | ⟨1, _⟩ => show (n.val * 96 + q.val) / 32 % 3 = q.val / 32; omega
    | ⟨2, _⟩ => show (n.val * 96 + q.val) % 32 = q.val % 32; omega
  have e2 : Read.idx_main_v15 (ix2 n q) = ix2 n (0 : Fin 1) := by
    funext a; refine Fin.ext ?_
    match a with
    | ⟨0, _⟩ => rfl
    | ⟨1, _⟩ => rfl
  rw [e1, e2]
  unfold Read.val_main_v13
  rw [tableGather_rec, gather_table_apply (K := 2048) (C := 32) (n := 50000) (p := 3) (by decide), v6_at]
  unfold featR
  refine congrArg (· * cj (ix2 n (0 : Fin 1))) (congrArg (fun k => wt x8 x9 0 k (entOf q)) (Fin.ext ?_))
  show min (Read.val_main_v12 (F := Ideal) x (ix3 n (colOf q) (0 : Fin 1))).toInt.toNat (2048 - 1)
    = min (wrap 2048#32 (x (ix2 n (colOf q)))).toInt.toNat (2048 - 1)
  rw [v12_at]

theorem v28_at (x : (⟨S50000x3, .i32⟩ : BufTy).Contents (Elt Ideal)) (cj : (⟨S50000x1, .f32⟩ : BufTy).Contents (Elt Ideal)) (x8 : (⟨S2x4, .f32⟩ : BufTy).Contents (Elt Ideal)) (x9 : (⟨S4x2048x32, .f32⟩ : BufTy).Contents (Elt Ideal)) (n : Fin 50000) (q : Fin 96) :
    Read.val_main_v28 (F := Ideal) x cj x8 x9 (ix2 n q) = featR x8 x9 x cj 0 n q := by
  have hn := n.isLt
  have hq := q.isLt
  rw [Read.val_main_v28_apply, Read.val_main_v26_apply, Read.val_main_v27_apply]
  have e1 : Read.idx_main_v26 (ix2 n q) = ix3 n (colOf q) (entOf q) := by
    funext a; refine Fin.ext ?_
    match a with
    | ⟨0, _⟩ => show (n.val * 96 + q.val) / 96 = n.val; omega
    | ⟨1, _⟩ => show (n.val * 96 + q.val) / 32 % 3 = q.val / 32; omega
    | ⟨2, _⟩ => show (n.val * 96 + q.val) % 32 = q.val % 32; omega
  have e2 : Read.idx_main_v27 (ix2 n q) = ix2 n (0 : Fin 1) := by
    funext a; refine Fin.ext ?_
    match a with
    | ⟨0, _⟩ => rfl
    | ⟨1, _⟩ => rfl
  rw [e1, e2]
  unfold Read.val_main_v25
  rw [tableGather_rec, gather_table_apply (K := 2048) (C := 32) (n := 50000) (p := 3) (by decide), v18_at]
  unfold featR
  refine congrArg (· * cj (ix2 n (0 : Fin 1))) (congrArg (fun k => wt x8 x9 0 k (entOf q)) (Fin.ext ?_))
  show min (Read.val_main_v24 (F := Ideal) x (ix3 n (colOf q) (0 : Fin 1))).toInt.toNat (2048 - 1)
    = min (wrap 2048#32 (x (ix2 n (colOf q)))).toInt.toNat (2048 - 1)
  rw [v24_at]

theorem v74_at (x : (⟨S50000x3, .i32⟩ : BufTy).Contents (Elt Ideal)) (cj : (⟨S50000x1, .f32⟩ : BufTy).Contents (Elt Ideal)) (x8 : (⟨S2x4, .f32⟩ : BufTy).Contents (Elt Ideal)) (x9 : (⟨S4x2048x32, .f32⟩ : BufTy).Contents (Elt Ideal)) (n : Fin 50000) (q : Fin 96) :
    Read.val_main_v74 (F := Ideal) x cj x8 x9 (ix2 n q) = featR x8 x9 x cj 1 n q := by
  have hn := n.isLt
  have hq := q.isLt
  rw [Read.val_main_v74_apply, Read.val_main_v72_apply, Read.val_main_v73_apply]
  have e1 : Read.idx_main_v72 (ix2 n q) = ix3 n (colOf q) (entOf q) := by
    funext a; refine Fin.ext ?_
    match a with
    | ⟨0, _⟩ => show (n.val * 96 + q.val) / 96 = n.val; omega
    | ⟨1, _⟩ => show (n.val * 96 + q.val) / 32 % 3 = q.val / 32; omega
    | ⟨2, _⟩ => show (n.val * 96 + q.val) % 32 = q.val % 32; omega
  have e2 : Read.idx_main_v73 (ix2 n q) = ix2 n (0 : Fin 1) := by
    funext a; refine Fin.ext ?_
    match a with
    | ⟨0, _⟩ => rfl
    | ⟨1, _⟩ => rfl
  rw [e1, e2]
  unfold Read.val_main_v71
  rw [tableGather_rec, gather_table_apply (K := 2048) (C := 32) (n := 50000) (p := 3) (by decide), v64_at]
  unfold featR
  refine congrArg (· * cj (ix2 n (0 : Fin 1))) (congrArg (fun k => wt x8 x9 1 k (entOf q)) (Fin.ext ?_))
  show min (Read.val_main_v70 (F := Ideal) x (ix3 n (colOf q) (0 : Fin 1))).toInt.toNat (2048 - 1)
    = min (wrap 2048#32 (x (ix2 n (colOf q)))).toInt.toNat (2048 - 1)
  rw [v70_at]

theorem v86_at (x : (⟨S50000x3, .i32⟩ : BufTy).Contents (Elt Ideal)) (cj : (⟨S50000x1, .f32⟩ : BufTy).Contents (Elt Ideal)) (x8 : (⟨S2x4, .f32⟩ : BufTy).Contents (Elt Ideal)) (x9 : (⟨S4x2048x32, .f32⟩ : BufTy).Contents (Elt Ideal)) (n : Fin 50000) (q : Fin 96) :
    Read.val_main_v86 (F := Ideal) x cj x8 x9 (ix2 n q) = featR x8 x9 x cj 1 n q := by
  have hn := n.isLt
  have hq := q.isLt
  rw [Read.val_main_v86_apply, Read.val_main_v84_apply, Read.val_main_v85_apply]
  have e1 : Read.idx_main_v84 (ix2 n q) = ix3 n (colOf q) (entOf q) := by
    funext a; refine Fin.ext ?_
    match a with
    | ⟨0, _⟩ => show (n.val * 96 + q.val) / 96 = n.val; omega
    | ⟨1, _⟩ => show (n.val * 96 + q.val) / 32 % 3 = q.val / 32; omega
    | ⟨2, _⟩ => show (n.val * 96 + q.val) % 32 = q.val % 32; omega
  have e2 : Read.idx_main_v85 (ix2 n q) = ix2 n (0 : Fin 1) := by
    funext a; refine Fin.ext ?_
    match a with
    | ⟨0, _⟩ => rfl
    | ⟨1, _⟩ => rfl
  rw [e1, e2]
  unfold Read.val_main_v83
  rw [tableGather_rec, gather_table_apply (K := 2048) (C := 32) (n := 50000) (p := 3) (by decide), v76_at]
  unfold featR
  refine congrArg (· * cj (ix2 n (0 : Fin 1))) (congrArg (fun k => wt x8 x9 1 k (entOf q)) (Fin.ext ?_))
  show min (Read.val_main_v82 (F := Ideal) x (ix3 n (colOf q) (0 : Fin 1))).toInt.toNat (2048 - 1)
    = min (wrap 2048#32 (x (ix2 n (colOf q)))).toInt.toNat (2048 - 1)
  rw [v82_at]

/-! ## One relation's deliveries -/

/-- A row gather of X at the wrapped source words followed by an accumulating scatter, at the raw destination words,
    onto a zero array: at (k, q), zero plus the sum over the edges whose destination is k of X at the source node. -/
theorem deliver_apply (X z : FVec Ideal ⟨2, ![50000, 96]⟩ .f32) (gi si : IVec ⟨2, ![800000, 1]⟩ 32)
    (src dst : Fin 800000 → BitVec 32) (hz : ∀ i, z i = 0)
    (hg : ∀ e : Fin 800000, gi (ix2 e (0 : Fin 1)) = wrap 50000#32 (src e))
    (hs : ∀ e : Fin 800000, si (ix2 e (0 : Fin 1)) = dst e) (k : Fin 50000) (q : Fin 96) :
    Host.scatterAdd scatter_S50000x96_S800000x1_S800000x96_1_0_0_1 z si
        (Host.gather gather_S50000x96_S800000x1_S800000x96_1_0_n_n_0_1_196 X gi) (ix2 k q)
      = 0 + agg (fun n q => X (ix2 n q)) src dst k q := by
  rw [scatter_rec, Cert.SparseMM.scatterAdd_rows_apply, hz]
  unfold agg
  refine congrArg (fun s : EReal => 0 + s) ?_
  refine Finset.sum_congr (Finset.filter_congr fun e _ => by rw [hs]) fun e _ => ?_
  rw [rowGather_rec, Cert.SparseMM.gather_rows_apply (S := 50000) (B := 96) (N := 800000) (by decide)]
  refine congrArg (fun r => X (ix2 r q)) (Fin.ext ?_)
  show min (gi (ix2 e (0 : Fin 1))).toInt.toNat (50000 - 1) = min (wrap 50000#32 (src e)).toInt.toNat (50000 - 1)
  rw [hg]

/-- What each relation's edges deliver, per side: onto the drug side the disease features travel from destination
    word to source word, onto the disease side the drug features from source word to destination word. -/
theorem v42_at (x0 : (⟨S50000x3, .i32⟩ : BufTy).Contents (Elt Ideal)) (x2 x3 : (⟨S2x800000, .i32⟩ : BufTy).Contents (Elt Ideal)) (x4 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v42 (F := Ideal) x0 x2 x3 x4 x8 x9 (ix2 k q)
      = 0 + agg (featR x8 x9 x0 x4 0) (rowW x2 0) (rowW x3 0) k q := by
  unfold Read.val_main_v42 Read.val_main_v37
  rw [deliver_apply _ _ _ _ (rowW x2 0) (rowW x3 0) v40_at (v36_at x2) (v41_at x3)]
  refine congrArg (fun X => 0 + agg X (rowW x2 0) (rowW x3 0) k q) ?_
  funext n q'
  exact v16_at x0 x4 x8 x9 n q'

theorem v59_at (x1 : (⟨S50000x3, .i32⟩ : BufTy).Contents (Elt Ideal)) (x2 x3 : (⟨S2x800000, .i32⟩ : BufTy).Contents (Elt Ideal)) (x6 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v59 (F := Ideal) x1 x2 x3 x6 x8 x9 (ix2 k q)
      = 0 + agg (featR x8 x9 x1 x6 0) (rowW x3 0) (rowW x2 0) k q := by
  unfold Read.val_main_v59 Read.val_main_v54
  rw [deliver_apply _ _ _ _ (rowW x3 0) (rowW x2 0) v57_at (v53_at x3) (v58_at x2)]
  refine congrArg (fun X => 0 + agg X (rowW x3 0) (rowW x2 0) k q) ?_
  funext n q'
  exact v28_at x1 x6 x8 x9 n q'

theorem v100_at (x0 : (⟨S50000x3, .i32⟩ : BufTy).Contents (Elt Ideal)) (x2 x3 : (⟨S2x800000, .i32⟩ : BufTy).Contents (Elt Ideal)) (x4 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v100 (F := Ideal) x0 x2 x3 x4 x8 x9 (ix2 k q)
      = 0 + agg (featR x8 x9 x0 x4 1) (rowW x2 1) (rowW x3 1) k q := by
  unfold Read.val_main_v100 Read.val_main_v95
  rw [deliver_apply _ _ _ _ (rowW x2 1) (rowW x3 1) v98_at (v94_at x2) (v99_at x3)]
  refine congrArg (fun X => 0 + agg X (rowW x2 1) (rowW x3 1) k q) ?_
  funext n q'
  exact v74_at x0 x4 x8 x9 n q'

theorem v117_at (x1 : (⟨S50000x3, .i32⟩ : BufTy).Contents (Elt Ideal)) (x2 x3 : (⟨S2x800000, .i32⟩ : BufTy).Contents (Elt Ideal)) (x6 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v117 (F := Ideal) x1 x2 x3 x6 x8 x9 (ix2 k q)
      = 0 + agg (featR x8 x9 x1 x6 1) (rowW x3 1) (rowW x2 1) k q := by
  unfold Read.val_main_v117 Read.val_main_v112
  rw [deliver_apply _ _ _ _ (rowW x3 1) (rowW x2 1) v115_at (v111_at x3) (v116_at x2)]
  refine congrArg (fun X => 0 + agg X (rowW x3 1) (rowW x2 1) k q) ?_
  funext n q'
  exact v86_at x1 x6 x8 x9 n q'

/-! ## The accumulators -/

/-- The drug side's accumulator: a zero array plus relation 0's scaled deliveries, plus relation 1's. -/
theorem v120_at (x1 : (⟨S50000x3, .i32⟩ : BufTy).Contents (Elt Ideal)) (x2 x3 : (⟨S2x800000, .i32⟩ : BufTy).Contents (Elt Ideal)) (x5 x6 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v120 (F := Ideal) x1 x2 x3 x5 x6 x8 x9 (ix2 k q)
      = hR (featR x8 x9 x1 x6 0) (featR x8 x9 x1 x6 1) x3 x2 x5 (ix2 k q) := by
  rw [Read.val_main_v120_apply, Read.val_main_v62_apply, Read.val_main_v61_apply, Read.val_main_v119_apply,
    Read.val_main_v60_apply, Read.val_main_v118_apply, v3_at, v59_at, v117_at]
  have e60 : Read.idx_main_v60 (ix2 k q) = ix2 k (0 : Fin 1) := by
    funext a; refine Fin.ext ?_
    match a with
    | ⟨0, _⟩ => rfl
    | ⟨1, _⟩ => rfl
  have e118 : Read.idx_main_v118 (ix2 k q) = ix2 k (0 : Fin 1) := by
    funext a; refine Fin.ext ?_
    match a with
    | ⟨0, _⟩ => rfl
    | ⟨1, _⟩ => rfl
  rw [e60, e118]
  rfl

/-- The disease side's accumulator, the same sum over the other buffers. -/
theorem v103_at (x0 : (⟨S50000x3, .i32⟩ : BufTy).Contents (Elt Ideal)) (x2 x3 : (⟨S2x800000, .i32⟩ : BufTy).Contents (Elt Ideal)) (x4 x7 : (⟨S50000x1, .f32⟩ : BufTy).Contents (Elt Ideal)) (x8 : (⟨S2x4, .f32⟩ : BufTy).Contents (Elt Ideal)) (x9 : (⟨S4x2048x32, .f32⟩ : BufTy).Contents (Elt Ideal)) (k : Fin 50000) (q : Fin 96) :
    Read.val_main_v103 (F := Ideal) x0 x2 x3 x4 x7 x8 x9 (ix2 k q)
      = hR (featR x8 x9 x0 x4 0) (featR x8 x9 x0 x4 1) x2 x3 x7 (ix2 k q) := by
  rw [Read.val_main_v103_apply, Read.val_main_v45_apply, Read.val_main_v44_apply, Read.val_main_v102_apply,
    Read.val_main_v43_apply, Read.val_main_v101_apply, v4_at, v42_at, v100_at]
  have e43 : Read.idx_main_v43 (ix2 k q) = ix2 k (0 : Fin 1) := by
    funext a; refine Fin.ext ?_
    match a with
    | ⟨0, _⟩ => rfl
    | ⟨1, _⟩ => rfl
  have e101 : Read.idx_main_v101 (ix2 k q) = ix2 k (0 : Fin 1) := by
    funext a; refine Fin.ext ?_
    match a with
    | ⟨0, _⟩ => rfl
    | ⟨1, _⟩ => rfl
  rw [e43, e101]
  rfl

/-! ## The last layer -/

/-- A result at (n, o): the rectified accumulator row n against column o of the weights, plus the bias at o. -/
theorem v129_at (x1 : (⟨S50000x3, .i32⟩ : BufTy).Contents (Elt Ideal)) (x2 x3 : (⟨S2x800000, .i32⟩ : BufTy).Contents (Elt Ideal)) (x5 x6 : (⟨S50000x1, .f32⟩ : BufTy).Contents (Elt Ideal)) (x8 : (⟨S2x4, .f32⟩ : BufTy).Contents (Elt Ideal)) (x9 : (⟨S4x2048x32, .f32⟩ : BufTy).Contents (Elt Ideal)) (x10 : (⟨S96x64, .f32⟩ : BufTy).Contents (Elt Ideal)) (x11 : (⟨S64, .f32⟩ : BufTy).Contents (Elt Ideal)) (n : Fin 50000) (o : Fin 64) :
    Read.val_main_v129 (F := Ideal) x1 x2 x3 x5 x6 x8 x9 x10 x11 (ix2 n o)
      = fcAt (hR (featR x8 x9 x1 x6 0) (featR x8 x9 x1 x6 1) x3 x2 x5) x10 (fun o => x11 (ix1 o)) n o := by
  rw [Read.val_main_v129_apply, Read.val_main_v126_apply, Read.val_main_v128_apply, Read.val_main_v127_apply,
    Ideal.addf_def]
  have eb : Read.idx_main_v127 (Read.idx_main_v128 (ix2 n o)) = ix1 o := by
    funext a; refine Fin.ext ?_
    match a with
    | ⟨0, _⟩ => rfl
  rw [eb]
  unfold fcAt
  refine congrArg (fun s : EReal => s + x11 (ix1 o)) (Finset.sum_congr rfl fun k _ => ?_)
  have el : Read.lidx_main_v126 (ix2 n o) k = ix2 n k := by
    funext a; refine Fin.ext ?_
    match a with
    | ⟨0, _⟩ => rfl
    | ⟨1, _⟩ => rfl
  have er : Read.ridx_main_v126 (ix2 n o) k = ix2 k o := by
    funext a; refine Fin.ext ?_
    match a with
    | ⟨0, _⟩ => rfl
    | ⟨1, _⟩ => rfl
  rw [el, er, Read.val_main_v125_apply, Read.val_main_v122_apply, Read.val_main_v124_apply,
    Read.val_main_v121_apply, Read.val_main_v123_apply, Read.val_main_cst_20_apply, Read.val_main_cst_21_apply,
    v120_at]
  rfl

theorem v138_at (x0 : (⟨S50000x3, .i32⟩ : BufTy).Contents (Elt Ideal)) (x2 x3 : (⟨S2x800000, .i32⟩ : BufTy).Contents (Elt Ideal)) (x4 x7 : (⟨S50000x1, .f32⟩ : BufTy).Contents (Elt Ideal)) (x8 : (⟨S2x4, .f32⟩ : BufTy).Contents (Elt Ideal)) (x9 : (⟨S4x2048x32, .f32⟩ : BufTy).Contents (Elt Ideal)) (x10 : (⟨S96x64, .f32⟩ : BufTy).Contents (Elt Ideal)) (x11 : (⟨S64, .f32⟩ : BufTy).Contents (Elt Ideal)) (n : Fin 50000) (o : Fin 64) :
    Read.val_main_v138 (F := Ideal) x0 x2 x3 x4 x7 x8 x9 x10 x11 (ix2 n o)
      = fcAt (hR (featR x8 x9 x0 x4 0) (featR x8 x9 x0 x4 1) x2 x3 x7) x10 (fun o => x11 (ix1 o)) n o := by
  rw [Read.val_main_v138_apply, Read.val_main_v135_apply, Read.val_main_v137_apply, Read.val_main_v136_apply,
    Ideal.addf_def]
  have eb : Read.idx_main_v136 (Read.idx_main_v137 (ix2 n o)) = ix1 o := by
    funext a; refine Fin.ext ?_
    match a with
    | ⟨0, _⟩ => rfl
  rw [eb]
  unfold fcAt
  refine congrArg (fun s : EReal => s + x11 (ix1 o)) (Finset.sum_congr rfl fun k _ => ?_)
  have el : Read.lidx_main_v135 (ix2 n o) k = ix2 n k := by
    funext a; refine Fin.ext ?_
    match a with
    | ⟨0, _⟩ => rfl
    | ⟨1, _⟩ => rfl
  have er : Read.ridx_main_v135 (ix2 n o) k = ix2 k o := by
    funext a; refine Fin.ext ?_
    match a with
    | ⟨0, _⟩ => rfl
    | ⟨1, _⟩ => rfl
  rw [el, er, Read.val_main_v134_apply, Read.val_main_v131_apply, Read.val_main_v133_apply,
    Read.val_main_v130_apply, Read.val_main_v132_apply, Read.val_main_cst_22_apply, Read.val_main_cst_23_apply,
    v103_at]
  rfl

variable (m : (ℓ : Loc nD τ sig) → Buf (Elt Ideal) ℓ)

/-- The drug side's result: disease features travel along the edges from destination word to source word. -/
theorem out0_eq (c : Dev nD) :
    (Cert.ReferenceIdeal.Value.res_out0 (F := Ideal) m c : (⟨2, ![50000, 64]⟩ : Shape).Idx → EReal)
      = fun i => fcAt
          (hR (featR (m ((c.tc : Thread nD τ).loc main_arg8)) (m ((c.tc : Thread nD τ).loc main_arg9))
                 (m ((c.tc : Thread nD τ).loc main_arg1)) (m ((c.tc : Thread nD τ).loc main_arg6)) 0)
              (featR (m ((c.tc : Thread nD τ).loc main_arg8)) (m ((c.tc : Thread nD τ).loc main_arg9))
                 (m ((c.tc : Thread nD τ).loc main_arg1)) (m ((c.tc : Thread nD τ).loc main_arg6)) 1)
              (m ((c.tc : Thread nD τ).loc main_arg3)) (m ((c.tc : Thread nD τ).loc main_arg2))
              (m ((c.tc : Thread nD τ).loc main_arg5)))
          (m ((c.tc : Thread nD τ).loc main_arg10))
          (fun o => (m ((c.tc : Thread nD τ).loc main_arg11) : (⟨1, ![64]⟩ : Shape).Idx → EReal) (ix1 o))
          (i 0) (i 1) := by
  funext i
  obtain ⟨n, o, rfl⟩ : ∃ (n : Fin 50000) (o : Fin 64), i = ix2 n o := ⟨i 0, i 1, eq_ix2 i⟩
  show Cert.ReferenceIdeal.Value.res_main_v129 (F := Ideal) m c (ix2 n o) = _
  rw [Read.val_main_v129_eq]
  exact v129_at _ _ _ _ _ _ _ _ _ n o

/-- The disease side's result: drug features travel along the edges from source word to destination word. -/
theorem out1_eq (c : Dev nD) :
    (Cert.ReferenceIdeal.Value.res_out1 (F := Ideal) m c : (⟨2, ![50000, 64]⟩ : Shape).Idx → EReal)
      = fun i => fcAt
          (hR (featR (m ((c.tc : Thread nD τ).loc main_arg8)) (m ((c.tc : Thread nD τ).loc main_arg9))
                 (m ((c.tc : Thread nD τ).loc main_arg0)) (m ((c.tc : Thread nD τ).loc main_arg4)) 0)
              (featR (m ((c.tc : Thread nD τ).loc main_arg8)) (m ((c.tc : Thread nD τ).loc main_arg9))
                 (m ((c.tc : Thread nD τ).loc main_arg0)) (m ((c.tc : Thread nD τ).loc main_arg4)) 1)
              (m ((c.tc : Thread nD τ).loc main_arg2)) (m ((c.tc : Thread nD τ).loc main_arg3))
              (m ((c.tc : Thread nD τ).loc main_arg7)))
          (m ((c.tc : Thread nD τ).loc main_arg10))
          (fun o => (m ((c.tc : Thread nD τ).loc main_arg11) : (⟨1, ![64]⟩ : Shape).Idx → EReal) (ix1 o))
          (i 0) (i 1) := by
  funext i
  obtain ⟨n, o, rfl⟩ : ∃ (n : Fin 50000) (o : Fin 64), i = ix2 n o := ⟨i 0, i 1, eq_ix2 i⟩
  show Cert.ReferenceIdeal.Value.res_main_v138 (F := Ideal) m c (ix2 n o) = _
  rw [Read.val_main_v138_eq]
  exact v138_at _ _ _ _ _ _ _ _ _ n o

end Cert.ReferenceIdeal.RefValue

end
-- ==== Proof.Bridge.lean ====
/-
  The kernel's form of the scaled accumulator equals the reference's form, on nonnegative node indices and real inputs.

  Three facts. (1) On a nonnegative word the wrap of negative words is the identity, and the kernel's clamp into
  [0, 2047] yields the word of the very row the reference's gather reads, the word's value lowered to 2047; the one-hot
  row of that word against a table column picks that row's entry, because 0 times anything is 0 on the extended reals and
  the one nonzero term has coefficient 1. So column
  64 (q / 32) + 32 r + q % 32 of the kernel's 192-wide feature array is the reference's feature (n, q) of relation r.
  (2) Every feature is a real number: a table entry is a sum of four products of reals, times a real normaliser; so
  what a relation's edges deliver to a node, a finite sum of features, is real. (3) On reals, scaling the two relations'
  deliveries once equals scaling each and adding.
-/
import proofs.«411900_j49117245997357_2_alg».proof.Proof.Spec
import Idealize.ShloMosaic.Lib.Affine

noncomputable section

open scoped BigOperators

namespace Cert.Bridge

open Idealize.ShloMosaic Idealize.ShloMosaic.ValueIdx Cert.Spec

/-! ## Words in range -/

theorem clipW_of_range (w : BitVec 32) (h0 : 0 ≤ w.toInt) (h1 : w.toInt < 2048) : clipW w = w := by
  unfold clipW IntOp.minsi IntOp.maxsi
  have hA : ¬ (w.slt 0#32 = true) := by
    rw [BitVec.slt_iff_toInt_lt]; simp; omega
  rw [if_neg hA]
  have hB : ¬ ((2047#32 : BitVec 32).slt w = true) := by
    rw [BitVec.slt_iff_toInt_lt]
    have : (2047#32 : BitVec 32).toInt = 2047 := by decide
    omega
  rw [if_neg hB]

theorem wrap_of_nonneg (height w : BitVec 32) (h0 : 0 ≤ w.toInt) : wrap height w = w := by
  unfold wrap Scalar.select
  have hA : ¬ (IntOp.cmpi .slt w 0#32 = 1#1) := by
    rw [IntOp.cmpi_slt]; simp; omega
  exact if_neg hA

/-- A word that is nonnegative read signed is the word of its own value. -/
theorem eq_ofNat_of_nonneg (w : BitVec 32) (h0 : 0 ≤ w.toInt) : w = BitVec.ofNat 32 w.toInt.toNat := by
  have hlt : w.toNat < 2 ^ 32 := w.isLt
  have hc := BitVec.toInt_eq_toNat_cond w
  have hnat : w.toInt = (w.toNat : Int) := by
    by_cases hif : 2 * w.toNat < 2 ^ 32
    · rw [hc, if_pos hif]
    · rw [hc, if_neg hif] at h0
      omega
  apply BitVec.eq_of_toNat_eq
  rw [hnat, Int.toNat_natCast, BitVec.toNat_ofNat, Nat.mod_eq_of_lt hlt]

theorem oneHot_self (k : Nat) : oneHot (BitVec.ofNat 32 k) k = 1 := by
  unfold oneHot IntOp.cmpi
  simp

theorem oneHot_ne (k₀ k : Nat) (h0 : k₀ < 4294967296) (hk : k < 4294967296) (hne : k ≠ k₀) :
    oneHot (BitVec.ofNat 32 k₀) k = 0 := by
  unfold oneHot IntOp.cmpi
  have hneq : (BitVec.ofNat 32 k == BitVec.ofNat 32 k₀) = false := by
    rw [beq_eq_false_iff_ne]
    intro h
    have := congrArg BitVec.toNat h
    rw [BitVec.toNat_ofNat, BitVec.toNat_ofNat, Nat.mod_eq_of_lt (by omega), Nat.mod_eq_of_lt (by omega)] at this
    exact hne this
  simp [hneq]

/-- A nonnegative word at most 2047 is the word of the table row it names. -/
theorem exists_row (w : BitVec 32) (h0 : 0 ≤ w.toInt) (h1 : w.toInt < 2048) :
    ∃ k₀ : Fin 2048, w = BitVec.ofNat 32 k₀.val ∧ rowOf 2048 (by decide) w = k₀ := by
  refine ⟨⟨w.toInt.toNat, by omega⟩, eq_ofNat_of_nonneg w h0, ?_⟩
  unfold rowOf
  apply Fin.ext
  show min w.toInt.toNat (2048 - 1) = w.toInt.toNat
  omega

/-- A word above 2047 is clamped to 2047. -/
theorem clipW_of_large (w : BitVec 32) (h1 : 2048 ≤ w.toInt) : clipW w = 2047#32 := by
  unfold clipW IntOp.minsi IntOp.maxsi
  have hA : ¬ (w.slt 0#32 = true) := by
    rw [BitVec.slt_iff_toInt_lt]; simp; omega
  rw [if_neg hA]
  have hB : (2047#32 : BitVec 32).slt w = true := by
    rw [BitVec.slt_iff_toInt_lt]
    have : (2047#32 : BitVec 32).toInt = 2047 := by decide
    omega
  rw [if_pos hB]

/-- The clamp of a nonnegative word is the word of the row the word names once lowered to 2047. -/
theorem exists_clip_row (w : BitVec 32) (h0 : 0 ≤ w.toInt) :
    ∃ k₀ : Fin 2048, clipW w = BitVec.ofNat 32 k₀.val ∧ rowOf 2048 (by decide) w = k₀ := by
  by_cases h1 : w.toInt < 2048
  · rw [clipW_of_range w h0 h1]
    exact exists_row w h0 h1
  · refine ⟨⟨2047, by decide⟩, clipW_of_large w (by omega), ?_⟩
    unfold rowOf
    apply Fin.ext
    show min w.toInt.toNat (2048 - 1) = 2047
    omega

/-- The one-hot row of a nonnegative word's clamp against a table column is the entry in the row the word names. -/
theorem sum_oneHot_clip_mul (w : BitVec 32) (h0 : 0 ≤ w.toInt) (T : Fin 2048 → EReal) :
    ∑ k : Fin 2048, oneHot (clipW w) k.val * T k = T (rowOf 2048 (by decide) w) := by
  obtain ⟨k₀, hw, hrow⟩ := exists_clip_row w h0
  rw [hrow, hw, Finset.sum_eq_single k₀]
  · rw [oneHot_self, one_mul]
  · intro k _ hk
    rw [oneHot_ne _ _ (by have := k₀.isLt; omega) (by have := k.isLt; omega) (fun h => hk (Fin.ext h)), zero_mul]
  · intro h; exact absurd (Finset.mem_univ _) h

/-! ## The kernel's feature columns are the reference's features -/

section Features
variable (att : Arr2 2 4) (basis : Arr3 4 2048 32) (idx : Wrd2 50000 3) (cj : Arr2 50000 1)

theorem feature_eq (hlo : ∀ i, 0 ≤ (idx i).toInt) (r : Fin 2) (n : Fin 50000) (q : Fin 96) :
    unshuf (gathK (fun i => clipW (idx i)) (wcatK att basis) cj) r n q = featR att basis idx cj r n q := by
  have hq := q.isLt
  have hr := r.isLt
  unfold unshuf gathK featR
  -- the column of the 192 names index column q / 32 and table column 32 r + q % 32
  have hc : (⟨(q.val / 32 * 64 + r.val * 32 + q.val % 32) / 64, by omega⟩ : Fin 3) = colOf q := by
    unfold colOf; apply Fin.ext; show (q.val / 32 * 64 + r.val * 32 + q.val % 32) / 64 = q.val / 32; omega
  show (∑ k : Fin 2048, oneHot (clipW (idx (ix2 n ⟨(q.val / 32 * 64 + r.val * 32 + q.val % 32) / 64, _⟩))) k.val
        * wcatK att basis (ix2 k ⟨(q.val / 32 * 64 + r.val * 32 + q.val % 32) % 64, _⟩)) * cj (ix2 n 0) = _
  rw [hc, wrap_of_nonneg _ _ (hlo _)]
  refine congrArg (· * cj (ix2 n 0)) ?_
  rw [sum_oneHot_clip_mul _ (hlo _)]
  unfold wcatK
  show wt att basis ⟨((q.val / 32 * 64 + r.val * 32 + q.val % 32) % 64) / 32, _⟩ _
        ⟨((q.val / 32 * 64 + r.val * 32 + q.val % 32) % 64) % 32, _⟩ = _
  congr 1
  · apply Fin.ext; show ((q.val / 32 * 64 + r.val * 32 + q.val % 32) % 64) / 32 = r.val; omega
  · unfold entOf; apply Fin.ext
    show ((q.val / 32 * 64 + r.val * 32 + q.val % 32) % 64) % 32 = q.val % 32; omega

theorem wt_real (hatt : ∀ i, IsReal (att i)) (hbasis : ∀ i, IsReal (basis i)) (r : Fin 2) (k : Fin 2048) (j : Fin 32) :
    IsReal (wt att basis r k j) :=
  IsReal.sum _ _ fun b _ => (hatt _).mul (hbasis _)

theorem featR_real (hatt : ∀ i, IsReal (att i)) (hbasis : ∀ i, IsReal (basis i)) (hcj : ∀ i, IsReal (cj i)) (r : Fin 2)
    (n : Fin 50000) (q : Fin 96) : IsReal (featR att basis idx cj r n q) :=
  (wt_real att basis hatt hbasis _ _ _).mul (hcj _)

end Features

/-! ## The accumulators -/

theorem agg_congr (X Y : Fin 50000 → Fin 96 → EReal) (h : ∀ n q, X n q = Y n q) (src dst : Fin 800000 → BitVec 32)
    (k : Fin 50000) (q : Fin 96) : agg X src dst k q = agg Y src dst k q :=
  Finset.sum_congr rfl fun e _ => h _ _

theorem agg_real (X : Fin 50000 → Fin 96 → EReal) (h : ∀ n q, IsReal (X n q)) (src dst : Fin 800000 → BitVec 32)
    (k : Fin 50000) (q : Fin 96) : IsReal (agg X src dst k q) :=
  IsReal.sum _ _ fun e _ => h _ _

/-- THE ACCUMULATORS AGREE: both relations' deliveries of the kernel's feature columns, added and scaled once, against
    each relation's deliveries of the reference's features scaled and added in turn. -/
theorem hK_eq_hR (att : Arr2 2 4) (basis : Arr3 4 2048 32) (idx : Wrd2 50000 3) (cj ci : Arr2 50000 1)
    (src dst : Wrd2 2 800000)
    (hlo : ∀ i, 0 ≤ (idx i).toInt)
    (hatt : ∀ i, IsReal (att i)) (hbasis : ∀ i, IsReal (basis i)) (hcj : ∀ i, IsReal (cj i)) (hci : ∀ i, IsReal (ci i)) :
    hK (gathK (fun i => clipW (idx i)) (wcatK att basis) cj) src dst ci
      = hR (featR att basis idx cj 0) (featR att basis idx cj 1) src dst ci := by
  funext i
  obtain ⟨k, q, rfl⟩ : ∃ (k : Fin 50000) (q : Fin 96), i = ix2 k q := ⟨i 0, i 1, eq_ix2 i⟩
  show (0 + (agg (unshuf (gathK (fun i => clipW (idx i)) (wcatK att basis) cj) 0) (rowW src 0) (rowW dst 0) k q
            + agg (unshuf (gathK (fun i => clipW (idx i)) (wcatK att basis) cj) 1) (rowW src 1) (rowW dst 1) k q))
          * ci (ix2 k 0)
      = (0 + (0 + agg (featR att basis idx cj 0) (rowW src 0) (rowW dst 0) k q) * ci (ix2 k 0))
          + (0 + agg (featR att basis idx cj 1) (rowW src 1) (rowW dst 1) k q) * ci (ix2 k 0)
  rw [agg_congr _ _ (feature_eq att basis idx cj hlo 0), agg_congr _ _ (feature_eq att basis idx cj hlo 1)]
  exact scale_once_eq_scale_each (agg_real _ (featR_real att basis idx cj hatt hbasis hcj 0) _ _ _ _)
    (agg_real _ (featR_real att basis idx cj hatt hbasis hcj 1) _ _ _ _) (hci _)

/-- THE RESULTS AGREE: the last layer applied to either accumulator, the bias read as a row or as a vector. -/
theorem out_eq (att : Arr2 2 4) (basis : Arr3 4 2048 32) (idx : Wrd2 50000 3) (cj ci : Arr2 50000 1)
    (src dst : Wrd2 2 800000) (w : Arr2 96 64) (b : (⟨1, ![64]⟩ : Shape).Idx → EReal)
    (hlo : ∀ i, 0 ≤ (idx i).toInt)
    (hatt : ∀ i, IsReal (att i)) (hbasis : ∀ i, IsReal (basis i)) (hcj : ∀ i, IsReal (cj i)) (hci : ∀ i, IsReal (ci i)) :
    fcK (hK (gathK (fun i => clipW (idx i)) (wcatK att basis) cj) src dst ci) w (fun i => b (ix1 (i 1)))
      = fun i => fcAt (hR (featR att basis idx cj 0) (featR att basis idx cj 1) src dst ci) w (fun o => b (ix1 o))
          (i 0) (i 1) := by
  rw [hK_eq_hR att basis idx cj ci src dst hlo hatt hbasis hcj hci]
  rfl

/-- The same, for two programs run on arrays that agree: the reference's form on its own copies of the arguments. -/
theorem out_eq_of_agree {att att' : Arr2 2 4} {basis basis' : Arr3 4 2048 32} {idx idx' : Wrd2 50000 3}
    {cj cj' ci ci' : Arr2 50000 1} {src src' dst dst' : Wrd2 2 800000} {w w' : Arr2 96 64}
    {b b' : (⟨1, ![64]⟩ : Shape).Idx → EReal}
    (e_att : att' = att) (e_basis : basis' = basis) (e_idx : idx' = idx) (e_cj : cj' = cj) (e_ci : ci' = ci)
    (e_src : src' = src) (e_dst : dst' = dst) (e_w : w' = w) (e_b : b' = b)
    (hlo : ∀ i, 0 ≤ (idx i).toInt)
    (hatt : ∀ i, IsReal (att i)) (hbasis : ∀ i, IsReal (basis i)) (hcj : ∀ i, IsReal (cj i)) (hci : ∀ i, IsReal (ci i)) :
    (fun i => fcAt (hR (featR att' basis' idx' cj' 0) (featR att' basis' idx' cj' 1) src' dst' ci') w'
        (fun o => b' (ix1 o)) (i 0) (i 1) : Arr2 50000 64)
      = fcK (hK (gathK (fun i => clipW (idx i)) (wcatK att basis) cj) src dst ci) w (fun i => b (ix1 (i 1))) := by
  subst e_att e_basis e_idx e_cj e_ci e_src e_dst e_w e_b
  exact (out_eq att' basis' idx' cj' ci' src' dst' w' b' hlo hatt hbasis hcj hci).symm

end Cert.Bridge

end
-- ==== Proof.Pre.lean ====
/-
  What the precondition says, entry by entry. The printed predicate is a conjunction of ten "all entries satisfy"
  tests: for each of the eight float arrays, |x| < +infinity at every entry, and for each of the two node-index arrays,
  0 ≤ w at every entry, the word read signed. An extended real whose absolute value is below +infinity is a real
  number; a nonnegative index is one that a wrap of negative indices leaves alone and a clamp only lowers.
-/
import proofs.«411900_j49117245997357_2_alg».proof.Pre_finite_inputs
import proofs.«411900_j49117245997357_2_alg».proof.Proof.Gen.Pre_finite_inputs
import proofs.«411900_j49117245997357_2_alg».proof.Proof.Spec
import Idealize.ShloMosaic.Lib.ReduceAll
import Idealize.ShloMosaic.Lib.Affine
import Idealize.ShloMosaic.PureOps.Ideal.Laws

noncomputable section

namespace Cert.PreFacts

open Idealize.ShloMosaic Idealize.ShloMosaic.ValueIdx Cert.Spec Cert.Pre_finite_inputs

instance : Subsingleton S_.Idx := ⟨fun a b => funext fun d => d.elim0⟩

/-- The single-precision word of +infinity denotes +infinity. -/
theorem ofBits_inf : Ideal.ofBits .f32 0x7F800000#32 = (⊤ : EReal) := by
  simp [Ideal.ofBits, Ideal.ieee]

/-- An extended real whose absolute value is below +infinity is a real number. -/
theorem isReal_of_abs_lt (x : EReal) (h : Ideal.cmp .olt (max x (-x)) (Ideal.ofBits .f32 0x7F800000#32) = 1#1) :
    IsReal x := by
  rw [ofBits_inf] at h
  induction x using EReal.rec with
  | bot => simp [Ideal.cmp] at h
  | coe r => exact isReal_coe r
  | top => simp [Ideal.cmp] at h

/-- What the precondition gives: the float arrays the proof needs real at every entry, the node indices nonnegative. -/
structure Good (a0 a1 : Wrd2 50000 3) (a4 a5 a6 a7 : Arr2 50000 1) (a8 : Arr2 2 4) (a9 : Arr3 4 2048 32) : Prop where
  real4 : ∀ i, IsReal (a4 i)
  real5 : ∀ i, IsReal (a5 i)
  real6 : ∀ i, IsReal (a6 i)
  real7 : ∀ i, IsReal (a7 i)
  real8 : ∀ i, IsReal (a8 i)
  real9 : ∀ i, IsReal (a9 i)
  lo0 : ∀ i, 0 ≤ (a0 i).toInt
  lo1 : ∀ i, 0 ≤ (a1 i).toInt

variable [Facts]

theorem good_of_pre (a0 a1 : Wrd2 50000 3) (a2 a3 : Wrd2 2 800000) (a4 a5 a6 a7 : Arr2 50000 1) (a8 : Arr2 2 4)
    (a9 : Arr3 4 2048 32) (a10 : Arr2 96 64) (a11 : (⟨1, ![64]⟩ : Shape).Idx → EReal)
    (h : fn (F := Ideal) a0 a1 a2 a3 a4 a5 a6 a7 a8 a9 a10 a11 = fun _ => 1#1) :
    Good a0 a1 a4 a5 a6 a7 a8 a9 := by
  have h0 := congrFun h ix0
  dsimp only [fn, fn_part1, fn_part2, andi] at h0
  simp only [IntOp.andi_eq_one] at h0
  obtain ⟨⟨⟨⟨⟨⟨⟨⟨⟨h4, h5⟩, h6⟩, h7⟩, h8⟩, h9⟩, -⟩, -⟩, hlo0⟩, hlo1⟩ := h0
  refine ⟨fun i => ?_, fun i => ?_, fun i => ?_, fun i => ?_, fun i => ?_, fun i => ?_, fun i => ?_, fun i => ?_⟩
  · exact isReal_of_abs_lt _ (Host.reduce_andi_all _ _ _ _ ix0 h4 i)
  · exact isReal_of_abs_lt _ (Host.reduce_andi_all _ _ _ _ ix0 h5 i)
  · exact isReal_of_abs_lt _ (Host.reduce_andi_all _ _ _ _ ix0 h6 i)
  · exact isReal_of_abs_lt _ (Host.reduce_andi_all _ _ _ _ ix0 h7 i)
  · exact isReal_of_abs_lt _ (Host.reduce_andi_all _ _ _ _ ix0 h8 i)
  · exact isReal_of_abs_lt _ (Host.reduce_andi_all _ _ _ _ ix0 h9 i)
  · have := IntOp.cmpi_sge.1 (Host.reduce_andi_all _ _ _ _ ix0 hlo0 i)
    exact this
  · have := IntOp.cmpi_sge.1 (Host.reduce_andi_all _ _ _ _ ix0 hlo1 i)
    exact this

end Cert.PreFacts

end
-- ==== Proof.lean ====
/-
  The certificate. The kernel's program: four launches among stretches of host operations; its frames are the generated
  ones. The reference: host operations only; its frame is its generated run with the results dropped. Nothing was
  rewritten when the kernel's program was idealized, so there is nothing to preserve. The value claim: under the
  precondition (every float input real, both node-index arrays nonnegative) the kernel's two results, read back through
  its launches and stretches, are the last layer of the scaled accumulator of the edges' deliveries in the kernel's form
  (one-hot products against side-by-side tables, the two relations' edges laid end to end, one scaling); the
  reference's two results are the same last layer of the accumulator in the reference's form (gathered table rows, a
  scaling per relation); and the two forms agree on such inputs.
-/
import proofs.«411900_j49117245997357_2_alg».proof.Defs
import proofs.«411900_j49117245997357_2_alg».proof.Proof.Gen.Kernel
import proofs.«411900_j49117245997357_2_alg».proof.Proof.Gen.Kernel.Frame
import proofs.«411900_j49117245997357_2_alg».proof.Proof.Gen.KernelIdeal
import proofs.«411900_j49117245997357_2_alg».proof.Proof.Gen.KernelIdeal.Frame
import proofs.«411900_j49117245997357_2_alg».proof.Proof.Gen.ReferenceIdeal
import proofs.«411900_j49117245997357_2_alg».proof.Proof.Gen.ReferenceIdeal.Run
import proofs.«411900_j49117245997357_2_alg».proof.Proof.Gen.Pre_finite_inputs
import proofs.«411900_j49117245997357_2_alg».proof.Proof.KernelRun
import proofs.«411900_j49117245997357_2_alg».proof.Proof.Results
import proofs.«411900_j49117245997357_2_alg».proof.Proof.RefValue
import proofs.«411900_j49117245997357_2_alg».proof.Proof.Bridge
import proofs.«411900_j49117245997357_2_alg».proof.Proof.Pre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two programs' results are equal, entry by entry, on inputs the precondition admits. -/
theorem algebraic : Cert.algebraic_KernelIdeal_ReferenceIdeal := by
  intro m ρ m' ρ' hpre hagree
  refine ⟨fun c => Cert.KernelIdeal.Gen.W10 m ρ c (Proc.devRef .tc Cert.KernelIdeal.main_v85),
    fun c => Cert.KernelIdeal.Gen.W10 m ρ c (Proc.devRef .tc Cert.KernelIdeal.main_v87),
    Cert.KernelIdeal.RunResults.run_results (F := Ideal) m ρ, ?_⟩
  refine (θ_run Cert.ReferenceIdeal.defs _ _).mono (fun r h c => ?_)
    (Cert.ReferenceIdeal.Value.run (F := Ideal) m' ρ')
  obtain ⟨h0, h1, hargs⟩ := h c
  have hg := Cert.PreFacts.good_of_pre _ _ _ _ _ _ _ _ _ _ _ _ (hpre c)
  obtain ⟨a0, a1, a2, a3, a4, a5, a6, a7, a8, a9, a10, a11⟩ := hagree c
  refine ⟨h0.trans ?_, h1.trans ?_, hargs⟩
  · exact ((Cert.ReferenceIdeal.RefValue.out0_eq m' c).trans
      (Cert.Bridge.out_eq_of_agree a8 a9 a1 a6 a5 a3 a2 a10 a11 hg.lo1 hg.real8 hg.real9 hg.real6 hg.real5)).trans
      (Cert.KernelIdeal.Results.res0 m ρ c).symm
  · exact ((Cert.ReferenceIdeal.RefValue.out1_eq m' c).trans
      (Cert.Bridge.out_eq_of_agree a8 a9 a0 a4 a7 a2 a3 a10 a11 hg.lo0 hg.real8 hg.real9 hg.real4 hg.real7)).trans
      (Cert.KernelIdeal.Results.res1 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
